-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S1024x1024 : Shape := ⟨2, ![1024, 1024]⟩
abbrev S2x512x512 : Shape := ⟨3, ![2, 512, 512]⟩
abbrev S2x512 : Shape := ⟨2, ![2, 512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_

variable [Facts]

def fn_part3 {F : FTy → Type} [FloatOps F] (main_arg11 : FVec F S2x512 .f32) (main_v48 : IVec S_ 1) (main_v49 : FVec F S2x512 .f32) (main_v50 : FVec F S2x512 .f32) : IVec S_ 1 :=
  let main_v51 : IVec S2x512 1 := cmpf .olt main_v49 main_v50
  let main_c_19 : IVec S_ 1 := constantI S_ 1 1#1
  let main_v52 : IVec S_ 1 := (fun x v => Host.reduce IntOp.andi x v reducesTo_S2x512_S_d0_1 h_S_) main_v51 main_c_19
  let main_v53 : IVec S_ 1 := andi main_v48 main_v52
  let main_v54 : FVec F S2x512 .f32 := Host.absf main_arg11
  let main_cst_20 : FVec F S_ .f32 := constant S_ .f32 0x7F800000#32
  let main_v55 : FVec F S2x512 .f32 := broadcastInDim S2x512 ![] bcast_S_S2x512 main_cst_20
  let main_v56 : IVec S2x512 1 := cmpf .olt main_v54 main_v55
  let main_c_21 : IVec S_ 1 := constantI S_ 1 1#1
  let main_v57 : IVec S_ 1 := (fun x v => Host.reduce IntOp.andi x v reducesTo_S2x512_S_d0_1 h_S_) main_v56 main_c_21
  let main_v58 : IVec S_ 1 := andi main_v53 main_v57
  main_v58

def fn_part2 {F : FTy → Type} [FloatOps F] (main_arg7 : FVec F S2x512 .f32) (main_arg8 : FVec F S2x512x512 .f32) (main_arg9 : FVec F S2x512 .f32) (main_arg10 : FVec F S2x512 .f32) (main_arg11 : FVec F S2x512 .f32) (main_v33 : IVec S_ 1) : IVec S_ 1 :=
  let main_v34 : FVec F S2x512 .f32 := Host.absf main_arg7
  let main_cst_12 : FVec F S_ .f32 := constant S_ .f32 0x7F800000#32
  let main_v35 : FVec F S2x512 .f32 := broadcastInDim S2x512 ![] bcast_S_S2x512 main_cst_12
  let main_v36 : IVec S2x512 1 := cmpf .olt main_v34 main_v35
  let main_c_13 : IVec S_ 1 := constantI S_ 1 1#1
  let main_v37 : IVec S_ 1 := (fun x v => Host.reduce IntOp.andi x v reducesTo_S2x512_S_d0_1 h_S_) main_v36 main_c_13
  let main_v38 : IVec S_ 1 := andi main_v33 main_v37
  let main_v39 : FVec F S2x512x512 .f32 := Host.absf main_arg8
  let main_cst_14 : FVec F S_ .f32 := constant S_ .f32 0x7F800000#32
  let main_v40 : FVec F S2x512x512 .f32 := broadcastInDim S2x512x512 ![] bcast_S_S2x512x512 main_cst_14
  let main_v41 : IVec S2x512x512 1 := cmpf .olt main_v39 main_v40
  let main_c_15 : IVec S_ 1 := constantI S_ 1 1#1
  let main_v42 : IVec S_ 1 := (fun x v => Host.reduce IntOp.andi x v reducesTo_S2x512x512_S_d0_1_2 h_S_) main_v41 main_c_15
  let main_v43 : IVec S_ 1 := andi main_v38 main_v42
  let main_v44 : FVec F S2x512 .f32 := Host.absf main_arg9
  let main_cst_16 : FVec F S_ .f32 := constant S_ .f32 0x7F800000#32
  let main_v45 : FVec F S2x512 .f32 := broadcastInDim S2x512 ![] bcast_S_S2x512 main_cst_16
  let main_v46 : IVec S2x512 1 := cmpf .olt main_v44 main_v45
  let main_c_17 : IVec S_ 1 := constantI S_ 1 1#1
  let main_v47 : IVec S_ 1 := (fun x v => Host.reduce IntOp.andi x v reducesTo_S2x512_S_d0_1 h_S_) main_v46 main_c_17
  let main_v48 : IVec S_ 1 := andi main_v43 main_v47
  let main_v49 : FVec F S2x512 .f32 := Host.absf main_arg10
  let main_cst_18 : FVec F S_ .f32 := constant S_ .f32 0x7F800000#32
  let main_v50 : FVec F S2x512 .f32 := broadcastInDim S2x512 ![] bcast_S_S2x512 main_cst_18
  fn_part3 (F := F) main_arg11 main_v48 main_v49 main_v50

def fn_part1 {F : FTy → Type} [FloatOps F] (main_arg4 : FVec F S2x512x512 .f32) (main_arg5 : FVec F S2x512 .f32) (main_arg6 : FVec F S2x512x512 .f32) (main_arg7 : FVec F S2x512 .f32) (main_arg8 : FVec F S2x512x512 .f32) (main_arg9 : FVec F S2x512 .f32) (main_arg10 : FVec F S2x512 .f32) (main_arg11 : FVec F S2x512 .f32) (main_v13 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v13 main_v17
  let main_v19 : FVec F S2x512x512 .f32 := Host.absf main_arg4
  let main_cst_6 : FVec F S_ .f32 := constant S_ .f32 0x7F800000#32
  let main_v20 : FVec F S2x512x512 .f32 := broadcastInDim S2x512x512 ![] bcast_S_S2x512x512 main_cst_6
  let main_v21 : IVec S2x512x512 1 := cmpf .olt main_v19 main_v20
  let main_c_7 : IVec S_ 1 := constantI S_ 1 1#1
  let main_v22 : IVec S_ 1 := (fun x v => Host.reduce IntOp.andi x v reducesTo_S2x512x512_S_d0_1_2 h_S_) main_v21 main_c_7
  let main_v23 : IVec S_ 1 := andi main_v18 main_v22
  let main_v24 : FVec F S2x512 .f32 := Host.absf main_arg5
  let main_cst_8 : FVec F S_ .f32 := constant S_ .f32 0x7F800000#32
  let main_v25 : FVec F S2x512 .f32 := broadcastInDim S2x512 ![] bcast_S_S2x512 main_cst_8
  let main_v26 : IVec S2x512 1 := cmpf .olt main_v24 main_v25
  let main_c_9 : IVec S_ 1 := constantI S_ 1 1#1
  let main_v27 : IVec S_ 1 := (fun x v => Host.reduce IntOp.andi x v reducesTo_S2x512_S_d0_1 h_S_) main_v26 main_c_9
  let main_v28 : IVec S_ 1 := andi main_v23 main_v27
  let main_v29 : FVec F S2x512x512 .f32 := Host.absf main_arg6
  let main_cst_10 : FVec F S_ .f32 := constant S_ .f32 0x7F800000#32
  let main_v30 : FVec F S2x512x512 .f32 := broadcastInDim S2x512x512 ![] bcast_S_S2x512x512 main_cst_10
  let main_v31 : IVec S2x512x512 1 := cmpf .olt main_v29 main_v30
  let main_c_11 : IVec S_ 1 := constantI S_ 1 1#1
  let main_v32 : IVec S_ 1 := (fun x v => Host.reduce IntOp.andi x v reducesTo_S2x512x512_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x1024x512 .f32) (main_arg1 : FVec F S1024x1024 .f32) (main_arg2 : FVec F S2x512x512 .f32) (main_arg3 : FVec F S2x512 .f32) (main_arg4 : FVec F S2x512x512 .f32) (main_arg5 : FVec F S2x512 .f32) (main_arg6 : FVec F S2x512x512 .f32) (main_arg7 : FVec F S2x512 .f32) (main_arg8 : FVec F S2x512x512 .f32) (main_arg9 : FVec F S2x512 .f32) (main_arg10 : FVec F S2x512 .f32) (main_arg11 : FVec F S2x512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x512x512 .f32 := Host.absf main_arg2
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S2x512 .f32 := Host.absf main_arg3
  let main_cst_4 : FVec F S_ .f32 := constant S_ .f32 0x7F800000#32
  let main_v15 : FVec F S2x512 .f32 := broadcastInDim S2x512 ![] bcast_S_S2x512 main_cst_4
  let main_v16 : IVec S2x512 1 := cmpf .olt main_v14 main_v15
  fn_part1 (F := F) main_arg4 main_arg5 main_arg6 main_arg7 main_arg8 main_arg9 main_arg10 main_arg11 main_v13 main_v16
-- ==== Kernel.lean ====
abbrev S8x1024x512 : Shape := ⟨3, ![8, 1024, 512]⟩
abbrev S1024x1024 : Shape := ⟨2, ![1024, 1024]⟩
abbrev S2x512x512 : Shape := ⟨3, ![2, 512, 512]⟩
abbrev S2x512 : Shape := ⟨2, ![2, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1024x512 : Shape := ⟨3, ![1, 1024, 512]⟩
abbrev S1024x512 : Shape := ⟨2, ![1024, 512]⟩
abbrev S8x1024x8x64 : Shape := ⟨4, ![8, 1024, 8, 64]⟩
abbrev S8x8x1024x64 : Shape := ⟨4, ![8, 8, 1024, 64]⟩
abbrev S1x1x1024x64 : Shape := ⟨4, ![1, 1, 1024, 64]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩

abbrev nBuf : Space → Nat
  | .hbm => 98
  | .vmem => 66
  | .smem => 0
  | _ => 0

abbrev bufTy : (tb : Table) → Fin (tcTables nBuf tb) → BufTy
  | .hbm, ⟨0, _⟩ => ⟨S8x1024x512, .f32⟩
  | .hbm, ⟨1, _⟩ => ⟨S1024x1024, .f32⟩
  | .hbm, ⟨2, _⟩ => ⟨S2x512x512, .f32⟩
  | .hbm, ⟨3, _⟩ => ⟨S2x512, .f32⟩
  | .hbm, ⟨4, _⟩ => ⟨S2x512x512, .f32⟩
  | .hbm, ⟨5, _⟩ => ⟨S2x512, .f32⟩
  | .hbm, ⟨6, _⟩ => ⟨S2x512x512, .f32⟩
  | .hbm, ⟨7, _⟩ => ⟨S2x512, .f32⟩
  | .hbm, ⟨8, _⟩ => ⟨S2x512x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S1x512x512, .f32⟩
  | .hbm, ⟨13, _⟩ => ⟨S512x512, .f32⟩
  | .hbm, ⟨14, _⟩ => ⟨S512x512, .bf16⟩
  | .hbm, ⟨15, _⟩ => ⟨S1x512x512, .f32⟩
  | .hbm, ⟨16, _⟩ => ⟨S512x512, .f32⟩
  | .hbm, ⟨17, _⟩ => ⟨S512x512, .bf16⟩
  | .hbm, ⟨18, _⟩ => ⟨S1x512x512, .f32⟩
  | .hbm, ⟨19, _⟩ => ⟨S512x512, .f32⟩
  | .hbm, ⟨20, _⟩ => ⟨S512x512, .bf16⟩
  | .hbm, ⟨21, _⟩ => ⟨S1x512x512, .f32⟩
  | .hbm, ⟨22, _⟩ => ⟨S512x512, .f32⟩
  | .hbm, ⟨23, _⟩ => ⟨S512x512, .bf16⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S8x1024x512, .f32⟩
  | .hbm, ⟨34, _⟩ => ⟨S8x1024x512, .f32⟩
  | .hbm, ⟨35, _⟩ => ⟨S8x1024x512, .f32⟩
  | .hbm, ⟨36, _⟩ => ⟨S8x1024x8x64, .f32⟩
  | .hbm, ⟨37, _⟩ => ⟨S8x8x1024x64, .f32⟩
  | .hbm, ⟨38, _⟩ => ⟨S8x1024x8x64, .f32⟩
  | .hbm, ⟨39, _⟩ => ⟨S8x8x1024x64, .f32⟩
  | .hbm, ⟨40, _⟩ => ⟨S8x1024x8x64, .f32⟩
  | .hbm, ⟨41, _⟩ => ⟨S8x8x1024x64, .f32⟩
  | .hbm, ⟨42, _⟩ => ⟨S8x8x1024x64, .f32⟩
  | .hbm, ⟨43, _⟩ => ⟨S8x1024x8x64, .f32⟩
  | .hbm, ⟨44, _⟩ => ⟨S8x1024x512, .f32⟩
  | .hbm, ⟨45, _⟩ => ⟨S1x512, .f32⟩
  | .hbm, ⟨46, _⟩ => ⟨S512, .f32⟩
  | .hbm, ⟨47, _⟩ => ⟨S1x512, .f32⟩
  | .hbm, ⟨48, _⟩ => ⟨S512, .f32⟩
  | .hbm, ⟨49, _⟩ => ⟨S1x512, .f32⟩
  | .hbm, ⟨50, _⟩ => ⟨S512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S8x1024x512, .f32⟩
  | .hbm, ⟨55, _⟩ => ⟨S1x512x512, .f32⟩
  | .hbm, ⟨56, _⟩ => ⟨S512x512, .f32⟩
  | .hbm, ⟨57, _⟩ => ⟨S512x512, .bf16⟩
  | .hbm, ⟨58, _⟩ => ⟨S1x512x512, .f32⟩
  | .hbm, ⟨59, _⟩ => ⟨S512x512, .f32⟩
  | .hbm, ⟨60, _⟩ => ⟨S512x512, .bf16⟩
  | .hbm, ⟨61, _⟩ => ⟨S1x512x512, .f32⟩
  | .hbm, ⟨62, _⟩ => ⟨S512x512, .f32⟩
  | .hbm, ⟨63, _⟩ => ⟨S512x512, .bf16⟩
  | .hbm, ⟨64, _⟩ => ⟨S1x512x512, .f32⟩
  | .hbm, ⟨65, _⟩ => ⟨S512x512, .f32⟩
  | .hbm, ⟨66, _⟩ => ⟨S512x512, .bf16⟩
  | .hbm, ⟨67, _⟩ => ⟨S1x512, .f32⟩
  | .hbm, ⟨68, _⟩ => ⟨S512, .f32⟩
  | .hbm, ⟨69, _⟩ => ⟨S1x512, .f32⟩
  | .hbm, ⟨70, _⟩ => ⟨S512, .f32⟩
  | .hbm, ⟨71, _⟩ => ⟨S1x512, .f32⟩
  | .hbm, ⟨72, _⟩ => ⟨S512, .f32⟩
  | .hbm, ⟨73, _⟩ => ⟨S1x512, .f32⟩
  | .hbm, ⟨74, _⟩ => ⟨S1x512, .f32⟩
  | .hbm, ⟨75, _⟩ => ⟨S1x512, .f32⟩
  | .hbm, ⟨76, _⟩ => ⟨S8x1024x512, .f32⟩
  | .hbm, ⟨77, _⟩ => ⟨S8x1024x512, .f32⟩
  | .hbm, ⟨78, _⟩ => ⟨S8x1024x512, .f32⟩
  | .hbm, ⟨79, _⟩ => ⟨S8x1024x8x64, .f32⟩
  | .hbm, ⟨80, _⟩ => ⟨S8x8x1024x64, .f32⟩
  | .hbm, ⟨81, _⟩ => ⟨S8x1024x8x64, .f32⟩
  | .hbm, ⟨82, _⟩ => ⟨S8x8x1024x64, .f32⟩
  | .hbm, ⟨83, _⟩ => ⟨S8x1024x8x64, .f32⟩
  | .hbm, ⟨84, _⟩ => ⟨S8x8x1024x64, .f32⟩
  | .hbm, ⟨85, _⟩ => ⟨S8x8x1024x64, .f32⟩
  | .hbm, ⟨86, _⟩ => ⟨S8x1024x8x64, .f32⟩
  | .hbm, ⟨87, _⟩ => ⟨S8x1024x512, .f32⟩
  | .hbm, ⟨88, _⟩ => ⟨S1x512, .f32⟩
  | .hbm, ⟨89, _⟩ => ⟨S512, .f32⟩
  | .hbm, ⟨90, _⟩ => ⟨S1x512, .f32⟩
  | .hbm, ⟨91, _⟩ => ⟨S512, .f32⟩
  | .hbm, ⟨92, _⟩ => ⟨S1x512, .f32⟩
  | .hbm, ⟨93, _⟩ => ⟨S512, .f32⟩
  | .hbm, ⟨94, _⟩ => ⟨S1x512, .f32⟩
  | .hbm, ⟨95, _⟩ => ⟨S1x512, .f32⟩
  | .hbm, ⟨96, _⟩ => ⟨S1x512, .f32⟩
  | .hbm, ⟨97, _⟩ => ⟨S8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1x1024x64, .f32⟩
  | .local _ .vmem, ⟨15, _⟩ => ⟨S1x1x1024x64, .f32⟩
  | .local _ .vmem, ⟨16, _⟩ => ⟨S1x1x1024x64, .f32⟩
  | .local _ .vmem, ⟨17, _⟩ => ⟨S1x1x1024x64, .f32⟩
  | .local _ .vmem, ⟨18, _⟩ => ⟨S1x1x1024x64, .f32⟩
  | .local _ .vmem, ⟨19, _⟩ => ⟨S1x1x1024x64, .f32⟩
  | .local _ .vmem, ⟨20, _⟩ => ⟨S1024x1024, .f32⟩
  | .local _ .vmem, ⟨21, _⟩ => ⟨S1x1x1024x64, .f32⟩
  | .local _ .vmem, ⟨22, _⟩ => ⟨S1x1x1024x64, .f32⟩
  | .local _ .vmem, ⟨23, _⟩ => ⟨S1x1024x512, .f32⟩
  | .local _ .vmem, ⟨24, _⟩ => ⟨S1x1024x512, .f32⟩
  | .local _ .vmem, ⟨25, _⟩ => ⟨S1x1024x512, .f32⟩
  | .local _ .vmem, ⟨26, _⟩ => ⟨S1x1024x512, .f32⟩
  | .local _ .vmem, ⟨27, _⟩ => ⟨S512x512, .bf16⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x1024x512, .f32⟩
  | .local _ .vmem, ⟨32, _⟩ => ⟨S1x1024x512, .f32⟩
  | .local _ .vmem, ⟨33, _⟩ => ⟨S1x1024x512, .f32⟩
  | .local _ .vmem, ⟨34, _⟩ => ⟨S1x1024x512, .f32⟩
  | .local _ .vmem, ⟨35, _⟩ => ⟨S512x512, .bf16⟩
  | .local _ .vmem, ⟨36, _⟩ => ⟨S1x512, .f32⟩
  | .local _ .vmem, ⟨37, _⟩ => ⟨S512x512, .bf16⟩
  | .local _ .vmem, ⟨38, _⟩ => ⟨S1x512, .f32⟩
  | .local _ .vmem, ⟨39, _⟩ => ⟨S512x512, .bf16⟩
  | .local _ .vmem, ⟨40, _⟩ => ⟨S1x512, .f32⟩
  | .local _ .vmem, ⟨41, _⟩ => ⟨S1x1024x512, .f32⟩
  | .local _ .vmem, ⟨42, _⟩ => ⟨S1x1024x512, .f32⟩
  | .local _ .vmem, ⟨43, _⟩ => ⟨S1x1024x512, .f32⟩
  | .local _ .vmem, ⟨44, _⟩ => ⟨S1x1024x512, .f32⟩
  | .local _ .vmem, ⟨45, _⟩ => ⟨S1x1024x512, .f32⟩
  | .local _ .vmem, ⟨46, _⟩ => ⟨S1x1024x512, .f32⟩
  | .local _ .vmem, ⟨47, _⟩ => ⟨S1x1x1024x64, .f32⟩
  | .local _ .vmem, ⟨48, _⟩ => ⟨S1x1x1024x64, .f32⟩
  | .local _ .vmem, ⟨49, _⟩ => ⟨S1x1x1024x64, .f32⟩
  | .local _ .vmem, ⟨50, _⟩ => ⟨S1x1x1024x64, .f32⟩
  | .local _ .vmem, ⟨51, _⟩ => ⟨S1x1x1024x64, .f32⟩
  | .local _ .vmem, ⟨52, _⟩ => ⟨S1x1x1024x64, .f32⟩
  | .local _ .vmem, ⟨53, _⟩ => ⟨S1024x1024, .f32⟩
  | .local _ .vmem, ⟨54, _⟩ => ⟨S1x1x1024x64, .f32⟩
  | .local _ .vmem, ⟨55, _⟩ => ⟨S1x1x1024x64, .f32⟩
  | .local _ .vmem, ⟨56, _⟩ => ⟨S1x1024x512, .f32⟩
  | .local _ .vmem, ⟨57, _⟩ => ⟨S1x1024x512, .f32⟩
  | .local _ .vmem, ⟨58, _⟩ => ⟨S1x1024x512, .f32⟩
  | .local _ .vmem, ⟨59, _⟩ => ⟨S1x1024x512, .f32⟩
  | .local _ .vmem, ⟨60, _⟩ => ⟨S512x512, .bf16⟩
  | .local _ .vmem, ⟨61, _⟩ => ⟨S1x512, .f32⟩
  | .local _ .vmem, ⟨62, _⟩ => ⟨S1x512, .f32⟩
  | .local _ .vmem, ⟨63, _⟩ => ⟨S1x512, .f32⟩
  | .local _ .vmem, ⟨64, _⟩ => ⟨S1x1024x512, .f32⟩
  | .local _ .vmem, ⟨65, _⟩ => ⟨S1x1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62_0 : Ref sig .tc := ⟨.hbm, 76, rfl⟩
abbrev main_v62_1 : Ref sig .tc := ⟨.hbm, 77, rfl⟩
abbrev main_v62_2 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg7_1 : Ref sig .tc := ⟨.vmem, 42, rfl⟩
abbrev cc3_stg8_0 : Ref sig .tc := ⟨.vmem, 43, rfl⟩
abbrev cc3_stg8_1 : Ref sig .tc := ⟨.vmem, 44, rfl⟩
abbrev cc3_stg9_0 : Ref sig .tc := ⟨.vmem, 45, rfl⟩
abbrev cc3_stg9_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg4_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg6_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem7_1 : DmaSem sig := 42
abbrev cc3_sem8_0 : DmaSem sig := 43
abbrev cc3_sem8_1 : DmaSem sig := 44
abbrev cc3_sem9_0 : DmaSem sig := 45
abbrev cc3_sem9_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem2_1 : DmaSem sig := 52
abbrev cc4_sem3_0 : DmaSem sig := 53
abbrev cc4_sem4_0 : DmaSem sig := 54
abbrev cc4_sem4_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem6_1 : DmaSem sig := 65

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x512 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1x1024x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1024x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1024x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨2, ![8, 8], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_2 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x1x1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1x1024x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S1024x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x1x1024x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1x1024x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x512x512_S1x512x512_0_0_0 : S2x512x512.Slices ![0, 0, 0] S1x512x512
  shapeCasts_S1x512x512_S512x512 : S1x512x512.ShapeCasts S512x512
  bitsLt_bf16_f32 : FTy.bits .bf16 < FTy.bits .f32
  slices_S2x512_S1x512_0_0 : S2x512.Slices ![0, 0] S1x512
  shapeCasts_S1x512_S512 : S1x512.ShapeCasts S512
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  shapeCasts_S8x1024x512_S8x1024x8x64 : S8x1024x512.ShapeCasts S8x1024x8x64
  transposes_S8x1024x8x64_S8x8x1024x64_0_2_1_3 : S8x1024x8x64.Transposes [0, 2, 1, 3] S8x8x1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1x1024x64 : S1024x64.ShapeCasts S1x1x1024x64
  transposes_S8x8x1024x64_S8x1024x8x64_0_2_1_3 : S8x8x1024x64.Transposes [0, 2, 1, 3] S8x1024x8x64
  shapeCasts_S8x1024x8x64_S8x1024x512 : S8x1024x8x64.ShapeCasts S8x1024x512
  reduces_S1024x512_S1024 : S1024x512.Reduces [1] S1024
  broadcasts_S1024x1_S1024x512 : S1024x1.Broadcasts S1024x512
  slices_S2x512x512_S1x512x512_1_0_0 : S2x512x512.Slices ![1, 0, 0] S1x512x512
  slices_S2x512_S1x512_1_0 : S2x512.Slices ![1, 0] S1x512
  dot_S1024x512_S512x512_S1024x512_1_0_0_1_n_n_wf : DotDims.WF S1024x512 S512x512 S1024x512 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S8x1024x512.size a
  hwx0_7 : ∀ i : grid0.Coords, EltTy.bits .f32 = 32 ∨ (Rect.block (s := S8x1024x512) S1x1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x512.size a ≤ S8x1024x512.size a
  hwx0_8 : ∀ i : grid0.Coords, EltTy.bits .f32 = 32 ∨ (Rect.block (s := S8x1024x512) S1x1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x512.size a ≤ S8x1024x512.size a
  hwx0_9 : ∀ i : grid0.Coords, EltTy.bits .f32 = 32 ∨ (Rect.block (s := S8x1024x512) S1x1024x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S8x8x1024x64.size a
  hwx1_0 : ∀ i : grid1.Coords, EltTy.bits .f32 = 32 ∨ (Rect.block (s := S8x8x1024x64) S1x1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S8x8x1024x64.size a
  hwx1_1 : ∀ i : grid1.Coords, EltTy.bits .f32 = 32 ∨ (Rect.block (s := S8x8x1024x64) S1x1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S8x8x1024x64.size a
  hwx1_2 : ∀ i : grid1.Coords, EltTy.bits .f32 = 32 ∨ (Rect.block (s := S8x8x1024x64) S1x1x1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024x64.size a ≤ S8x8x1024x64.size a
  hwx1_4 : ∀ i : grid1.Coords, EltTy.bits .f32 = 32 ∨ (Rect.block (s := S8x8x1024x64) S1x1x1024x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S8x1024x512.size a
  hwx2_0 : ∀ i : grid2.Coords, EltTy.bits .f32 = 32 ∨ (Rect.block (s := S8x1024x512) S1x1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x512.size a ≤ S8x1024x512.size a
  hwx2_1 : ∀ i : grid2.Coords, EltTy.bits .f32 = 32 ∨ (Rect.block (s := S8x1024x512) S1x1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x512.size a ≤ S8x1024x512.size a
  hwx2_6 : ∀ i : grid2.Coords, EltTy.bits .f32 = 32 ∨ (Rect.block (s := S8x1024x512) S1x1024x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x512.size a ≤ S8x1024x512.size a
  hwx3_0 : ∀ i : grid3.Coords, EltTy.bits .f32 = 32 ∨ (Rect.block (s := S8x1024x512) S1x1024x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .bf16 = 32 ∨ (Rect.block (s := S512x512) S512x512.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S512x512.size a
  hwx3_5 : ∀ i : grid3.Coords, EltTy.bits .bf16 = 32 ∨ (Rect.block (s := S512x512) S512x512.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x1024x512.size a ≤ S8x1024x512.size a
  hwx3_7 : ∀ i : grid3.Coords, EltTy.bits .f32 = 32 ∨ (Rect.block (s := S8x1024x512) S1x1024x512.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1024x512.size a ≤ S8x1024x512.size a
  hwx3_8 : ∀ i : grid3.Coords, EltTy.bits .f32 = 32 ∨ (Rect.block (s := S8x1024x512) S1x1024x512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x1024x512.size a ≤ S8x1024x512.size a
  hwx3_9 : ∀ i : grid3.Coords, EltTy.bits .f32 = 32 ∨ (Rect.block (s := S8x1024x512) S1x1024x512.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1x1024x64.size a ≤ S8x8x1024x64.size a
  hwx4_0 : ∀ i : grid4.Coords, EltTy.bits .f32 = 32 ∨ (Rect.block (s := S8x8x1024x64) S1x1x1024x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x1024x64.size a ≤ S8x8x1024x64.size a
  hwx4_1 : ∀ i : grid4.Coords, EltTy.bits .f32 = 32 ∨ (Rect.block (s := S8x8x1024x64) S1x1x1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x1024x64.size a ≤ S8x8x1024x64.size a
  hwx4_2 : ∀ i : grid4.Coords, EltTy.bits .f32 = 32 ∨ (Rect.block (s := S8x8x1024x64) S1x1x1024x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S1024x1024.size a
  hwx4_3 : ∀ i : grid4.Coords, EltTy.bits .f32 = 32 ∨ (Rect.block (s := S1024x1024) S1024x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x1024x64.size a ≤ S8x8x1024x64.size a
  hwx4_4 : ∀ i : grid4.Coords, EltTy.bits .f32 = 32 ∨ (Rect.block (s := S8x8x1024x64) S1x1x1024x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1024x512.size a ≤ S8x1024x512.size a
  hwx5_0 : ∀ i : grid5.Coords, EltTy.bits .f32 = 32 ∨ (Rect.block (s := S8x1024x512) S1x1024x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1024x512.size a ≤ S8x1024x512.size a
  hwx5_1 : ∀ i : grid5.Coords, EltTy.bits .f32 = 32 ∨ (Rect.block (s := S8x1024x512) S1x1024x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S512x512.size a
  hwx5_2 : ∀ i : grid5.Coords, EltTy.bits .bf16 = 32 ∨ (Rect.block (s := S512x512) S512x512.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x512.size a ≤ S1x512.size a
  hwx5_5 : ∀ i : grid5.Coords, EltTy.bits .f32 = 32 ∨ (Rect.block (s := S1x512) S1x512.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x1024x512.size a ≤ S8x1024x512.size a
  hwx5_6 : ∀ i : grid5.Coords, EltTy.bits .f32 = 32 ∨ (Rect.block (s := S8x1024x512) S1x1024x512.size (cc5_transform_6 i) (hinb5_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S1x1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S1x1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v21_2) S1x1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v23) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x1x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1x1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S1x1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v40) S1x1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S512x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v62_0) S1x1024x512.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v62_1) S1x1024x512.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v62_2) S1x1024x512.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v64) S1x1x1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x1x1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x1x1024x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg1) S1024x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1x1x1024x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v71) S1x1024x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S1x1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S512x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S1x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v81) S1x1024x512.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S8x1024x512 : Shape := ⟨3, ![8, 1024, 512]⟩
abbrev S1024x1024 : Shape := ⟨2, ![1024, 1024]⟩
abbrev S2x512x512 : Shape := ⟨3, ![2, 512, 512]⟩
abbrev S2x512 : Shape := ⟨2, ![2, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S8x1024x8x64 : Shape := ⟨4, ![8, 1024, 8, 64]⟩
abbrev S8x8x1024x64 : Shape := ⟨4, ![8, 8, 1024, 64]⟩
abbrev S8x8x1024x1024 : Shape := ⟨4, ![8, 8, 1024, 1024]⟩
abbrev S_ : Shape := ⟨0, ![]⟩
abbrev S1x1x1024x1024 : Shape := ⟨4, ![1, 1, 1024, 1024]⟩
abbrev S8x8x1024 : Shape := ⟨3, ![8, 8, 1024]⟩
abbrev S8x8x1024x1 : Shape := ⟨4, ![8, 8, 1024, 1]⟩
abbrev S8x1024 : Shape := ⟨2, ![8, 1024]⟩
abbrev S8x1024x1 : Shape := ⟨3, ![8, 1024, 1]⟩

abbrev nBuf : Space → Nat
  | .hbm => 204
  | .vmem => 0
  | .smem => 0
  | _ => 0

abbrev hbmTy0_0 (i : Nat) : BufTy := match i % 128 with
  | 0 => ⟨S8x1024x512, .f32⟩
  | 1 => ⟨S1024x1024, .f32⟩
  | 2 => ⟨S2x512x512, .f32⟩
  | 3 => ⟨S2x512, .f32⟩
  | 4 => ⟨S2x512x512, .f32⟩
  | 5 => ⟨S2x512, .f32⟩
  | 6 => ⟨S2x512x512, .f32⟩
  | 7 => ⟨S2x512, .f32⟩
  | 8 => ⟨S2x512x512, .f32⟩
  | 9 => ⟨S2x512, .f32⟩
  | 10 => ⟨S2x512, .f32⟩
  | 11 => ⟨S2x512, .f32⟩
  | 12 => ⟨S1x512x512, .f32⟩
  | 13 => ⟨S512x512, .f32⟩
  | 14 => ⟨S8x1024x512, .f32⟩
  | 15 => ⟨S1x512, .f32⟩
  | 16 => ⟨S512, .f32⟩
  | 17 => ⟨S1x1x512, .f32⟩
  | 18 => ⟨S8x1024x512, .f32⟩
  | 19 => ⟨S8x1024x512, .f32⟩
  | 20 => ⟨S8x1024x8x64, .f32⟩
  | 21 => ⟨S8x8x1024x64, .f32⟩
  | 22 => ⟨S1x512x512, .f32⟩
  | 23 => ⟨S512x512, .f32⟩
  | 24 => ⟨S8x1024x512, .f32⟩
  | 25 => ⟨S1x512, .f32⟩
  | 26 => ⟨S512, .f32⟩
  | 27 => ⟨S1x1x512, .f32⟩
  | 28 => ⟨S8x1024x512, .f32⟩
  | 29 => ⟨S8x1024x512, .f32⟩
  | 30 => ⟨S8x1024x8x64, .f32⟩
  | 31 => ⟨S8x8x1024x64, .f32⟩
  | 32 => ⟨S1x512x512, .f32⟩
  | 33 => ⟨S512x512, .f32⟩
  | 34 => ⟨S8x1024x512, .f32⟩
  | 35 => ⟨S1x512, .f32⟩
  | 36 => ⟨S512, .f32⟩
  | 37 => ⟨S1x1x512, .f32⟩
  | 38 => ⟨S8x1024x512, .f32⟩
  | 39 => ⟨S8x1024x512, .f32⟩
  | 40 => ⟨S8x1024x8x64, .f32⟩
  | 41 => ⟨S8x8x1024x64, .f32⟩
  | 42 => ⟨S8x8x1024x1024, .f32⟩
  | 43 => ⟨S_, .f32⟩
  | 44 => ⟨S8x8x1024x1024, .f32⟩
  | 45 => ⟨S8x8x1024x1024, .f32⟩
  | 46 => ⟨S1x1x1024x1024, .f32⟩
  | 47 => ⟨S8x8x1024x1024, .f32⟩
  | 48 => ⟨S8x8x1024x1024, .f32⟩
  | 49 => ⟨S_, .f32⟩
  | 50 => ⟨S8x8x1024, .f32⟩
  | 51 => ⟨S_, .f32⟩
  | 52 => ⟨S8x8x1024, .f32⟩
  | 53 => ⟨S8x8x1024, .f32⟩
  | 54 => ⟨S8x8x1024x1, .f32⟩
  | 55 => ⟨S8x8x1024x1024, .f32⟩
  | 56 => ⟨S8x8x1024x1024, .f32⟩
  | 57 => ⟨S8x8x1024x1024, .f32⟩
  | 58 => ⟨S_, .f32⟩
  | 59 => ⟨S8x8x1024, .f32⟩
  | 60 => ⟨S8x8x1024x1, .f32⟩
  | 61 => ⟨S8x8x1024x1024, .f32⟩
  | 62 => ⟨S8x8x1024x1024, .f32⟩
  | 63 => ⟨S8x8x1024x64, .f32⟩
  | 64 => ⟨S8x1024x8x64, .f32⟩
  | 65 => ⟨S8x1024x512, .f32⟩
  | 66 => ⟨S1x512x512, .f32⟩
  | 67 => ⟨S512x512, .f32⟩
  | 68 => ⟨S8x1024x512, .f32⟩
  | 69 => ⟨S1x512, .f32⟩
  | 70 => ⟨S512, .f32⟩
  | 71 => ⟨S1x1x512, .f32⟩
  | 72 => ⟨S8x1024x512, .f32⟩
  | 73 => ⟨S8x1024x512, .f32⟩
  | 74 => ⟨S8x1024x512, .f32⟩
  | 75 => ⟨S1x512, .f32⟩
  | 76 => ⟨S512, .f32⟩
  | 77 => ⟨S1x512, .f32⟩
  | 78 => ⟨S512, .f32⟩
  | 79 => ⟨S_, .f32⟩
  | 80 => ⟨S8x1024, .f32⟩
  | 81 => ⟨S8x1024x1, .f32⟩
  | 82 => ⟨S_, .f32⟩
  | 83 => ⟨S8x1024x1, .f32⟩
  | 84 => ⟨S8x1024x1, .f32⟩
  | 85 => ⟨S8x1024x512, .f32⟩
  | 86 => ⟨S8x1024x512, .f32⟩
  | 87 => ⟨S8x1024x512, .f32⟩
  | 88 => ⟨S_, .f32⟩
  | 89 => ⟨S8x1024, .f32⟩
  | 90 => ⟨S8x1024x1, .f32⟩
  | 91 => ⟨S_, .f32⟩
  | 92 => ⟨S8x1024x1, .f32⟩
  | 93 => ⟨S8x1024x1, .f32⟩
  | 94 => ⟨S8x1024x512, .f32⟩
  | 95 => ⟨S8x1024x512, .f32⟩
  | 96 => ⟨S_, .f32⟩
  | 97 => ⟨S8x1024x1, .f32⟩
  | 98 => ⟨S8x1024x1, .f32⟩
  | 99 => ⟨S8x1024x1, .f32⟩
  | 100 => ⟨S8x1024x512, .f32⟩
  | 101 => ⟨S8x1024x512, .f32⟩
  | 102 => ⟨S1x1x512, .f32⟩
  | 103 => ⟨S8x1024x512, .f32⟩
  | 104 => ⟨S8x1024x512, .f32⟩
  | 105 => ⟨S1x1x512, .f32⟩
  | 106 => ⟨S8x1024x512, .f32⟩
  | 107 => ⟨S8x1024x512, .f32⟩
  | 108 => ⟨S1x512x512, .f32⟩
  | 109 => ⟨S512x512, .f32⟩
  | 110 => ⟨S8x1024x512, .f32⟩
  | 111 => ⟨S1x512, .f32⟩
  | 112 => ⟨S512, .f32⟩
  | 113 => ⟨S1x1x512, .f32⟩
  | 114 => ⟨S8x1024x512, .f32⟩
  | 115 => ⟨S8x1024x512, .f32⟩
  | 116 => ⟨S8x1024x8x64, .f32⟩
  | 117 => ⟨S8x8x1024x64, .f32⟩
  | 118 => ⟨S1x512x512, .f32⟩
  | 119 => ⟨S512x512, .f32⟩
  | 120 => ⟨S8x1024x512, .f32⟩
  | 121 => ⟨S1x512, .f32⟩
  | 122 => ⟨S512, .f32⟩
  | 123 => ⟨S1x1x512, .f32⟩
  | 124 => ⟨S8x1024x512, .f32⟩
  | 125 => ⟨S8x1024x512, .f32⟩
  | 126 => ⟨S8x1024x8x64, .f32⟩
  | 127 => ⟨S8x8x1024x64, .f32⟩
  | _ => ⟨S8x1024x512, .f32⟩

abbrev hbmTy0_1 (i : Nat) : BufTy := match i % 128 with
  | 0 => ⟨S1x512x512, .f32⟩
  | 1 => ⟨S512x512, .f32⟩
  | 2 => ⟨S8x1024x512, .f32⟩
  | 3 => ⟨S1x512, .f32⟩
  | 4 => ⟨S512, .f32⟩
  | 5 => ⟨S1x1x512, .f32⟩
  | 6 => ⟨S8x1024x512, .f32⟩
  | 7 => ⟨S8x1024x512, .f32⟩
  | 8 => ⟨S8x1024x8x64, .f32⟩
  | 9 => ⟨S8x8x1024x64, .f32⟩
  | 10 => ⟨S8x8x1024x1024, .f32⟩
  | 11 => ⟨S_, .f32⟩
  | 12 => ⟨S8x8x1024x1024, .f32⟩
  | 13 => ⟨S8x8x1024x1024, .f32⟩
  | 14 => ⟨S1x1x1024x1024, .f32⟩
  | 15 => ⟨S8x8x1024x1024, .f32⟩
  | 16 => ⟨S8x8x1024x1024, .f32⟩
  | 17 => ⟨S_, .f32⟩
  | 18 => ⟨S8x8x1024, .f32⟩
  | 19 => ⟨S_, .f32⟩
  | 20 => ⟨S8x8x1024, .f32⟩
  | 21 => ⟨S8x8x1024, .f32⟩
  | 22 => ⟨S8x8x1024x1, .f32⟩
  | 23 => ⟨S8x8x1024x1024, .f32⟩
  | 24 => ⟨S8x8x1024x1024, .f32⟩
  | 25 => ⟨S8x8x1024x1024, .f32⟩
  | 26 => ⟨S_, .f32⟩
  | 27 => ⟨S8x8x1024, .f32⟩
  | 28 => ⟨S8x8x1024x1, .f32⟩
  | 29 => ⟨S8x8x1024x1024, .f32⟩
  | 30 => ⟨S8x8x1024x1024, .f32⟩
  | 31 => ⟨S8x8x1024x64, .f32⟩
  | 32 => ⟨S8x1024x8x64, .f32⟩
  | 33 => ⟨S8x1024x512, .f32⟩
  | 34 => ⟨S1x512x512, .f32⟩
  | 35 => ⟨S512x512, .f32⟩
  | 36 => ⟨S8x1024x512, .f32⟩
  | 37 => ⟨S1x512, .f32⟩
  | 38 => ⟨S512, .f32⟩
  | 39 => ⟨S1x1x512, .f32⟩
  | 40 => ⟨S8x1024x512, .f32⟩
  | 41 => ⟨S8x1024x512, .f32⟩
  | 42 => ⟨S8x1024x512, .f32⟩
  | 43 => ⟨S1x512, .f32⟩
  | 44 => ⟨S512, .f32⟩
  | 45 => ⟨S1x512, .f32⟩
  | 46 => ⟨S512, .f32⟩
  | 47 => ⟨S_, .f32⟩
  | 48 => ⟨S8x1024, .f32⟩
  | 49 => ⟨S8x1024x1, .f32⟩
  | 50 => ⟨S_, .f32⟩
  | 51 => ⟨S8x1024x1, .f32⟩
  | 52 => ⟨S8x1024x1, .f32⟩
  | 53 => ⟨S8x1024x512, .f32⟩
  | 54 => ⟨S8x1024x512, .f32⟩
  | 55 => ⟨S8x1024x512, .f32⟩
  | 56 => ⟨S_, .f32⟩
  | 57 => ⟨S8x1024, .f32⟩
  | 58 => ⟨S8x1024x1, .f32⟩
  | 59 => ⟨S_, .f32⟩
  | 60 => ⟨S8x1024x1, .f32⟩
  | 61 => ⟨S8x1024x1, .f32⟩
  | 62 => ⟨S8x1024x512, .f32⟩
  | 63 => ⟨S8x1024x512, .f32⟩
  | 64 => ⟨S_, .f32⟩
  | 65 => ⟨S8x1024x1, .f32⟩
  | 66 => ⟨S8x1024x1, .f32⟩
  | 67 => ⟨S8x1024x1, .f32⟩
  | 68 => ⟨S8x1024x512, .f32⟩
  | 69 => ⟨S8x1024x512, .f32⟩
  | 70 => ⟨S1x1x512, .f32⟩
  | 71 => ⟨S8x1024x512, .f32⟩
  | 72 => ⟨S8x1024x512, .f32⟩
  | 73 => ⟨S1x1x512, .f32⟩
  | 74 => ⟨S8x1024x512, .f32⟩
  | 75 => ⟨S8x1024x512, .f32⟩
  | _ => ⟨S8x1024x512, .f32⟩

abbrev hbmTy (i : Nat) : BufTy := match i / 128 with
  | 0 => hbmTy0_0 i
  | 1 => hbmTy0_1 i
  | _ => ⟨S8x1024x512, .f32⟩

abbrev bufTy : (tb : Table) → Fin (tcTables nBuf tb) → BufTy
  | .hbm, ⟨i, _⟩ => hbmTy i
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_cst_1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_3 : Ref sig .tc := ⟨.hbm, 79, rfl⟩
abbrev main_v63 : Ref sig .tc := ⟨.hbm, 80, rfl⟩
abbrev main_v64 : Ref sig .tc := ⟨.hbm, 81, rfl⟩
abbrev main_cst_4 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_5 : Ref sig .tc := ⟨.hbm, 88, rfl⟩
abbrev main_v70 : Ref sig .tc := ⟨.hbm, 89, rfl⟩
abbrev main_v71 : Ref sig .tc := ⟨.hbm, 90, rfl⟩
abbrev main_cst_6 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_7 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_8 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_cst_9 : Ref sig .tc := ⟨.hbm, 145, rfl⟩
abbrev main_v123 : Ref sig .tc := ⟨.hbm, 146, rfl⟩
abbrev main_cst_10 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_11 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_cst_12 : Ref sig .tc := ⟨.hbm, 175, rfl⟩
abbrev main_v150 : Ref sig .tc := ⟨.hbm, 176, rfl⟩
abbrev main_v151 : Ref sig .tc := ⟨.hbm, 177, rfl⟩
abbrev main_cst_13 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_14 : Ref sig .tc := ⟨.hbm, 184, rfl⟩
abbrev main_v157 : Ref sig .tc := ⟨.hbm, 185, rfl⟩
abbrev main_v158 : Ref sig .tc := ⟨.hbm, 186, rfl⟩
abbrev main_cst_15 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_cst_16 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩

abbrev nD : Nat := 1
abbrev τ : Topo := Topo.v7x

variable {F : FTy → Type} [FloatOps F]

class Facts₀ : Prop where
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  shapeCasts_S8x1024x512_S8x1024x8x64 : S8x1024x512.ShapeCasts S8x1024x8x64
  transposes_S8x1024x8x64_S8x8x1024x64_0_2_1_3 : S8x1024x8x64.Transposes [0, 2, 1, 3] S8x8x1024x64
  bcast_S_S8x8x1024x1024 : S_.BroadcastsInDim S8x8x1024x1024 (![] : Fin 0 → Fin S8x8x1024x1024.rank)
  bcast_S1024x1024_S1x1x1024x1024_2_3 : S1024x1024.BroadcastsInDim S1x1x1024x1024 (![2, 3] : Fin 2 → Fin S1x1x1024x1024.rank)
  bcast_S1x1x1024x1024_S8x8x1024x1024_0_1_2_3 : S1x1x1024x1024.BroadcastsInDim S8x8x1024x1024 (![0, 1, 2, 3] : Fin 4 → Fin S8x8x1024x1024.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x64_S8x1024x8x64_0_2_1_3 : S8x8x1024x64.Transposes [0, 2, 1, 3] S8x1024x8x64
  shapeCasts_S8x1024x8x64_S8x1024x512 : S8x1024x8x64.ShapeCasts S8x1024x512
  reducesTo_S8x1024x512_S8x1024_d2 : S8x1024x512.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x512_0_1_2 : S8x1024x1.BroadcastsInDim S8x1024x512 (![0, 1, 2] : Fin 3 → Fin S8x1024x512.rank)
  slices_S2x512x512_S1x512x512_1_0_0 : S2x512x512.Slices ![1, 0, 0] S1x512x512
  slices_S2x512_S1x512_1_0 : S2x512.Slices ![1, 0] S1x512
  dot_S8x1024x512_S512x512_S8x1024x512_2_1_01_0_n_n_wf : DotDims.WF S8x1024x512 S512x512 S8x1024x512 [2] [1] [0, 1] [0] [] []
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x64_S8x8x1024x64_3_2_2_3_01_01_wf : DotDims.WF S8x8x1024x1024 S8x8x1024x64 S8x8x1024x64 [3] [2] [2] [3] [0, 1] [0, 1]

variable [Facts₀]

def dot_S8x1024x512_S512x512_S8x1024x512_2_1_01_0_n_n : DotDims S8x1024x512 S512x512 S8x1024x512 where
  lhsContracting := [2]
  rhsContracting := [1]
  lhsNonContracting := [0, 1]
  rhsNonContracting := [0]
  lhsBatch := []
  rhsBatch := []
  wf := dot_S8x1024x512_S512x512_S8x1024x512_2_1_01_0_n_n_wf
def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf

class Facts : Prop extends Facts₀ where

variable [Facts]
-- ==== Proof.Spec.lean ====
/-
  One attention layer as a function of its arrays, over the extended reals.

  A layer takes the tokens `x` (batch, position, channel), the gate `adj` (position, position) and one
  layer's weights and biases.  It forms three projections of the tokens, splits their channel axis into
  heads, attends within each head with scores gated multiplicatively before the softmax, merges the heads
  back, projects once more, adds the tokens back and normalises each token over its channels.

  Each stage is a whole array written entry by entry, as a sum or a fold over one axis; the splitting and
  merging of the head axis are parameters (`split`, `merge`), because both programs apply one and the same
  pair of layout maps and nothing here needs to know which.
-/
import Idealize.ShloMosaic.PureOps.Ideal
import Idealize.ShloMosaic.Lib.ValueIdx

noncomputable section

namespace Cert.Spec

open Idealize.ShloMosaic Idealize.ShloMosaic.ValueIdx

/-- tokens: batch × position × channel -/
abbrev Tok : Shape := ⟨3, ![8, 1024, 512]⟩
/-- a square weight: output channel × input channel -/
abbrev Mat : Shape := ⟨2, ![512, 512]⟩
/-- one value per channel -/
abbrev Row : Shape := ⟨1, ![512]⟩
/-- the gate: query position × key position -/
abbrev Gate : Shape := ⟨2, ![1024, 1024]⟩
/-- tokens split into heads: batch × head × position × channel within the head -/
abbrev Hd : Shape := ⟨4, ![8, 8, 1024, 64]⟩
/-- scores: batch × head × query position × key position -/
abbrev Sc : Shape := ⟨4, ![8, 8, 1024, 1024]⟩

/-- The score scale, 1/8 = 1/√64, as the float word both programs carry. -/
def eighth : EReal := Ideal.ofBits .f32 0x3E000000#32
/-- The word of −∞: where both running maxima start. -/
def negInf : EReal := Ideal.ofBits .f32 0xFF800000#32
/-- The channel count 512 as a float word: the divisor of both means. -/
def width : EReal := Ideal.ofBits .f32 0x44000000#32
/-- The variance offset as the float word both programs carry. -/
def eps : EReal := Ideal.ofBits .f32 0x3727C5AC#32

/-! ## A projection: `y[n,s,f] = Σ_e x[n,s,e] · w[f,e] + b[f]` -/

def projAt (x : Tok.Idx → EReal) (w : Mat.Idx → EReal) (b : Row.Idx → EReal)
    (n : Fin 8) (s : Fin 1024) (f : Fin 512) : EReal :=
  (∑ e : Fin 512, x (ix3 n s e) * w (ix2 f e)) + b (ix1 f)

def proj (x : Tok.Idx → EReal) (w : Mat.Idx → EReal) (b : Row.Idx → EReal) : Tok.Idx → EReal :=
  fun i => projAt x w b (i 0) (i 1) (i 2)

theorem proj_ix (x : Tok.Idx → EReal) (w : Mat.Idx → EReal) (b : Row.Idx → EReal)
    (n : Fin 8) (s : Fin 1024) (f : Fin 512) : proj x w b (ix3 n s f) = projAt x w b n s f := rfl

/-! ## Gated attention within one head

  `score[i,j] = (Σ_d q[i,d] · k[j,d]) · ⅛ · adj[i,j]`; the softmax over `j` is taken as
  `exp (score − max) / Σ exp (score − max)`; the output is the weighted sum of the values. -/

def scoreAt (q k : Hd.Idx → EReal) (adj : Gate.Idx → EReal) (n h : Fin 8) (i j : Fin 1024) : EReal :=
  ((∑ d : Fin 64, q (ix4 n h i d) * k (ix4 n h j d)) * eighth) * adj (ix2 i j)

def scores (q k : Hd.Idx → EReal) (adj : Gate.Idx → EReal) : Sc.Idx → EReal :=
  fun o => scoreAt q k adj (o 0) (o 1) (o 2) (o 3)

theorem scores_ix (q k : Hd.Idx → EReal) (adj : Gate.Idx → EReal) (n h : Fin 8) (i j : Fin 1024) :
    scores q k adj (ix4 n h i j) = scoreAt q k adj n h i j := rfl

/-- The largest score of a row, as a fold of `max` from −∞. -/
def rowMax (s : Sc.Idx → EReal) (n h : Fin 8) (i : Fin 1024) : EReal :=
  (Finset.univ : Finset (Fin 1024)).fold max negInf (fun j => s (ix4 n h i j))

/-- `exp (score − the row's largest score)`: the softmax's numerator. -/
def softexp (s : Sc.Idx → EReal) : Sc.Idx → EReal :=
  fun o => Ideal.exp (s o - rowMax s (o 0) (o 1) (o 2))

theorem softexp_ix (s : Sc.Idx → EReal) (n h : Fin 8) (i j : Fin 1024) :
    softexp s (ix4 n h i j) = Ideal.exp (s (ix4 n h i j) - rowMax s n h i) := rfl

/-- The numerators' sum over a row: the softmax's denominator. -/
def rowSum (p : Sc.Idx → EReal) (n h : Fin 8) (i : Fin 1024) : EReal := ∑ j : Fin 1024, p (ix4 n h i j)

def mixAt (p : Sc.Idx → EReal) (v : Hd.Idx → EReal) (n h : Fin 8) (i : Fin 1024) (d : Fin 64) : EReal :=
  ∑ j : Fin 1024, Ideal.div (p (ix4 n h i j)) (rowSum p n h i) * v (ix4 n h j d)

/-- The values weighted by numerator / denominator. -/
def mix (p : Sc.Idx → EReal) (v : Hd.Idx → EReal) : Hd.Idx → EReal :=
  fun o => mixAt p v (o 0) (o 1) (o 2) (o 3)

theorem mix_ix (p : Sc.Idx → EReal) (v : Hd.Idx → EReal) (n h : Fin 8) (i : Fin 1024) (d : Fin 64) :
    mix p v (ix4 n h i d) = mixAt p v n h i d := rfl

def attn (q k v : Hd.Idx → EReal) (adj : Gate.Idx → EReal) : Hd.Idx → EReal :=
  mix (softexp (scores q k adj)) v

/-! ## Output projection, residual and normalisation over the channels

  `r = x + (a·woᵀ + bo)`, `μ = Σ r / 512`, `σ² = Σ (r − μ)² / 512`,
  `y = (r − μ) · rsqrt (σ² + ε) · γ + β`. -/

def res (a x : Tok.Idx → EReal) (wo : Mat.Idx → EReal) (bo : Row.Idx → EReal) : Tok.Idx → EReal :=
  fun i => x i + proj a wo bo i

def meanAt (r : Tok.Idx → EReal) (n : Fin 8) (s : Fin 1024) : EReal :=
  Ideal.div (∑ f : Fin 512, r (ix3 n s f)) width

def cenAt (r : Tok.Idx → EReal) (n : Fin 8) (s : Fin 1024) (f : Fin 512) : EReal :=
  r (ix3 n s f) - meanAt r n s

def varAt (r : Tok.Idx → EReal) (n : Fin 8) (s : Fin 1024) : EReal :=
  Ideal.div (∑ f : Fin 512, cenAt r n s f * cenAt r n s f) width

def normalizeAt (r : Tok.Idx → EReal) (g be : Row.Idx → EReal) (n : Fin 8) (s : Fin 1024) (f : Fin 512) : EReal :=
  (cenAt r n s f * Ideal.rsqrt (varAt r n s + eps)) * g (ix1 f) + be (ix1 f)

def normalize (r : Tok.Idx → EReal) (g be : Row.Idx → EReal) : Tok.Idx → EReal :=
  fun i => normalizeAt r g be (i 0) (i 1) (i 2)

theorem normalize_ix (r : Tok.Idx → EReal) (g be : Row.Idx → EReal) (n : Fin 8) (s : Fin 1024) (f : Fin 512) :
    normalize r g be (ix3 n s f) = normalizeAt r g be n s f := rfl

def norm (a x : Tok.Idx → EReal) (wo : Mat.Idx → EReal) (bo g be : Row.Idx → EReal) : Tok.Idx → EReal :=
  normalize (res a x wo bo) g be

/-! ## One layer -/

/-- One layer; `split` and `merge` are the layout maps between the token layout and the per-head layout. -/
def layer (split : (Tok.Idx → EReal) → Hd.Idx → EReal) (merge : (Hd.Idx → EReal) → Tok.Idx → EReal)
    (x : Tok.Idx → EReal) (adj : Gate.Idx → EReal)
    (wq : Mat.Idx → EReal) (bq : Row.Idx → EReal) (wk : Mat.Idx → EReal) (bk : Row.Idx → EReal)
    (wv : Mat.Idx → EReal) (bv : Row.Idx → EReal) (wo : Mat.Idx → EReal) (bo g be : Row.Idx → EReal) : Tok.Idx → EReal :=
  norm (merge (attn (split (proj x wq bq)) (split (proj x wk bk)) (split (proj x wv bv)) adj)) x wo bo g be

/-- A bias stored as a 1 × 512 array, read as one value per channel. -/
def rowOf (b : (⟨2, ![1, 512]⟩ : Shape).Idx → EReal) : Row.Idx → EReal := fun r => b (ix2 (0 : Fin 1) (r 0))

end Cert.Spec

end
-- ==== Proof.KernelLaws.lean ====
/-
  The first layer on the kernel's side: what the region that ends the layer leaves in its output array, as
  the specification's layer applied to the contents the layer is entered with.

  The program alternates stretches of layout operations with regions.  Each stretch's results are read back
  as terms over the contents before it; each region's outputs are the specification's stage of its input
  arrays (the three laws taken as hypotheses here); an array that a stretch does not write, or that is not
  an output of a region, keeps its contents.  Composing these, boundary by boundary, gives the layer.
-/
import proofs.«428822_j16243566313770_3_alg».proof.Proof.Gen.KernelIdeal.Frame
import proofs.«428822_j16243566313770_3_alg».proof.Proof.Spec
import Idealize.ShloMosaic.Lib.StableHlo.Run
import Idealize.ShloMosaic.Lib.Pipeline.Value

set_option maxRecDepth 16384

noncomputable section

namespace Cert.KernelIdeal.Chain

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.StableHlo

/-! ## The kernel program's spellings of the layout maps, the weights and the rows -/

/-- the channel axis split into heads and the head axis moved in front of the positions -/
def split (q : FVec Ideal S8x1024x512 .f32) : FVec Ideal S8x8x1024x64 .f32 :=
  transpose S8x8x1024x64 [0, 2, 1, 3] (shapeCast _ q shapeCasts_S8x1024x512_S8x1024x8x64) transposes_S8x1024x8x64_S8x8x1024x64_0_2_1_3

/-- the head axis moved back behind the positions and merged into the channel axis -/
def merge (a : FVec Ideal S8x8x1024x64 .f32) : FVec Ideal S8x1024x512 .f32 :=
  shapeCast _ (transpose S8x1024x8x64 [0, 2, 1, 3] a transposes_S8x8x1024x64_S8x1024x8x64_0_2_1_3) shapeCasts_S8x1024x8x64_S8x1024x512

/-- the first layer's weight out of the stacked pair (the change of float format is the identity here) -/
def weight0 (W : FVec Ideal S2x512x512 .f32) : FVec Ideal S512x512 .bf16 :=
  truncf (F := Ideal) .bf16 (shapeCast _ (extractStridedSlice S1x512x512 ![0, 0, 0] W slices_S2x512x512_S1x512x512_0_0_0) shapeCasts_S1x512x512_S512x512) bitsLt_bf16_f32

/-- the second layer's weight out of the stacked pair -/
def weight1 (W : FVec Ideal S2x512x512 .f32) : FVec Ideal S512x512 .bf16 :=
  truncf (F := Ideal) .bf16 (shapeCast _ (extractStridedSlice S1x512x512 ![1, 0, 0] W slices_S2x512x512_S1x512x512_1_0_0) shapeCasts_S1x512x512_S512x512) bitsLt_bf16_f32

/-- the first layer's row out of the stacked pair, as a 1 × 512 array -/
def row0 (B : FVec Ideal S2x512 .f32) : FVec Ideal S1x512 .f32 :=
  shapeCast _ (shapeCast _ (extractStridedSlice S1x512 ![0, 0] B slices_S2x512_S1x512_0_0) shapeCasts_S1x512_S512) shapeCasts_S512_S1x512

/-- the second layer's row out of the stacked pair, as a 1 × 512 array -/
def row1 (B : FVec Ideal S2x512 .f32) : FVec Ideal S1x512 .f32 :=
  shapeCast _ (shapeCast _ (extractStridedSlice S1x512 ![1, 0] B slices_S2x512_S1x512_1_0) shapeCasts_S1x512_S512) shapeCasts_S512_S1x512

/-! ## What the six regions compute: the laws the chain composes -/

/-- Each region's output arrays after its run are the specification's stage of its input arrays, whatever
    contents the region is entered with. -/
structure RegionLaws : Prop where
  q0 : ∀ (V : (c : Dev nD) → (b : Ref sig .tc) → Buf (Elt Ideal) ((c : Thread nD τ).loc b)) (c : Dev nD),
    (dat0 (F := Ideal) V c).arrAt 7 cfg0.N = Cert.Spec.proj (V c main_arg0) (V c main_v2) (Cert.Spec.rowOf (V c main_v18))
  k0 : ∀ (V : (c : Dev nD) → (b : Ref sig .tc) → Buf (Elt Ideal) ((c : Thread nD τ).loc b)) (c : Dev nD),
    (dat0 (F := Ideal) V c).arrAt 8 cfg0.N = Cert.Spec.proj (V c main_arg0) (V c main_v5) (Cert.Spec.rowOf (V c main_v19))
  v0 : ∀ (V : (c : Dev nD) → (b : Ref sig .tc) → Buf (Elt Ideal) ((c : Thread nD τ).loc b)) (c : Dev nD),
    (dat0 (F := Ideal) V c).arrAt 9 cfg0.N = Cert.Spec.proj (V c main_arg0) (V c main_v8) (Cert.Spec.rowOf (V c main_v20))
  a1 : ∀ (V : (c : Dev nD) → (b : Ref sig .tc) → Buf (Elt Ideal) ((c : Thread nD τ).loc b)) (c : Dev nD),
    (dat1 (F := Ideal) V c).arrAt 4 cfg1.N = Cert.Spec.attn (V c main_v23) (V c main_v25) (V c main_v27) (V c main_arg1)
  n2 : ∀ (V : (c : Dev nD) → (b : Ref sig .tc) → Buf (Elt Ideal) ((c : Thread nD τ).loc b)) (c : Dev nD),
    (dat2 (F := Ideal) V c).arrAt 6 cfg2.N = Cert.Spec.norm (V c main_v30) (V c main_arg0) (V c main_v11)
      (Cert.Spec.rowOf (V c main_v37)) (Cert.Spec.rowOf (V c main_v38)) (Cert.Spec.rowOf (V c main_v39))
  q3 : ∀ (V : (c : Dev nD) → (b : Ref sig .tc) → Buf (Elt Ideal) ((c : Thread nD τ).loc b)) (c : Dev nD),
    (dat3 (F := Ideal) V c).arrAt 7 cfg3.N = Cert.Spec.proj (V c main_v40) (V c main_v43) (Cert.Spec.rowOf (V c main_v59))
  k3 : ∀ (V : (c : Dev nD) → (b : Ref sig .tc) → Buf (Elt Ideal) ((c : Thread nD τ).loc b)) (c : Dev nD),
    (dat3 (F := Ideal) V c).arrAt 8 cfg3.N = Cert.Spec.proj (V c main_v40) (V c main_v46) (Cert.Spec.rowOf (V c main_v60))
  v3 : ∀ (V : (c : Dev nD) → (b : Ref sig .tc) → Buf (Elt Ideal) ((c : Thread nD τ).loc b)) (c : Dev nD),
    (dat3 (F := Ideal) V c).arrAt 9 cfg3.N = Cert.Spec.proj (V c main_v40) (V c main_v49) (Cert.Spec.rowOf (V c main_v61))
  a4 : ∀ (V : (c : Dev nD) → (b : Ref sig .tc) → Buf (Elt Ideal) ((c : Thread nD τ).loc b)) (c : Dev nD),
    (dat4 (F := Ideal) V c).arrAt 4 cfg4.N = Cert.Spec.attn (V c main_v64) (V c main_v66) (V c main_v68) (V c main_arg1)
  n5 : ∀ (V : (c : Dev nD) → (b : Ref sig .tc) → Buf (Elt Ideal) ((c : Thread nD τ).loc b)) (c : Dev nD),
    (dat5 (F := Ideal) V c).arrAt 6 cfg5.N = Cert.Spec.norm (V c main_v71) (V c main_v40) (V c main_v52)
      (Cert.Spec.rowOf (V c main_v78)) (Cert.Spec.rowOf (V c main_v79)) (Cert.Spec.rowOf (V c main_v80))

end Cert.KernelIdeal.Chain

end
-- ==== Proof.KernelChainA.lean ====
/-
  The first layer on the kernel's side: what the region that ends the layer leaves in its output array is the
  specification's layer applied to the contents the layer is entered with.

  The program alternates stretches of layout operations with regions.  A stretch's results are read back as
  terms over the contents before it; a region's outputs are the specification's stage of its input arrays
  (the region laws); an array that a stretch does not write, or that is not an output of a region, keeps its
  contents.  Composing these, boundary by boundary, gives the layer.
-/
import proofs.«428822_j16243566313770_3_alg».proof.Proof.KernelLaws

set_option maxRecDepth 16384

noncomputable section

namespace Cert.KernelIdeal.ChainA

open Cert.KernelIdeal.Chain

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.StableHlo

variable (m : (ℓ : Loc nD τ sig) → Buf (Elt Ideal) ℓ) (ρ : Dev nD → PrngReg)

/-! ## The first stretch: the layer's weights and rows are cut out of the stacked arrays; nothing else moves -/

theorem s0_arg0 (c : Dev nD) : W1 (F := Ideal) m ρ c (Proc.devRef .tc main_arg0) = W0 (F := Ideal) m ρ c (Proc.devRef .tc main_arg0) := by
  show StableHlo.after hostOps0 (W0 m ρ c) (Proc.devRef .tc main_arg0) = _
  simp only [hostOps0]
  after_results_simp

theorem s0_arg1 (c : Dev nD) : W1 (F := Ideal) m ρ c (Proc.devRef .tc main_arg1) = W0 (F := Ideal) m ρ c (Proc.devRef .tc main_arg1) := by
  show StableHlo.after hostOps0 (W0 m ρ c) (Proc.devRef .tc main_arg1) = _
  simp only [hostOps0]
  after_results_simp

theorem s0_arg9 (c : Dev nD) : W1 (F := Ideal) m ρ c (Proc.devRef .tc main_arg9) = W0 (F := Ideal) m ρ c (Proc.devRef .tc main_arg9) := by
  show StableHlo.after hostOps0 (W0 m ρ c) (Proc.devRef .tc main_arg9) = _
  simp only [hostOps0]
  after_results_simp

theorem s0_arg10 (c : Dev nD) : W1 (F := Ideal) m ρ c (Proc.devRef .tc main_arg10) = W0 (F := Ideal) m ρ c (Proc.devRef .tc main_arg10) := by
  show StableHlo.after hostOps0 (W0 m ρ c) (Proc.devRef .tc main_arg10) = _
  simp only [hostOps0]
  after_results_simp

theorem s0_arg11 (c : Dev nD) : W1 (F := Ideal) m ρ c (Proc.devRef .tc main_arg11) = W0 (F := Ideal) m ρ c (Proc.devRef .tc main_arg11) := by
  show StableHlo.after hostOps0 (W0 m ρ c) (Proc.devRef .tc main_arg11) = _
  simp only [hostOps0]
  after_results_simp

theorem s0_v2 (c : Dev nD) : W1 (F := Ideal) m ρ c (Proc.devRef .tc main_v2) = weight0 (W0 (F := Ideal) m ρ c (Proc.devRef .tc main_arg2)) := by
  show StableHlo.after hostOps0 (W0 m ρ c) (Proc.devRef .tc main_v2) = _
  simp only [hostOps0]
  after_results_simp
  rfl

theorem s0_v5 (c : Dev nD) : W1 (F := Ideal) m ρ c (Proc.devRef .tc main_v5) = weight0 (W0 (F := Ideal) m ρ c (Proc.devRef .tc main_arg4)) := by
  show StableHlo.after hostOps0 (W0 m ρ c) (Proc.devRef .tc main_v5) = _
  simp only [hostOps0]
  after_results_simp
  rfl

theorem s0_v8 (c : Dev nD) : W1 (F := Ideal) m ρ c (Proc.devRef .tc main_v8) = weight0 (W0 (F := Ideal) m ρ c (Proc.devRef .tc main_arg6)) := by
  show StableHlo.after hostOps0 (W0 m ρ c) (Proc.devRef .tc main_v8) = _
  simp only [hostOps0]
  after_results_simp
  rfl

theorem s0_v11 (c : Dev nD) : W1 (F := Ideal) m ρ c (Proc.devRef .tc main_v11) = weight0 (W0 (F := Ideal) m ρ c (Proc.devRef .tc main_arg8)) := by
  show StableHlo.after hostOps0 (W0 m ρ c) (Proc.devRef .tc main_v11) = _
  simp only [hostOps0]
  after_results_simp
  rfl

theorem s0_v18 (c : Dev nD) : W1 (F := Ideal) m ρ c (Proc.devRef .tc main_v18) = row0 (W0 (F := Ideal) m ρ c (Proc.devRef .tc main_arg3)) := by
  show StableHlo.after hostOps0 (W0 m ρ c) (Proc.devRef .tc main_v18) = _
  simp only [hostOps0]
  after_results_simp
  rfl

theorem s0_v19 (c : Dev nD) : W1 (F := Ideal) m ρ c (Proc.devRef .tc main_v19) = row0 (W0 (F := Ideal) m ρ c (Proc.devRef .tc main_arg5)) := by
  show StableHlo.after hostOps0 (W0 m ρ c) (Proc.devRef .tc main_v19) = _
  simp only [hostOps0]
  after_results_simp
  rfl

theorem s0_v20 (c : Dev nD) : W1 (F := Ideal) m ρ c (Proc.devRef .tc main_v20) = row0 (W0 (F := Ideal) m ρ c (Proc.devRef .tc main_arg7)) := by
  show StableHlo.after hostOps0 (W0 m ρ c) (Proc.devRef .tc main_v20) = _
  simp only [hostOps0]
  after_results_simp
  rfl

/-! ## The first region: the three projections -/

theorem r0_q (laws : RegionLaws) (c : Dev nD) : W2 (F := Ideal) m ρ c (Proc.devRef .tc main_v21_0)
    = Cert.Spec.proj (W1 (F := Ideal) m ρ c (Proc.devRef .tc main_arg0)) (W1 (F := Ideal) m ρ c (Proc.devRef .tc main_v2)) (Cert.Spec.rowOf (W1 (F := Ideal) m ρ c (Proc.devRef .tc main_v18))) :=
  (W2_arr m ρ c 7).trans (laws.q0 (V1 m ρ) c)

theorem r0_k (laws : RegionLaws) (c : Dev nD) : W2 (F := Ideal) m ρ c (Proc.devRef .tc main_v21_1)
    = Cert.Spec.proj (W1 (F := Ideal) m ρ c (Proc.devRef .tc main_arg0)) (W1 (F := Ideal) m ρ c (Proc.devRef .tc main_v5)) (Cert.Spec.rowOf (W1 (F := Ideal) m ρ c (Proc.devRef .tc main_v19))) :=
  (W2_arr m ρ c 8).trans (laws.k0 (V1 m ρ) c)

theorem r0_v (laws : RegionLaws) (c : Dev nD) : W2 (F := Ideal) m ρ c (Proc.devRef .tc main_v21_2)
    = Cert.Spec.proj (W1 (F := Ideal) m ρ c (Proc.devRef .tc main_arg0)) (W1 (F := Ideal) m ρ c (Proc.devRef .tc main_v8)) (Cert.Spec.rowOf (W1 (F := Ideal) m ρ c (Proc.devRef .tc main_v20))) :=
  (W2_arr m ρ c 9).trans (laws.v0 (V1 m ρ) c)

/-- the tokens are an input of the region: it leaves them as they were -/
theorem r0_arg0 (c : Dev nD) : W2 (F := Ideal) m ρ c (Proc.devRef .tc main_arg0) = W1 (F := Ideal) m ρ c (Proc.devRef .tc main_arg0) :=
  (W2_arr m ρ c 0).trans (((dat0 (V1 m ρ) c).arrAt_in 0 rfl _).trans (A_eq0 (V1 m ρ) c 0))

theorem r0_arg1 (c : Dev nD) : W2 (F := Ideal) m ρ c (Proc.devRef .tc main_arg1) = W1 (F := Ideal) m ρ c (Proc.devRef .tc main_arg1) :=
  W2_of_ne m ρ c main_arg1 (by decide)

theorem r0_v11 (c : Dev nD) : W2 (F := Ideal) m ρ c (Proc.devRef .tc main_v11) = W1 (F := Ideal) m ρ c (Proc.devRef .tc main_v11) :=
  W2_of_ne m ρ c main_v11 (by decide)

theorem r0_arg9 (c : Dev nD) : W2 (F := Ideal) m ρ c (Proc.devRef .tc main_arg9) = W1 (F := Ideal) m ρ c (Proc.devRef .tc main_arg9) :=
  W2_of_ne m ρ c main_arg9 (by decide)

theorem r0_arg10 (c : Dev nD) : W2 (F := Ideal) m ρ c (Proc.devRef .tc main_arg10) = W1 (F := Ideal) m ρ c (Proc.devRef .tc main_arg10) :=
  W2_of_ne m ρ c main_arg10 (by decide)

theorem r0_arg11 (c : Dev nD) : W2 (F := Ideal) m ρ c (Proc.devRef .tc main_arg11) = W1 (F := Ideal) m ρ c (Proc.devRef .tc main_arg11) :=
  W2_of_ne m ρ c main_arg11 (by decide)

/-! ## The second stretch: the three projections are split into heads -/

theorem s1_v23 (c : Dev nD) : W3 (F := Ideal) m ρ c (Proc.devRef .tc main_v23) = split (W2 (F := Ideal) m ρ c (Proc.devRef .tc main_v21_0)) := by
  show StableHlo.after hostOps1 (W2 m ρ c) (Proc.devRef .tc main_v23) = _
  simp only [hostOps1]
  after_results_simp
  rfl

theorem s1_v25 (c : Dev nD) : W3 (F := Ideal) m ρ c (Proc.devRef .tc main_v25) = split (W2 (F := Ideal) m ρ c (Proc.devRef .tc main_v21_1)) := by
  show StableHlo.after hostOps1 (W2 m ρ c) (Proc.devRef .tc main_v25) = _
  simp only [hostOps1]
  after_results_simp
  rfl

theorem s1_v27 (c : Dev nD) : W3 (F := Ideal) m ρ c (Proc.devRef .tc main_v27) = split (W2 (F := Ideal) m ρ c (Proc.devRef .tc main_v21_2)) := by
  show StableHlo.after hostOps1 (W2 m ρ c) (Proc.devRef .tc main_v27) = _
  simp only [hostOps1]
  after_results_simp
  rfl

theorem s1_arg0 (c : Dev nD) : W3 (F := Ideal) m ρ c (Proc.devRef .tc main_arg0) = W2 (F := Ideal) m ρ c (Proc.devRef .tc main_arg0) := by
  show StableHlo.after hostOps1 (W2 m ρ c) (Proc.devRef .tc main_arg0) = _
  simp only [hostOps1]
  after_results_simp

theorem s1_arg1 (c : Dev nD) : W3 (F := Ideal) m ρ c (Proc.devRef .tc main_arg1) = W2 (F := Ideal) m ρ c (Proc.devRef .tc main_arg1) := by
  show StableHlo.after hostOps1 (W2 m ρ c) (Proc.devRef .tc main_arg1) = _
  simp only [hostOps1]
  after_results_simp

theorem s1_v11 (c : Dev nD) : W3 (F := Ideal) m ρ c (Proc.devRef .tc main_v11) = W2 (F := Ideal) m ρ c (Proc.devRef .tc main_v11) := by
  show StableHlo.after hostOps1 (W2 m ρ c) (Proc.devRef .tc main_v11) = _
  simp only [hostOps1]
  after_results_simp

theorem s1_arg9 (c : Dev nD) : W3 (F := Ideal) m ρ c (Proc.devRef .tc main_arg9) = W2 (F := Ideal) m ρ c (Proc.devRef .tc main_arg9) := by
  show StableHlo.after hostOps1 (W2 m ρ c) (Proc.devRef .tc main_arg9) = _
  simp only [hostOps1]
  after_results_simp

theorem s1_arg10 (c : Dev nD) : W3 (F := Ideal) m ρ c (Proc.devRef .tc main_arg10) = W2 (F := Ideal) m ρ c (Proc.devRef .tc main_arg10) := by
  show StableHlo.after hostOps1 (W2 m ρ c) (Proc.devRef .tc main_arg10) = _
  simp only [hostOps1]
  after_results_simp

theorem s1_arg11 (c : Dev nD) : W3 (F := Ideal) m ρ c (Proc.devRef .tc main_arg11) = W2 (F := Ideal) m ρ c (Proc.devRef .tc main_arg11) := by
  show StableHlo.after hostOps1 (W2 m ρ c) (Proc.devRef .tc main_arg11) = _
  simp only [hostOps1]
  after_results_simp

/-! ## The second region: attention within each head -/

theorem r1_a (laws : RegionLaws) (c : Dev nD) : W4 (F := Ideal) m ρ c (Proc.devRef .tc main_v28)
    = Cert.Spec.attn (W3 (F := Ideal) m ρ c (Proc.devRef .tc main_v23)) (W3 (F := Ideal) m ρ c (Proc.devRef .tc main_v25)) (W3 (F := Ideal) m ρ c (Proc.devRef .tc main_v27)) (W3 (F := Ideal) m ρ c (Proc.devRef .tc main_arg1)) :=
  (W4_arr m ρ c 4).trans (laws.a1 (V3 m ρ) c)

theorem r1_arg0 (c : Dev nD) : W4 (F := Ideal) m ρ c (Proc.devRef .tc main_arg0) = W3 (F := Ideal) m ρ c (Proc.devRef .tc main_arg0) :=
  W4_of_ne m ρ c main_arg0 (by decide)

theorem r1_v11 (c : Dev nD) : W4 (F := Ideal) m ρ c (Proc.devRef .tc main_v11) = W3 (F := Ideal) m ρ c (Proc.devRef .tc main_v11) :=
  W4_of_ne m ρ c main_v11 (by decide)

theorem r1_arg9 (c : Dev nD) : W4 (F := Ideal) m ρ c (Proc.devRef .tc main_arg9) = W3 (F := Ideal) m ρ c (Proc.devRef .tc main_arg9) :=
  W4_of_ne m ρ c main_arg9 (by decide)

theorem r1_arg10 (c : Dev nD) : W4 (F := Ideal) m ρ c (Proc.devRef .tc main_arg10) = W3 (F := Ideal) m ρ c (Proc.devRef .tc main_arg10) :=
  W4_of_ne m ρ c main_arg10 (by decide)

theorem r1_arg11 (c : Dev nD) : W4 (F := Ideal) m ρ c (Proc.devRef .tc main_arg11) = W3 (F := Ideal) m ρ c (Proc.devRef .tc main_arg11) :=
  W4_of_ne m ρ c main_arg11 (by decide)

/-! ## The third stretch: the heads are merged back, and the output rows are cut out of their stacked arrays -/

theorem s2_v30 (c : Dev nD) : W5 (F := Ideal) m ρ c (Proc.devRef .tc main_v30) = merge (W4 (F := Ideal) m ρ c (Proc.devRef .tc main_v28)) := by
  show StableHlo.after hostOps2 (W4 m ρ c) (Proc.devRef .tc main_v30) = _
  simp only [hostOps2]
  after_results_simp
  rfl

theorem s2_v37 (c : Dev nD) : W5 (F := Ideal) m ρ c (Proc.devRef .tc main_v37) = row0 (W4 (F := Ideal) m ρ c (Proc.devRef .tc main_arg9)) := by
  show StableHlo.after hostOps2 (W4 m ρ c) (Proc.devRef .tc main_v37) = _
  simp only [hostOps2]
  after_results_simp
  rfl

theorem s2_v38 (c : Dev nD) : W5 (F := Ideal) m ρ c (Proc.devRef .tc main_v38) = row0 (W4 (F := Ideal) m ρ c (Proc.devRef .tc main_arg10)) := by
  show StableHlo.after hostOps2 (W4 m ρ c) (Proc.devRef .tc main_v38) = _
  simp only [hostOps2]
  after_results_simp
  rfl

theorem s2_v39 (c : Dev nD) : W5 (F := Ideal) m ρ c (Proc.devRef .tc main_v39) = row0 (W4 (F := Ideal) m ρ c (Proc.devRef .tc main_arg11)) := by
  show StableHlo.after hostOps2 (W4 m ρ c) (Proc.devRef .tc main_v39) = _
  simp only [hostOps2]
  after_results_simp
  rfl

theorem s2_arg0 (c : Dev nD) : W5 (F := Ideal) m ρ c (Proc.devRef .tc main_arg0) = W4 (F := Ideal) m ρ c (Proc.devRef .tc main_arg0) := by
  show StableHlo.after hostOps2 (W4 m ρ c) (Proc.devRef .tc main_arg0) = _
  simp only [hostOps2]
  after_results_simp

theorem s2_v11 (c : Dev nD) : W5 (F := Ideal) m ρ c (Proc.devRef .tc main_v11) = W4 (F := Ideal) m ρ c (Proc.devRef .tc main_v11) := by
  show StableHlo.after hostOps2 (W4 m ρ c) (Proc.devRef .tc main_v11) = _
  simp only [hostOps2]
  after_results_simp

/-! ## The third region: output projection, residual, normalisation -/

theorem r2_n (laws : RegionLaws) (c : Dev nD) : W6 (F := Ideal) m ρ c (Proc.devRef .tc main_v40)
    = Cert.Spec.norm (W5 (F := Ideal) m ρ c (Proc.devRef .tc main_v30)) (W5 (F := Ideal) m ρ c (Proc.devRef .tc main_arg0)) (W5 (F := Ideal) m ρ c (Proc.devRef .tc main_v11))
        (Cert.Spec.rowOf (W5 (F := Ideal) m ρ c (Proc.devRef .tc main_v37))) (Cert.Spec.rowOf (W5 (F := Ideal) m ρ c (Proc.devRef .tc main_v38))) (Cert.Spec.rowOf (W5 (F := Ideal) m ρ c (Proc.devRef .tc main_v39))) :=
  (W6_arr m ρ c 6).trans (laws.n2 (V5 m ρ) c)

/-! ## The layer -/

/-- What the layer's last region leaves in its output array: the specification's layer of the tokens, the gate
    and the first layer's weights and rows, all as the layer is entered with them. -/
theorem layer_value (laws : RegionLaws) (c : Dev nD) : W6 (F := Ideal) m ρ c (Proc.devRef .tc main_v40)
    = Cert.Spec.layer split merge (W0 (F := Ideal) m ρ c (Proc.devRef .tc main_arg0)) (W0 (F := Ideal) m ρ c (Proc.devRef .tc main_arg1))
        (weight0 (W0 (F := Ideal) m ρ c (Proc.devRef .tc main_arg2))) (Cert.Spec.rowOf (row0 (W0 (F := Ideal) m ρ c (Proc.devRef .tc main_arg3))))
        (weight0 (W0 (F := Ideal) m ρ c (Proc.devRef .tc main_arg4))) (Cert.Spec.rowOf (row0 (W0 (F := Ideal) m ρ c (Proc.devRef .tc main_arg5))))
        (weight0 (W0 (F := Ideal) m ρ c (Proc.devRef .tc main_arg6))) (Cert.Spec.rowOf (row0 (W0 (F := Ideal) m ρ c (Proc.devRef .tc main_arg7))))
        (weight0 (W0 (F := Ideal) m ρ c (Proc.devRef .tc main_arg8))) (Cert.Spec.rowOf (row0 (W0 (F := Ideal) m ρ c (Proc.devRef .tc main_arg9))))
        (Cert.Spec.rowOf (row0 (W0 (F := Ideal) m ρ c (Proc.devRef .tc main_arg10)))) (Cert.Spec.rowOf (row0 (W0 (F := Ideal) m ρ c (Proc.devRef .tc main_arg11)))) := by
  rw [r2_n m ρ laws, s2_v30, s2_v37, s2_v38, s2_v39, s2_arg0, s2_v11,
    r1_a m ρ laws, r1_arg0, r1_v11, r1_arg9, r1_arg10, r1_arg11,
    s1_v23, s1_v25, s1_v27, s1_arg0, s1_arg1, s1_v11, s1_arg9, s1_arg10, s1_arg11,
    r0_q m ρ laws, r0_k m ρ laws, r0_v m ρ laws, r0_arg0, r0_arg1, r0_v11, r0_arg9, r0_arg10, r0_arg11,
    s0_arg0, s0_arg1, s0_arg9, s0_arg10, s0_arg11, s0_v2, s0_v5, s0_v8, s0_v11, s0_v18, s0_v19, s0_v20]
  rfl

end Cert.KernelIdeal.ChainA

end
-- ==== Proof.KernelChainB.lean ====
/-
  The second layer on the kernel's side: what the region that ends the layer leaves in its output array is the
  specification's layer applied to the contents the layer is entered with.

  The program alternates stretches of layout operations with regions.  A stretch's results are read back as
  terms over the contents before it; a region's outputs are the specification's stage of its input arrays
  (the region laws); an array that a stretch does not write, or that is not an output of a region, keeps its
  contents.  Composing these, boundary by boundary, gives the layer.
-/
import proofs.«428822_j16243566313770_3_alg».proof.Proof.KernelLaws

set_option maxRecDepth 16384

noncomputable section

namespace Cert.KernelIdeal.ChainB

open Cert.KernelIdeal.Chain

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.StableHlo

variable (m : (ℓ : Loc nD τ sig) → Buf (Elt Ideal) ℓ) (ρ : Dev nD → PrngReg)

/-! ## The first stretch: the layer's weights and rows are cut out of the stacked arrays; nothing else moves -/

theorem s0_arg0 (c : Dev nD) : W7 (F := Ideal) m ρ c (Proc.devRef .tc main_v40) = W6 (F := Ideal) m ρ c (Proc.devRef .tc main_v40) := by
  show StableHlo.after hostOps3 (W6 m ρ c) (Proc.devRef .tc main_v40) = _
  simp only [hostOps3]
  after_results_simp

theorem s0_arg1 (c : Dev nD) : W7 (F := Ideal) m ρ c (Proc.devRef .tc main_arg1) = W6 (F := Ideal) m ρ c (Proc.devRef .tc main_arg1) := by
  show StableHlo.after hostOps3 (W6 m ρ c) (Proc.devRef .tc main_arg1) = _
  simp only [hostOps3]
  after_results_simp

theorem s0_arg9 (c : Dev nD) : W7 (F := Ideal) m ρ c (Proc.devRef .tc main_arg9) = W6 (F := Ideal) m ρ c (Proc.devRef .tc main_arg9) := by
  show StableHlo.after hostOps3 (W6 m ρ c) (Proc.devRef .tc main_arg9) = _
  simp only [hostOps3]
  after_results_simp

theorem s0_arg10 (c : Dev nD) : W7 (F := Ideal) m ρ c (Proc.devRef .tc main_arg10) = W6 (F := Ideal) m ρ c (Proc.devRef .tc main_arg10) := by
  show StableHlo.after hostOps3 (W6 m ρ c) (Proc.devRef .tc main_arg10) = _
  simp only [hostOps3]
  after_results_simp

theorem s0_arg11 (c : Dev nD) : W7 (F := Ideal) m ρ c (Proc.devRef .tc main_arg11) = W6 (F := Ideal) m ρ c (Proc.devRef .tc main_arg11) := by
  show StableHlo.after hostOps3 (W6 m ρ c) (Proc.devRef .tc main_arg11) = _
  simp only [hostOps3]
  after_results_simp

theorem s0_v2 (c : Dev nD) : W7 (F := Ideal) m ρ c (Proc.devRef .tc main_v43) = weight1 (W6 (F := Ideal) m ρ c (Proc.devRef .tc main_arg2)) := by
  show StableHlo.after hostOps3 (W6 m ρ c) (Proc.devRef .tc main_v43) = _
  simp only [hostOps3]
  after_results_simp
  rfl

theorem s0_v5 (c : Dev nD) : W7 (F := Ideal) m ρ c (Proc.devRef .tc main_v46) = weight1 (W6 (F := Ideal) m ρ c (Proc.devRef .tc main_arg4)) := by
  show StableHlo.after hostOps3 (W6 m ρ c) (Proc.devRef .tc main_v46) = _
  simp only [hostOps3]
  after_results_simp
  rfl

theorem s0_v8 (c : Dev nD) : W7 (F := Ideal) m ρ c (Proc.devRef .tc main_v49) = weight1 (W6 (F := Ideal) m ρ c (Proc.devRef .tc main_arg6)) := by
  show StableHlo.after hostOps3 (W6 m ρ c) (Proc.devRef .tc main_v49) = _
  simp only [hostOps3]
  after_results_simp
  rfl

theorem s0_v11 (c : Dev nD) : W7 (F := Ideal) m ρ c (Proc.devRef .tc main_v52) = weight1 (W6 (F := Ideal) m ρ c (Proc.devRef .tc main_arg8)) := by
  show StableHlo.after hostOps3 (W6 m ρ c) (Proc.devRef .tc main_v52) = _
  simp only [hostOps3]
  after_results_simp
  rfl

theorem s0_v18 (c : Dev nD) : W7 (F := Ideal) m ρ c (Proc.devRef .tc main_v59) = row1 (W6 (F := Ideal) m ρ c (Proc.devRef .tc main_arg3)) := by
  show StableHlo.after hostOps3 (W6 m ρ c) (Proc.devRef .tc main_v59) = _
  simp only [hostOps3]
  after_results_simp
  rfl

theorem s0_v19 (c : Dev nD) : W7 (F := Ideal) m ρ c (Proc.devRef .tc main_v60) = row1 (W6 (F := Ideal) m ρ c (Proc.devRef .tc main_arg5)) := by
  show StableHlo.after hostOps3 (W6 m ρ c) (Proc.devRef .tc main_v60) = _
  simp only [hostOps3]
  after_results_simp
  rfl

theorem s0_v20 (c : Dev nD) : W7 (F := Ideal) m ρ c (Proc.devRef .tc main_v61) = row1 (W6 (F := Ideal) m ρ c (Proc.devRef .tc main_arg7)) := by
  show StableHlo.after hostOps3 (W6 m ρ c) (Proc.devRef .tc main_v61) = _
  simp only [hostOps3]
  after_results_simp
  rfl

/-! ## The first region: the three projections -/

theorem r3_q (laws : RegionLaws) (c : Dev nD) : W8 (F := Ideal) m ρ c (Proc.devRef .tc main_v62_0)
    = Cert.Spec.proj (W7 (F := Ideal) m ρ c (Proc.devRef .tc main_v40)) (W7 (F := Ideal) m ρ c (Proc.devRef .tc main_v43)) (Cert.Spec.rowOf (W7 (F := Ideal) m ρ c (Proc.devRef .tc main_v59))) :=
  (W8_arr m ρ c 7).trans (laws.q3 (V7 m ρ) c)

theorem r3_k (laws : RegionLaws) (c : Dev nD) : W8 (F := Ideal) m ρ c (Proc.devRef .tc main_v62_1)
    = Cert.Spec.proj (W7 (F := Ideal) m ρ c (Proc.devRef .tc main_v40)) (W7 (F := Ideal) m ρ c (Proc.devRef .tc main_v46)) (Cert.Spec.rowOf (W7 (F := Ideal) m ρ c (Proc.devRef .tc main_v60))) :=
  (W8_arr m ρ c 8).trans (laws.k3 (V7 m ρ) c)

theorem r3_v (laws : RegionLaws) (c : Dev nD) : W8 (F := Ideal) m ρ c (Proc.devRef .tc main_v62_2)
    = Cert.Spec.proj (W7 (F := Ideal) m ρ c (Proc.devRef .tc main_v40)) (W7 (F := Ideal) m ρ c (Proc.devRef .tc main_v49)) (Cert.Spec.rowOf (W7 (F := Ideal) m ρ c (Proc.devRef .tc main_v61))) :=
  (W8_arr m ρ c 9).trans (laws.v3 (V7 m ρ) c)

/-- the tokens are an input of the region: it leaves them as they were -/
theorem r3_arg0 (c : Dev nD) : W8 (F := Ideal) m ρ c (Proc.devRef .tc main_v40) = W7 (F := Ideal) m ρ c (Proc.devRef .tc main_v40) :=
  (W8_arr m ρ c 0).trans (((dat3 (V7 m ρ) c).arrAt_in 0 rfl _).trans (A_eq3 (V7 m ρ) c 0))

theorem r3_arg1 (c : Dev nD) : W8 (F := Ideal) m ρ c (Proc.devRef .tc main_arg1) = W7 (F := Ideal) m ρ c (Proc.devRef .tc main_arg1) :=
  W8_of_ne m ρ c main_arg1 (by decide)

theorem r3_v11 (c : Dev nD) : W8 (F := Ideal) m ρ c (Proc.devRef .tc main_v52) = W7 (F := Ideal) m ρ c (Proc.devRef .tc main_v52) :=
  W8_of_ne m ρ c main_v52 (by decide)

theorem r3_arg9 (c : Dev nD) : W8 (F := Ideal) m ρ c (Proc.devRef .tc main_arg9) = W7 (F := Ideal) m ρ c (Proc.devRef .tc main_arg9) :=
  W8_of_ne m ρ c main_arg9 (by decide)

theorem r3_arg10 (c : Dev nD) : W8 (F := Ideal) m ρ c (Proc.devRef .tc main_arg10) = W7 (F := Ideal) m ρ c (Proc.devRef .tc main_arg10) :=
  W8_of_ne m ρ c main_arg10 (by decide)

theorem r3_arg11 (c : Dev nD) : W8 (F := Ideal) m ρ c (Proc.devRef .tc main_arg11) = W7 (F := Ideal) m ρ c (Proc.devRef .tc main_arg11) :=
  W8_of_ne m ρ c main_arg11 (by decide)

/-! ## The second stretch: the three projections are split into heads -/

theorem s1_v23 (c : Dev nD) : W9 (F := Ideal) m ρ c (Proc.devRef .tc main_v64) = split (W8 (F := Ideal) m ρ c (Proc.devRef .tc main_v62_0)) := by
  show StableHlo.after hostOps4 (W8 m ρ c) (Proc.devRef .tc main_v64) = _
  simp only [hostOps4]
  after_results_simp
  rfl

theorem s1_v25 (c : Dev nD) : W9 (F := Ideal) m ρ c (Proc.devRef .tc main_v66) = split (W8 (F := Ideal) m ρ c (Proc.devRef .tc main_v62_1)) := by
  show StableHlo.after hostOps4 (W8 m ρ c) (Proc.devRef .tc main_v66) = _
  simp only [hostOps4]
  after_results_simp
  rfl

theorem s1_v27 (c : Dev nD) : W9 (F := Ideal) m ρ c (Proc.devRef .tc main_v68) = split (W8 (F := Ideal) m ρ c (Proc.devRef .tc main_v62_2)) := by
  show StableHlo.after hostOps4 (W8 m ρ c) (Proc.devRef .tc main_v68) = _
  simp only [hostOps4]
  after_results_simp
  rfl

theorem s1_arg0 (c : Dev nD) : W9 (F := Ideal) m ρ c (Proc.devRef .tc main_v40) = W8 (F := Ideal) m ρ c (Proc.devRef .tc main_v40) := by
  show StableHlo.after hostOps4 (W8 m ρ c) (Proc.devRef .tc main_v40) = _
  simp only [hostOps4]
  after_results_simp

theorem s1_arg1 (c : Dev nD) : W9 (F := Ideal) m ρ c (Proc.devRef .tc main_arg1) = W8 (F := Ideal) m ρ c (Proc.devRef .tc main_arg1) := by
  show StableHlo.after hostOps4 (W8 m ρ c) (Proc.devRef .tc main_arg1) = _
  simp only [hostOps4]
  after_results_simp

theorem s1_v11 (c : Dev nD) : W9 (F := Ideal) m ρ c (Proc.devRef .tc main_v52) = W8 (F := Ideal) m ρ c (Proc.devRef .tc main_v52) := by
  show StableHlo.after hostOps4 (W8 m ρ c) (Proc.devRef .tc main_v52) = _
  simp only [hostOps4]
  after_results_simp

theorem s1_arg9 (c : Dev nD) : W9 (F := Ideal) m ρ c (Proc.devRef .tc main_arg9) = W8 (F := Ideal) m ρ c (Proc.devRef .tc main_arg9) := by
  show StableHlo.after hostOps4 (W8 m ρ c) (Proc.devRef .tc main_arg9) = _
  simp only [hostOps4]
  after_results_simp

theorem s1_arg10 (c : Dev nD) : W9 (F := Ideal) m ρ c (Proc.devRef .tc main_arg10) = W8 (F := Ideal) m ρ c (Proc.devRef .tc main_arg10) := by
  show StableHlo.after hostOps4 (W8 m ρ c) (Proc.devRef .tc main_arg10) = _
  simp only [hostOps4]
  after_results_simp

theorem s1_arg11 (c : Dev nD) : W9 (F := Ideal) m ρ c (Proc.devRef .tc main_arg11) = W8 (F := Ideal) m ρ c (Proc.devRef .tc main_arg11) := by
  show StableHlo.after hostOps4 (W8 m ρ c) (Proc.devRef .tc main_arg11) = _
  simp only [hostOps4]
  after_results_simp

/-! ## The second region: attention within each head -/

theorem r4_a (laws : RegionLaws) (c : Dev nD) : W10 (F := Ideal) m ρ c (Proc.devRef .tc main_v69)
    = Cert.Spec.attn (W9 (F := Ideal) m ρ c (Proc.devRef .tc main_v64)) (W9 (F := Ideal) m ρ c (Proc.devRef .tc main_v66)) (W9 (F := Ideal) m ρ c (Proc.devRef .tc main_v68)) (W9 (F := Ideal) m ρ c (Proc.devRef .tc main_arg1)) :=
  (W10_arr m ρ c 4).trans (laws.a4 (V9 m ρ) c)

theorem r4_arg0 (c : Dev nD) : W10 (F := Ideal) m ρ c (Proc.devRef .tc main_v40) = W9 (F := Ideal) m ρ c (Proc.devRef .tc main_v40) :=
  W10_of_ne m ρ c main_v40 (by decide)

theorem r4_v11 (c : Dev nD) : W10 (F := Ideal) m ρ c (Proc.devRef .tc main_v52) = W9 (F := Ideal) m ρ c (Proc.devRef .tc main_v52) :=
  W10_of_ne m ρ c main_v52 (by decide)

theorem r4_arg9 (c : Dev nD) : W10 (F := Ideal) m ρ c (Proc.devRef .tc main_arg9) = W9 (F := Ideal) m ρ c (Proc.devRef .tc main_arg9) :=
  W10_of_ne m ρ c main_arg9 (by decide)

theorem r4_arg10 (c : Dev nD) : W10 (F := Ideal) m ρ c (Proc.devRef .tc main_arg10) = W9 (F := Ideal) m ρ c (Proc.devRef .tc main_arg10) :=
  W10_of_ne m ρ c main_arg10 (by decide)

theorem r4_arg11 (c : Dev nD) : W10 (F := Ideal) m ρ c (Proc.devRef .tc main_arg11) = W9 (F := Ideal) m ρ c (Proc.devRef .tc main_arg11) :=
  W10_of_ne m ρ c main_arg11 (by decide)

/-! ## The third stretch: the heads are merged back, and the output rows are cut out of their stacked arrays -/

theorem s2_v30 (c : Dev nD) : W11 (F := Ideal) m ρ c (Proc.devRef .tc main_v71) = merge (W10 (F := Ideal) m ρ c (Proc.devRef .tc main_v69)) := by
  show StableHlo.after hostOps5 (W10 m ρ c) (Proc.devRef .tc main_v71) = _
  simp only [hostOps5]
  after_results_simp
  rfl

theorem s2_v37 (c : Dev nD) : W11 (F := Ideal) m ρ c (Proc.devRef .tc main_v78) = row1 (W10 (F := Ideal) m ρ c (Proc.devRef .tc main_arg9)) := by
  show StableHlo.after hostOps5 (W10 m ρ c) (Proc.devRef .tc main_v78) = _
  simp only [hostOps5]
  after_results_simp
  rfl

theorem s2_v38 (c : Dev nD) : W11 (F := Ideal) m ρ c (Proc.devRef .tc main_v79) = row1 (W10 (F := Ideal) m ρ c (Proc.devRef .tc main_arg10)) := by
  show StableHlo.after hostOps5 (W10 m ρ c) (Proc.devRef .tc main_v79) = _
  simp only [hostOps5]
  after_results_simp
  rfl

theorem s2_v39 (c : Dev nD) : W11 (F := Ideal) m ρ c (Proc.devRef .tc main_v80) = row1 (W10 (F := Ideal) m ρ c (Proc.devRef .tc main_arg11)) := by
  show StableHlo.after hostOps5 (W10 m ρ c) (Proc.devRef .tc main_v80) = _
  simp only [hostOps5]
  after_results_simp
  rfl

theorem s2_arg0 (c : Dev nD) : W11 (F := Ideal) m ρ c (Proc.devRef .tc main_v40) = W10 (F := Ideal) m ρ c (Proc.devRef .tc main_v40) := by
  show StableHlo.after hostOps5 (W10 m ρ c) (Proc.devRef .tc main_v40) = _
  simp only [hostOps5]
  after_results_simp

theorem s2_v11 (c : Dev nD) : W11 (F := Ideal) m ρ c (Proc.devRef .tc main_v52) = W10 (F := Ideal) m ρ c (Proc.devRef .tc main_v52) := by
  show StableHlo.after hostOps5 (W10 m ρ c) (Proc.devRef .tc main_v52) = _
  simp only [hostOps5]
  after_results_simp

/-! ## The third region: output projection, residual, normalisation -/

theorem r5_n (laws : RegionLaws) (c : Dev nD) : W12 (F := Ideal) m ρ c (Proc.devRef .tc main_v81)
    = Cert.Spec.norm (W11 (F := Ideal) m ρ c (Proc.devRef .tc main_v71)) (W11 (F := Ideal) m ρ c (Proc.devRef .tc main_v40)) (W11 (F := Ideal) m ρ c (Proc.devRef .tc main_v52))
        (Cert.Spec.rowOf (W11 (F := Ideal) m ρ c (Proc.devRef .tc main_v78))) (Cert.Spec.rowOf (W11 (F := Ideal) m ρ c (Proc.devRef .tc main_v79))) (Cert.Spec.rowOf (W11 (F := Ideal) m ρ c (Proc.devRef .tc main_v80))) :=
  (W12_arr m ρ c 6).trans (laws.n5 (V11 m ρ) c)

/-! ## The layer -/

/-- What the layer's last region leaves in its output array: the specification's layer of the tokens, the gate
    and the second layer's weights and rows, all as the layer is entered with them. -/
theorem layer_value (laws : RegionLaws) (c : Dev nD) : W12 (F := Ideal) m ρ c (Proc.devRef .tc main_v81)
    = Cert.Spec.layer split merge (W6 (F := Ideal) m ρ c (Proc.devRef .tc main_v40)) (W6 (F := Ideal) m ρ c (Proc.devRef .tc main_arg1))
        (weight1 (W6 (F := Ideal) m ρ c (Proc.devRef .tc main_arg2))) (Cert.Spec.rowOf (row1 (W6 (F := Ideal) m ρ c (Proc.devRef .tc main_arg3))))
        (weight1 (W6 (F := Ideal) m ρ c (Proc.devRef .tc main_arg4))) (Cert.Spec.rowOf (row1 (W6 (F := Ideal) m ρ c (Proc.devRef .tc main_arg5))))
        (weight1 (W6 (F := Ideal) m ρ c (Proc.devRef .tc main_arg6))) (Cert.Spec.rowOf (row1 (W6 (F := Ideal) m ρ c (Proc.devRef .tc main_arg7))))
        (weight1 (W6 (F := Ideal) m ρ c (Proc.devRef .tc main_arg8))) (Cert.Spec.rowOf (row1 (W6 (F := Ideal) m ρ c (Proc.devRef .tc main_arg9))))
        (Cert.Spec.rowOf (row1 (W6 (F := Ideal) m ρ c (Proc.devRef .tc main_arg10)))) (Cert.Spec.rowOf (row1 (W6 (F := Ideal) m ρ c (Proc.devRef .tc main_arg11)))) := by
  rw [r5_n m ρ laws, s2_v30, s2_v37, s2_v38, s2_v39, s2_arg0, s2_v11,
    r4_a m ρ laws, r4_arg0, r4_v11, r4_arg9, r4_arg10, r4_arg11,
    s1_v23, s1_v25, s1_v27, s1_arg0, s1_arg1, s1_v11, s1_arg9, s1_arg10, s1_arg11,
    r3_q m ρ laws, r3_k m ρ laws, r3_v m ρ laws, r3_arg0, r3_arg1, r3_v11, r3_arg9, r3_arg10, r3_arg11,
    s0_arg0, s0_arg1, s0_arg9, s0_arg10, s0_arg11, s0_v2, s0_v5, s0_v8, s0_v11, s0_v18, s0_v19, s0_v20]
  rfl

end Cert.KernelIdeal.ChainB

end
-- ==== Proof.KernelValue.lean ====
/-
  The kernel program's result as the specification's two layers of the launch arrays.

  The second layer is entered with the first layer's output as its tokens and with the gate, the stacked
  weights and the stacked rows as the program was launched with them: no stretch and no region of the first
  layer writes an argument array (the gate is an input of the attention region, which leaves it as it was).
  So the last boundary's contents of the result array are the layer applied twice, and the run's final state
  reads exactly those contents.
-/
import proofs.«428822_j16243566313770_3_alg».proof.Proof.KernelChainA
import proofs.«428822_j16243566313770_3_alg».proof.Proof.KernelChainB
import proofs.«428822_j16243566313770_3_alg».proof.Proof.KernelRun

set_option maxRecDepth 16384

noncomputable section

namespace Cert.KernelIdeal.Chain

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.StableHlo

variable (m : (ℓ : Loc nD τ sig) → Buf (Elt Ideal) ℓ) (ρ : Dev nD → PrngReg)

/-! ## The argument arrays at the first layer's exit are the launch arrays -/

theorem back_arg1 (c : Dev nD) : W6 (F := Ideal) m ρ c (Proc.devRef .tc main_arg1) = m ((c : Thread nD τ).loc main_arg1) :=
  calc W6 (F := Ideal) m ρ c (Proc.devRef .tc main_arg1)
    _ = W5 m ρ c (Proc.devRef .tc main_arg1) := W6_of_ne m ρ c main_arg1 (by decide)
    _ = W4 m ρ c (Proc.devRef .tc main_arg1) := by
          show StableHlo.after hostOps2 (W4 m ρ c) (Proc.devRef .tc main_arg1) = _
          simp only [hostOps2]
          after_results_simp
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := by
          show StableHlo.after hostOps1 (W2 m ρ c) (Proc.devRef .tc main_arg1) = _
          simp only [hostOps1]
          after_results_simp
    _ = W1 m ρ c (Proc.devRef .tc main_arg1) := W2_of_ne m ρ c main_arg1 (by decide)
    _ = W0 m ρ c (Proc.devRef .tc main_arg1) := by
          show StableHlo.after hostOps0 (W0 m ρ c) (Proc.devRef .tc main_arg1) = _
          simp only [hostOps0]
          after_results_simp
    _ = m ((c : Thread nD τ).loc main_arg1) := rfl

theorem back_arg2 (c : Dev nD) : W6 (F := Ideal) m ρ c (Proc.devRef .tc main_arg2) = m ((c : Thread nD τ).loc main_arg2) :=
  calc W6 (F := Ideal) m ρ c (Proc.devRef .tc main_arg2)
    _ = W5 m ρ c (Proc.devRef .tc main_arg2) := W6_of_ne m ρ c main_arg2 (by decide)
    _ = W4 m ρ c (Proc.devRef .tc main_arg2) := by
          show StableHlo.after hostOps2 (W4 m ρ c) (Proc.devRef .tc main_arg2) = _
          simp only [hostOps2]
          after_results_simp
    _ = W3 m ρ c (Proc.devRef .tc main_arg2) := W4_of_ne m ρ c main_arg2 (by decide)
    _ = W2 m ρ c (Proc.devRef .tc main_arg2) := by
          show StableHlo.after hostOps1 (W2 m ρ c) (Proc.devRef .tc main_arg2) = _
          simp only [hostOps1]
          after_results_simp
    _ = W1 m ρ c (Proc.devRef .tc main_arg2) := W2_of_ne m ρ c main_arg2 (by decide)
    _ = W0 m ρ c (Proc.devRef .tc main_arg2) := by
          show StableHlo.after hostOps0 (W0 m ρ c) (Proc.devRef .tc main_arg2) = _
          simp only [hostOps0]
          after_results_simp
    _ = m ((c : Thread nD τ).loc main_arg2) := rfl

theorem back_arg3 (c : Dev nD) : W6 (F := Ideal) m ρ c (Proc.devRef .tc main_arg3) = m ((c : Thread nD τ).loc main_arg3) :=
  calc W6 (F := Ideal) m ρ c (Proc.devRef .tc main_arg3)
    _ = W5 m ρ c (Proc.devRef .tc main_arg3) := W6_of_ne m ρ c main_arg3 (by decide)
    _ = W4 m ρ c (Proc.devRef .tc main_arg3) := by
          show StableHlo.after hostOps2 (W4 m ρ c) (Proc.devRef .tc main_arg3) = _
          simp only [hostOps2]
          after_results_simp
    _ = W3 m ρ c (Proc.devRef .tc main_arg3) := W4_of_ne m ρ c main_arg3 (by decide)
    _ = W2 m ρ c (Proc.devRef .tc main_arg3) := by
          show StableHlo.after hostOps1 (W2 m ρ c) (Proc.devRef .tc main_arg3) = _
          simp only [hostOps1]
          after_results_simp
    _ = W1 m ρ c (Proc.devRef .tc main_arg3) := W2_of_ne m ρ c main_arg3 (by decide)
    _ = W0 m ρ c (Proc.devRef .tc main_arg3) := by
          show StableHlo.after hostOps0 (W0 m ρ c) (Proc.devRef .tc main_arg3) = _
          simp only [hostOps0]
          after_results_simp
    _ = m ((c : Thread nD τ).loc main_arg3) := rfl

theorem back_arg4 (c : Dev nD) : W6 (F := Ideal) m ρ c (Proc.devRef .tc main_arg4) = m ((c : Thread nD τ).loc main_arg4) :=
  calc W6 (F := Ideal) m ρ c (Proc.devRef .tc main_arg4)
    _ = W5 m ρ c (Proc.devRef .tc main_arg4) := W6_of_ne m ρ c main_arg4 (by decide)
    _ = W4 m ρ c (Proc.devRef .tc main_arg4) := by
          show StableHlo.after hostOps2 (W4 m ρ c) (Proc.devRef .tc main_arg4) = _
          simp only [hostOps2]
          after_results_simp
    _ = W3 m ρ c (Proc.devRef .tc main_arg4) := W4_of_ne m ρ c main_arg4 (by decide)
    _ = W2 m ρ c (Proc.devRef .tc main_arg4) := by
          show StableHlo.after hostOps1 (W2 m ρ c) (Proc.devRef .tc main_arg4) = _
          simp only [hostOps1]
          after_results_simp
    _ = W1 m ρ c (Proc.devRef .tc main_arg4) := W2_of_ne m ρ c main_arg4 (by decide)
    _ = W0 m ρ c (Proc.devRef .tc main_arg4) := by
          show StableHlo.after hostOps0 (W0 m ρ c) (Proc.devRef .tc main_arg4) = _
          simp only [hostOps0]
          after_results_simp
    _ = m ((c : Thread nD τ).loc main_arg4) := rfl

theorem back_arg5 (c : Dev nD) : W6 (F := Ideal) m ρ c (Proc.devRef .tc main_arg5) = m ((c : Thread nD τ).loc main_arg5) :=
  calc W6 (F := Ideal) m ρ c (Proc.devRef .tc main_arg5)
    _ = W5 m ρ c (Proc.devRef .tc main_arg5) := W6_of_ne m ρ c main_arg5 (by decide)
    _ = W4 m ρ c (Proc.devRef .tc main_arg5) := by
          show StableHlo.after hostOps2 (W4 m ρ c) (Proc.devRef .tc main_arg5) = _
          simp only [hostOps2]
          after_results_simp
    _ = W3 m ρ c (Proc.devRef .tc main_arg5) := W4_of_ne m ρ c main_arg5 (by decide)
    _ = W2 m ρ c (Proc.devRef .tc main_arg5) := by
          show StableHlo.after hostOps1 (W2 m ρ c) (Proc.devRef .tc main_arg5) = _
          simp only [hostOps1]
          after_results_simp
    _ = W1 m ρ c (Proc.devRef .tc main_arg5) := W2_of_ne m ρ c main_arg5 (by decide)
    _ = W0 m ρ c (Proc.devRef .tc main_arg5) := by
          show StableHlo.after hostOps0 (W0 m ρ c) (Proc.devRef .tc main_arg5) = _
          simp only [hostOps0]
          after_results_simp
    _ = m ((c : Thread nD τ).loc main_arg5) := rfl

theorem back_arg6 (c : Dev nD) : W6 (F := Ideal) m ρ c (Proc.devRef .tc main_arg6) = m ((c : Thread nD τ).loc main_arg6) :=
  calc W6 (F := Ideal) m ρ c (Proc.devRef .tc main_arg6)
    _ = W5 m ρ c (Proc.devRef .tc main_arg6) := W6_of_ne m ρ c main_arg6 (by decide)
    _ = W4 m ρ c (Proc.devRef .tc main_arg6) := by
          show StableHlo.after hostOps2 (W4 m ρ c) (Proc.devRef .tc main_arg6) = _
          simp only [hostOps2]
          after_results_simp
    _ = W3 m ρ c (Proc.devRef .tc main_arg6) := W4_of_ne m ρ c main_arg6 (by decide)
    _ = W2 m ρ c (Proc.devRef .tc main_arg6) := by
          show StableHlo.after hostOps1 (W2 m ρ c) (Proc.devRef .tc main_arg6) = _
          simp only [hostOps1]
          after_results_simp
    _ = W1 m ρ c (Proc.devRef .tc main_arg6) := W2_of_ne m ρ c main_arg6 (by decide)
    _ = W0 m ρ c (Proc.devRef .tc main_arg6) := by
          show StableHlo.after hostOps0 (W0 m ρ c) (Proc.devRef .tc main_arg6) = _
          simp only [hostOps0]
          after_results_simp
    _ = m ((c : Thread nD τ).loc main_arg6) := rfl

theorem back_arg7 (c : Dev nD) : W6 (F := Ideal) m ρ c (Proc.devRef .tc main_arg7) = m ((c : Thread nD τ).loc main_arg7) :=
  calc W6 (F := Ideal) m ρ c (Proc.devRef .tc main_arg7)
    _ = W5 m ρ c (Proc.devRef .tc main_arg7) := W6_of_ne m ρ c main_arg7 (by decide)
    _ = W4 m ρ c (Proc.devRef .tc main_arg7) := by
          show StableHlo.after hostOps2 (W4 m ρ c) (Proc.devRef .tc main_arg7) = _
          simp only [hostOps2]
          after_results_simp
    _ = W3 m ρ c (Proc.devRef .tc main_arg7) := W4_of_ne m ρ c main_arg7 (by decide)
    _ = W2 m ρ c (Proc.devRef .tc main_arg7) := by
          show StableHlo.after hostOps1 (W2 m ρ c) (Proc.devRef .tc main_arg7) = _
          simp only [hostOps1]
          after_results_simp
    _ = W1 m ρ c (Proc.devRef .tc main_arg7) := W2_of_ne m ρ c main_arg7 (by decide)
    _ = W0 m ρ c (Proc.devRef .tc main_arg7) := by
          show StableHlo.after hostOps0 (W0 m ρ c) (Proc.devRef .tc main_arg7) = _
          simp only [hostOps0]
          after_results_simp
    _ = m ((c : Thread nD τ).loc main_arg7) := rfl

theorem back_arg8 (c : Dev nD) : W6 (F := Ideal) m ρ c (Proc.devRef .tc main_arg8) = m ((c : Thread nD τ).loc main_arg8) :=
  calc W6 (F := Ideal) m ρ c (Proc.devRef .tc main_arg8)
    _ = W5 m ρ c (Proc.devRef .tc main_arg8) := W6_of_ne m ρ c main_arg8 (by decide)
    _ = W4 m ρ c (Proc.devRef .tc main_arg8) := by
          show StableHlo.after hostOps2 (W4 m ρ c) (Proc.devRef .tc main_arg8) = _
          simp only [hostOps2]
          after_results_simp
    _ = W3 m ρ c (Proc.devRef .tc main_arg8) := W4_of_ne m ρ c main_arg8 (by decide)
    _ = W2 m ρ c (Proc.devRef .tc main_arg8) := by
          show StableHlo.after hostOps1 (W2 m ρ c) (Proc.devRef .tc main_arg8) = _
          simp only [hostOps1]
          after_results_simp
    _ = W1 m ρ c (Proc.devRef .tc main_arg8) := W2_of_ne m ρ c main_arg8 (by decide)
    _ = W0 m ρ c (Proc.devRef .tc main_arg8) := by
          show StableHlo.after hostOps0 (W0 m ρ c) (Proc.devRef .tc main_arg8) = _
          simp only [hostOps0]
          after_results_simp
    _ = m ((c : Thread nD τ).loc main_arg8) := rfl

theorem back_arg9 (c : Dev nD) : W6 (F := Ideal) m ρ c (Proc.devRef .tc main_arg9) = m ((c : Thread nD τ).loc main_arg9) :=
  calc W6 (F := Ideal) m ρ c (Proc.devRef .tc main_arg9)
    _ = W5 m ρ c (Proc.devRef .tc main_arg9) := W6_of_ne m ρ c main_arg9 (by decide)
    _ = W4 m ρ c (Proc.devRef .tc main_arg9) := by
          show StableHlo.after hostOps2 (W4 m ρ c) (Proc.devRef .tc main_arg9) = _
          simp only [hostOps2]
          after_results_simp
    _ = W3 m ρ c (Proc.devRef .tc main_arg9) := W4_of_ne m ρ c main_arg9 (by decide)
    _ = W2 m ρ c (Proc.devRef .tc main_arg9) := by
          show StableHlo.after hostOps1 (W2 m ρ c) (Proc.devRef .tc main_arg9) = _
          simp only [hostOps1]
          after_results_simp
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = _
          simp only [hostOps0]
          after_results_simp
    _ = m ((c : Thread nD τ).loc main_arg9) := rfl

theorem back_arg10 (c : Dev nD) : W6 (F := Ideal) m ρ c (Proc.devRef .tc main_arg10) = m ((c : Thread nD τ).loc main_arg10) :=
  calc W6 (F := Ideal) m ρ c (Proc.devRef .tc main_arg10)
    _ = W5 m ρ c (Proc.devRef .tc main_arg10) := W6_of_ne m ρ c main_arg10 (by decide)
    _ = W4 m ρ c (Proc.devRef .tc main_arg10) := by
          show StableHlo.after hostOps2 (W4 m ρ c) (Proc.devRef .tc main_arg10) = _
          simp only [hostOps2]
          after_results_simp
    _ = W3 m ρ c (Proc.devRef .tc main_arg10) := W4_of_ne m ρ c main_arg10 (by decide)
    _ = W2 m ρ c (Proc.devRef .tc main_arg10) := by
          show StableHlo.after hostOps1 (W2 m ρ c) (Proc.devRef .tc main_arg10) = _
          simp only [hostOps1]
          after_results_simp
    _ = W1 m ρ c (Proc.devRef .tc main_arg10) := W2_of_ne m ρ c main_arg10 (by decide)
    _ = W0 m ρ c (Proc.devRef .tc main_arg10) := by
          show StableHlo.after hostOps0 (W0 m ρ c) (Proc.devRef .tc main_arg10) = _
          simp only [hostOps0]
          after_results_simp
    _ = m ((c : Thread nD τ).loc main_arg10) := rfl

theorem back_arg11 (c : Dev nD) : W6 (F := Ideal) m ρ c (Proc.devRef .tc main_arg11) = m ((c : Thread nD τ).loc main_arg11) :=
  calc W6 (F := Ideal) m ρ c (Proc.devRef .tc main_arg11)
    _ = W5 m ρ c (Proc.devRef .tc main_arg11) := W6_of_ne m ρ c main_arg11 (by decide)
    _ = W4 m ρ c (Proc.devRef .tc main_arg11) := by
          show StableHlo.after hostOps2 (W4 m ρ c) (Proc.devRef .tc main_arg11) = _
          simp only [hostOps2]
          after_results_simp
    _ = W3 m ρ c (Proc.devRef .tc main_arg11) := W4_of_ne m ρ c main_arg11 (by decide)
    _ = W2 m ρ c (Proc.devRef .tc main_arg11) := by
          show StableHlo.after hostOps1 (W2 m ρ c) (Proc.devRef .tc main_arg11) = _
          simp only [hostOps1]
          after_results_simp
    _ = W1 m ρ c (Proc.devRef .tc main_arg11) := W2_of_ne m ρ c main_arg11 (by decide)
    _ = W0 m ρ c (Proc.devRef .tc main_arg11) := by
          show StableHlo.after hostOps0 (W0 m ρ c) (Proc.devRef .tc main_arg11) = _
          simp only [hostOps0]
          after_results_simp
    _ = m ((c : Thread nD τ).loc main_arg11) := rfl

/-! ## The result -/

/-- the specification's two layers of the launch arrays, in the kernel program's spellings -/
def twoLayers (c : Dev nD) : FVec Ideal S8x1024x512 .f32 :=
  Cert.Spec.layer split merge
    (Cert.Spec.layer split merge (m ((c : Thread nD τ).loc main_arg0)) (m ((c : Thread nD τ).loc main_arg1))
      (weight0 (m ((c : Thread nD τ).loc main_arg2))) (Cert.Spec.rowOf (row0 (m ((c : Thread nD τ).loc main_arg3))))
      (weight0 (m ((c : Thread nD τ).loc main_arg4))) (Cert.Spec.rowOf (row0 (m ((c : Thread nD τ).loc main_arg5))))
      (weight0 (m ((c : Thread nD τ).loc main_arg6))) (Cert.Spec.rowOf (row0 (m ((c : Thread nD τ).loc main_arg7))))
      (weight0 (m ((c : Thread nD τ).loc main_arg8))) (Cert.Spec.rowOf (row0 (m ((c : Thread nD τ).loc main_arg9))))
      (Cert.Spec.rowOf (row0 (m ((c : Thread nD τ).loc main_arg10)))) (Cert.Spec.rowOf (row0 (m ((c : Thread nD τ).loc main_arg11)))))
    (m ((c : Thread nD τ).loc main_arg1))
    (weight1 (m ((c : Thread nD τ).loc main_arg2))) (Cert.Spec.rowOf (row1 (m ((c : Thread nD τ).loc main_arg3))))
    (weight1 (m ((c : Thread nD τ).loc main_arg4))) (Cert.Spec.rowOf (row1 (m ((c : Thread nD τ).loc main_arg5))))
    (weight1 (m ((c : Thread nD τ).loc main_arg6))) (Cert.Spec.rowOf (row1 (m ((c : Thread nD τ).loc main_arg7))))
    (weight1 (m ((c : Thread nD τ).loc main_arg8))) (Cert.Spec.rowOf (row1 (m ((c : Thread nD τ).loc main_arg9))))
    (Cert.Spec.rowOf (row1 (m ((c : Thread nD τ).loc main_arg10)))) (Cert.Spec.rowOf (row1 (m ((c : Thread nD τ).loc main_arg11))))

/-- the last boundary holds, for the result array, the two layers of the launch arrays -/
theorem result_value (laws : RegionLaws) (c : Dev nD) :
    W12 (F := Ideal) m ρ c (Proc.devRef .tc main_v81) = twoLayers m c := by
  rw [Cert.KernelIdeal.ChainB.layer_value m ρ laws c, Cert.KernelIdeal.ChainA.layer_value m ρ laws c,
    back_arg1, back_arg2, back_arg3, back_arg4, back_arg5, back_arg6, back_arg7, back_arg8, back_arg9, back_arg10, back_arg11]
  rfl

/-- every weakly fair execution ends with the result array at the two layers of the launch arrays, and with
    every argument array as launched -/
theorem run_value (laws : RegionLaws) :
    θ_run defs (onTc (τ := τ) (main (F := Ideal))) ⟨m, fun _ => 0, ρ⟩ (fun r => ∀ c : Dev nD,
      r.2.mem ((c.tc : Thread nD τ).loc main_v81) = twoLayers m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_value m ρ laws c), (h c).2⟩)
    (Cert.KernelIdeal.Whole.run m ρ)

end Cert.KernelIdeal.Chain

end
-- ==== Proof.RefProj.lean ====
/-
  The reference's projection and its scores, read entry by entry.  A contraction of the tokens' channel
  axis against a weight's second axis, plus a per-channel row laid along batch and position, is
  `Σ_e x[n,s,e] · w[f,e] + b[f]`; a contraction of the per-head channel axis of queries against keys, per
  (batch, head), times ⅛, times the gate laid along batch and head, is the gated score.
-/
import proofs.«428822_j16243566313770_3_alg».proof.ReferenceIdeal
import proofs.«428822_j16243566313770_3_alg».proof.Proof.Gen.ReferenceIdeal
import proofs.«428822_j16243566313770_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Facts₀ Cert.ReferenceIdeal.Facts
open Idealize.ShloMosaic Idealize.ShloMosaic.ValueIdx

/-! ## The projection

  The contraction runs over the tokens' channel axis (axis 2 of the left operand) and the weight's input
  channel axis (axis 1 of the right operand); batch and position come from the left operand, the output
  channel from the right.  Each operand index is named one axis at a time. -/

private theorem projL_0 (j : S8x1024x512.Idx) (k : dot_S8x1024x512_S512x512_S8x1024x512_2_1_01_0_n_n.contr.Idx) :
    (dot_S8x1024x512_S512x512_S8x1024x512_2_1_01_0_n_n.lhsIdx j k 0).val = (j 0).val := rfl

private theorem projL_1 (j : S8x1024x512.Idx) (k : dot_S8x1024x512_S512x512_S8x1024x512_2_1_01_0_n_n.contr.Idx) :
    (dot_S8x1024x512_S512x512_S8x1024x512_2_1_01_0_n_n.lhsIdx j k 1).val = (j 1).val := rfl

private theorem projL_2 (j : S8x1024x512.Idx) (k : dot_S8x1024x512_S512x512_S8x1024x512_2_1_01_0_n_n.contr.Idx) :
    (dot_S8x1024x512_S512x512_S8x1024x512_2_1_01_0_n_n.lhsIdx j k 2).val = (k ⟨0, by decide⟩).val :=
  DotDims.lhsIdx_val_of_single _ rfl j k

private theorem projR_0 (j : S8x1024x512.Idx) (k : dot_S8x1024x512_S512x512_S8x1024x512_2_1_01_0_n_n.contr.Idx) :
    (dot_S8x1024x512_S512x512_S8x1024x512_2_1_01_0_n_n.rhsIdx j k 0).val = (j 2).val := rfl

private theorem projR_1 (j : S8x1024x512.Idx) (k : dot_S8x1024x512_S512x512_S8x1024x512_2_1_01_0_n_n.contr.Idx) :
    (dot_S8x1024x512_S512x512_S8x1024x512_2_1_01_0_n_n.rhsIdx j k 1).val = (k ⟨0, by decide⟩).val :=
  DotDims.rhsIdx_val_of_single _ rfl j k

/-- At output entry (n, s, f) and contraction position e the left operand is read at (n, s, e). -/
private theorem projL_idx (n : Fin 8) (s : Fin 1024) (f e : Fin 512) :
    dot_S8x1024x512_S512x512_S8x1024x512_2_1_01_0_n_n.lhsIdx (ix3 n s f)
      ((contrEquiv1 dot_S8x1024x512_S512x512_S8x1024x512_2_1_01_0_n_n 512 rfl rfl).symm e) = ix3 n s e := by
  funext a
  apply Fin.ext
  match a with
  | ⟨0, _⟩ => exact projL_0 _ _
  | ⟨1, _⟩ => exact projL_1 _ _
  | ⟨2, _⟩ => exact (projL_2 _ _).trans (contrEquiv1_symm_val _ 512 rfl rfl e)

/-- … and the right operand at (f, e). -/
private theorem projR_idx (n : Fin 8) (s : Fin 1024) (f e : Fin 512) :
    dot_S8x1024x512_S512x512_S8x1024x512_2_1_01_0_n_n.rhsIdx (ix3 n s f)
      ((contrEquiv1 dot_S8x1024x512_S512x512_S8x1024x512_2_1_01_0_n_n 512 rfl rfl).symm e) = ix2 f e := by
  funext a
  apply Fin.ext
  match a with
  | ⟨0, _⟩ => exact projR_0 _ _
  | ⟨1, _⟩ => exact (projR_1 _ _).trans (contrEquiv1_symm_val _ 512 rfl rfl e)

/-- The contraction at an entry: `Σ_e x[n,s,e] · w[f,e]`. -/
private theorem projDot_apply (x : FVec Ideal S8x1024x512 .f32) (w : FVec Ideal S512x512 .f32)
    (n : Fin 8) (s : Fin 1024) (f : Fin 512) :
    Host.dotGeneral (F := Ideal) dot_S8x1024x512_S512x512_S8x1024x512_2_1_01_0_n_n none x w (ix3 n s f)
      = ∑ e : Fin 512, x (ix3 n s e) * w (ix2 f e) := by
  simp only [Host.dotGeneral]
  rw [Ideal.dotGeneral_apply,
    ← Equiv.sum_comp (contrEquiv1 dot_S8x1024x512_S512x512_S8x1024x512_2_1_01_0_n_n 512 rfl rfl).symm]
  refine Finset.sum_congr rfl fun e _ => ?_
  rw [projL_idx, projR_idx]

/-- The row laid along batch and position reads its channel's value everywhere. -/
private theorem rowBcast_apply (b : FVec Ideal S512 .f32) (n : Fin 8) (s : Fin 1024) (f : Fin 512) :
    broadcastInDim S8x1024x512 ![0, 1, 2] bcast_S1x1x512_S8x1024x512_0_1_2
      (broadcastInDim S1x1x512 ![2] bcast_S512_S1x1x512_2 b) (ix3 n s f) = b (ix1 f) := by
  rw [broadcastInDim_apply (![0, 1, 2] : Fin 3 → Fin S8x1024x512.rank) bcast_S1x1x512_S8x1024x512_0_1_2 _ (ix3 n s f)
      (ix3 (0 : Fin 1) (0 : Fin 1) f) (fun a => by match a with | ⟨0, _⟩ => rfl | ⟨1, _⟩ => rfl | ⟨2, _⟩ => rfl),
    broadcastInDim_apply (![2] : Fin 1 → Fin S1x1x512.rank) bcast_S512_S1x1x512_2 b (ix3 (0 : Fin 1) (0 : Fin 1) f)
      (ix1 f) (fun a => by match a with | ⟨0, _⟩ => rfl)]

theorem proj_eq (x : FVec Ideal S8x1024x512 .f32) (w : FVec Ideal S512x512 .f32) (b : FVec Ideal S512 .f32) :
    addf (Host.dotGeneral dot_S8x1024x512_S512x512_S8x1024x512_2_1_01_0_n_n none x w)
      (broadcastInDim S8x1024x512 ![0, 1, 2] bcast_S1x1x512_S8x1024x512_0_1_2 (broadcastInDim S1x1x512 ![2] bcast_S512_S1x1x512_2 b))
    = Cert.Spec.proj x w b := by
  funext o
  obtain ⟨n, s, f, rfl⟩ : ∃ (n : Fin 8) (s : Fin 1024) (f : Fin 512), o = ix3 n s f := ⟨o 0, o 1, o 2, eq_ix3 o⟩
  rw [addf_apply, projDot_apply, rowBcast_apply, Cert.Spec.proj_ix]
  rfl

/-! ## The scores

  The contraction runs over the per-head channel axis (axis 3) of both operands; batch and head are carried
  along from both, the query position comes from the left operand and the key position from the right. -/

private theorem scL_0 (j : S8x8x1024x1024.Idx) (k : dot_S8x8x1024x64_S8x8x1024x64_S8x8x1024x1024_3_3_2_2_01_01.contr.Idx) :
    (dot_S8x8x1024x64_S8x8x1024x64_S8x8x1024x1024_3_3_2_2_01_01.lhsIdx j k 0).val = (j 0).val := rfl

private theorem scL_1 (j : S8x8x1024x1024.Idx) (k : dot_S8x8x1024x64_S8x8x1024x64_S8x8x1024x1024_3_3_2_2_01_01.contr.Idx) :
    (dot_S8x8x1024x64_S8x8x1024x64_S8x8x1024x1024_3_3_2_2_01_01.lhsIdx j k 1).val = (j 1).val := rfl

private theorem scL_2 (j : S8x8x1024x1024.Idx) (k : dot_S8x8x1024x64_S8x8x1024x64_S8x8x1024x1024_3_3_2_2_01_01.contr.Idx) :
    (dot_S8x8x1024x64_S8x8x1024x64_S8x8x1024x1024_3_3_2_2_01_01.lhsIdx j k 2).val = (j 2).val := rfl

private theorem scL_3 (j : S8x8x1024x1024.Idx) (k : dot_S8x8x1024x64_S8x8x1024x64_S8x8x1024x1024_3_3_2_2_01_01.contr.Idx) :
    (dot_S8x8x1024x64_S8x8x1024x64_S8x8x1024x1024_3_3_2_2_01_01.lhsIdx j k 3).val = (k ⟨0, by decide⟩).val :=
  DotDims.lhsIdx_val_of_single _ rfl j k

private theorem scR_0 (j : S8x8x1024x1024.Idx) (k : dot_S8x8x1024x64_S8x8x1024x64_S8x8x1024x1024_3_3_2_2_01_01.contr.Idx) :
    (dot_S8x8x1024x64_S8x8x1024x64_S8x8x1024x1024_3_3_2_2_01_01.rhsIdx j k 0).val = (j 0).val := rfl

private theorem scR_1 (j : S8x8x1024x1024.Idx) (k : dot_S8x8x1024x64_S8x8x1024x64_S8x8x1024x1024_3_3_2_2_01_01.contr.Idx) :
    (dot_S8x8x1024x64_S8x8x1024x64_S8x8x1024x1024_3_3_2_2_01_01.rhsIdx j k 1).val = (j 1).val := rfl

private theorem scR_2 (j : S8x8x1024x1024.Idx) (k : dot_S8x8x1024x64_S8x8x1024x64_S8x8x1024x1024_3_3_2_2_01_01.contr.Idx) :
    (dot_S8x8x1024x64_S8x8x1024x64_S8x8x1024x1024_3_3_2_2_01_01.rhsIdx j k 2).val = (j 3).val := rfl

private theorem scR_3 (j : S8x8x1024x1024.Idx) (k : dot_S8x8x1024x64_S8x8x1024x64_S8x8x1024x1024_3_3_2_2_01_01.contr.Idx) :
    (dot_S8x8x1024x64_S8x8x1024x64_S8x8x1024x1024_3_3_2_2_01_01.rhsIdx j k 3).val = (k ⟨0, by decide⟩).val :=
  DotDims.rhsIdx_val_of_single _ rfl j k

/-- At output entry (n, h, i, j) and contraction position d the queries are read at (n, h, i, d). -/
private theorem scL_idx (n h : Fin 8) (i j : Fin 1024) (d : Fin 64) :
    dot_S8x8x1024x64_S8x8x1024x64_S8x8x1024x1024_3_3_2_2_01_01.lhsIdx (ix4 n h i j)
      ((contrEquiv1 dot_S8x8x1024x64_S8x8x1024x64_S8x8x1024x1024_3_3_2_2_01_01 64 rfl rfl).symm d) = ix4 n h i d := by
  funext a
  apply Fin.ext
  match a with
  | ⟨0, _⟩ => exact scL_0 _ _
  | ⟨1, _⟩ => exact scL_1 _ _
  | ⟨2, _⟩ => exact scL_2 _ _
  | ⟨3, _⟩ => exact (scL_3 _ _).trans (contrEquiv1_symm_val _ 64 rfl rfl d)

/-- … and the keys at (n, h, j, d). -/
private theorem scR_idx (n h : Fin 8) (i j : Fin 1024) (d : Fin 64) :
    dot_S8x8x1024x64_S8x8x1024x64_S8x8x1024x1024_3_3_2_2_01_01.rhsIdx (ix4 n h i j)
      ((contrEquiv1 dot_S8x8x1024x64_S8x8x1024x64_S8x8x1024x1024_3_3_2_2_01_01 64 rfl rfl).symm d) = ix4 n h j d := by
  funext a
  apply Fin.ext
  match a with
  | ⟨0, _⟩ => exact scR_0 _ _
  | ⟨1, _⟩ => exact scR_1 _ _
  | ⟨2, _⟩ => exact scR_2 _ _
  | ⟨3, _⟩ => exact (scR_3 _ _).trans (contrEquiv1_symm_val _ 64 rfl rfl d)

/-- The contraction at an entry: `Σ_d q[n,h,i,d] · k[n,h,j,d]`. -/
private theorem scDot_apply (q k : FVec Ideal S8x8x1024x64 .f32) (n h : Fin 8) (i j : Fin 1024) :
    Host.dotGeneral (F := Ideal) dot_S8x8x1024x64_S8x8x1024x64_S8x8x1024x1024_3_3_2_2_01_01 none q k (ix4 n h i j)
      = ∑ d : Fin 64, q (ix4 n h i d) * k (ix4 n h j d) := by
  simp only [Host.dotGeneral]
  rw [Ideal.dotGeneral_apply,
    ← Equiv.sum_comp (contrEquiv1 dot_S8x8x1024x64_S8x8x1024x64_S8x8x1024x1024_3_3_2_2_01_01 64 rfl rfl).symm]
  refine Finset.sum_congr rfl fun d _ => ?_
  rw [scL_idx, scR_idx]

/-- The scale, a scalar laid along every axis, reads the one float word everywhere. -/
private theorem scaleBcast_apply (o : S8x8x1024x1024.Idx) :
    broadcastInDim S8x8x1024x1024 ![] bcast_S_S8x8x1024x1024 (constant (F := Ideal) S_ .f32 0x3E000000#32) o
      = Cert.Spec.eighth := by
  rw [broadcastInDim_scalar_apply, constant_apply]
  rfl

/-- The gate laid along batch and head reads its (query, key) entry everywhere. -/
private theorem gateBcast_apply (adj : FVec Ideal S1024x1024 .f32) (n h : Fin 8) (i j : Fin 1024) :
    broadcastInDim S8x8x1024x1024 ![0, 1, 2, 3] bcast_S1x1x1024x1024_S8x8x1024x1024_0_1_2_3
      (broadcastInDim S1x1x1024x1024 ![2, 3] bcast_S1024x1024_S1x1x1024x1024_2_3 adj) (ix4 n h i j) = adj (ix2 i j) := by
  rw [broadcastInDim_apply (![0, 1, 2, 3] : Fin 4 → Fin S8x8x1024x1024.rank) bcast_S1x1x1024x1024_S8x8x1024x1024_0_1_2_3 _
      (ix4 n h i j) (ix4 (0 : Fin 1) (0 : Fin 1) i j)
      (fun a => by match a with | ⟨0, _⟩ => rfl | ⟨1, _⟩ => rfl | ⟨2, _⟩ => rfl | ⟨3, _⟩ => rfl),
    broadcastInDim_apply (![2, 3] : Fin 2 → Fin S1x1x1024x1024.rank) bcast_S1024x1024_S1x1x1024x1024_2_3 adj
      (ix4 (0 : Fin 1) (0 : Fin 1) i j) (ix2 i j) (fun a => by match a with | ⟨0, _⟩ => rfl | ⟨1, _⟩ => rfl)]

theorem scores_eq (q k : FVec Ideal S8x8x1024x64 .f32) (adj : FVec Ideal S1024x1024 .f32) :
    mulf (mulf (Host.dotGeneral dot_S8x8x1024x64_S8x8x1024x64_S8x8x1024x1024_3_3_2_2_01_01 none q k)
        (broadcastInDim S8x8x1024x1024 ![] bcast_S_S8x8x1024x1024 (constant S_ .f32 0x3E000000#32)))
      (broadcastInDim S8x8x1024x1024 ![0, 1, 2, 3] bcast_S1x1x1024x1024_S8x8x1024x1024_0_1_2_3 (broadcastInDim S1x1x1024x1024 ![2, 3] bcast_S1024x1024_S1x1x1024x1024_2_3 adj))
    = Cert.Spec.scores q k adj := by
  funext o
  obtain ⟨n, h, i, j, rfl⟩ : ∃ (n : Fin 8) (h : Fin 8) (i : Fin 1024) (j : Fin 1024), o = ix4 n h i j :=
    ⟨o 0, o 1, o 2, o 3, eq_ix4 o⟩
  rw [mulf_apply, mulf_apply, scDot_apply, scaleBcast_apply, gateBcast_apply, Cert.Spec.scores_ix]
  rfl

end Cert.ReferenceIdeal.RefValue

end
-- ==== Proof.RefAttn.lean ====
/-
  The reference's softmax numerator and its weighted sum of the values, read entry by entry.  The row
  maximum is a fold of `max` from −∞ (taking `max` with −∞ once more changes nothing); the numerator is
  `exp (score − row maximum)`; the output is `Σ_j (numerator[i,j] / Σ_j' numerator[i,j']) · v[j,d]`.
-/
import proofs.«428822_j16243566313770_3_alg».proof.ReferenceIdeal
import proofs.«428822_j16243566313770_3_alg».proof.Proof.Gen.ReferenceIdeal
import proofs.«428822_j16243566313770_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce
import Mathlib.Data.Finset.Fold

set_option maxRecDepth 16384

noncomputable section

namespace Cert.ReferenceIdeal.RefValue

open Cert.ReferenceIdeal Cert.ReferenceIdeal.Facts₀ Cert.ReferenceIdeal.Facts
open Idealize.ShloMosaic Idealize.ShloMosaic.ValueIdx

/-- The scores' shape with its last axis removed is the rows' shape. -/
private theorem dropKey : S8x8x1024x1024.Reduces [3] S8x8x1024 := by decide

/-- A row index with a key position inserted on the last axis is the score index. -/
private theorem dropKey_lift (n h : Fin 8) (i k : Fin 1024) :
    dropKey.lift (ix3 n h i) k = ix4 n h i k := by
  funext c; apply Fin.ext
  match c with
  | ⟨0, _⟩ => rfl
  | ⟨1, _⟩ => rfl
  | ⟨2, _⟩ => rfl
  | ⟨3, _⟩ => rfl

/-- The host's max-reduce over the key axis, read at a row: the fold of `max` over the row from the initial word. -/
private theorem reduceMax_apply (s : FVec Ideal S8x8x1024x1024 .f32) (w : BitVec 32) (n h : Fin 8) (i : Fin 1024) :
    Host.reduce FloatOps.maximumf s (constant (F := Ideal) S_ .f32 w) reducesTo_S8x8x1024x1024_S8x8x1024_d3 h_S_ (ix3 n h i)
      = (Finset.univ : Finset (Fin 1024)).fold max (Ideal.ofBits .f32 w) (fun j => s (ix4 n h i j)) := by
  refine (Host.reduce_eq_fold_single FloatOps.maximumf s _ reducesTo_S8x8x1024x1024_S8x8x1024_d3 dropKey h_S_ (ix3 n h i)).trans ?_
  have hg : (s ∘ dropKey.lift (ix3 n h i)) = fun j : Fin 1024 => s (ix4 n h i j) :=
    funext fun k => congrArg s (dropKey_lift n h i k)
  rw [hg]
  rfl

/-- A per-row column [8,8,1024,1] spread along the key axis reads the row's one entry. -/
private theorem spreadKeys_apply {α : Type} (x : S8x8x1024x1.Idx → α) (n h : Fin 8) (i j : Fin 1024) :
    broadcastInDim S8x8x1024x1024 ![0, 1, 2, 3] bcast_S8x8x1024x1_S8x8x1024x1024_0_1_2_3 x (ix4 n h i j)
      = x (ix4 n h i (0 : Fin 1)) := by
  refine broadcastInDim_apply _ _ x (ix4 n h i j) (ix4 n h i (0 : Fin 1)) ?_
  intro a
  match a with
  | ⟨0, _⟩ => rfl
  | ⟨1, _⟩ => rfl
  | ⟨2, _⟩ => rfl
  | ⟨3, _⟩ => rfl

/-- A per-row array [8,8,1024] given a trailing unit axis reads the row's entry. -/
private theorem column_apply {α : Type} (y : S8x8x1024.Idx → α) (n h : Fin 8) (i : Fin 1024) :
    broadcastInDim S8x8x1024x1 ![0, 1, 2] bcast_S8x8x1024_S8x8x1024x1_0_1_2 y (ix4 n h i (0 : Fin 1))
      = y (ix3 n h i) := by
  refine broadcastInDim_apply _ _ y (ix4 n h i (0 : Fin 1)) (ix3 n h i) ?_
  intro a
  match a with
  | ⟨0, _⟩ => rfl
  | ⟨1, _⟩ => rfl
  | ⟨2, _⟩ => rfl

/-- A scalar word spread over the rows reads the word's value at every row. -/
private theorem splatRows_apply (w : BitVec 32) (n h : Fin 8) (i : Fin 1024) :
    broadcastInDim S8x8x1024 ![] bcast_S_S8x8x1024 (constant (F := Ideal) S_ .f32 w) (ix3 n h i)
      = Ideal.ofBits .f32 w := by
  rw [broadcastInDim_scalar_apply]
  rfl

/-- Taking `max` with the fold's own starting value once more changes nothing. -/
private theorem max_fold_self (b : EReal) (f : Fin 1024 → EReal) :
    max b ((Finset.univ : Finset (Fin 1024)).fold max b f) = (Finset.univ : Finset (Fin 1024)).fold max b f :=
  max_eq_right ((Finset.le_fold_max b).mpr (Or.inl le_rfl))

theorem softexp_eq (s : FVec Ideal S8x8x1024x1024 .f32) :
    Host.exp (subf s (broadcastInDim S8x8x1024x1024 ![0, 1, 2, 3] bcast_S8x8x1024x1_S8x8x1024x1024_0_1_2_3 (broadcastInDim S8x8x1024x1 ![0, 1, 2] bcast_S8x8x1024_S8x8x1024x1_0_1_2 (maximumf (broadcastInDim S8x8x1024 ![] bcast_S_S8x8x1024 (constant S_ .f32 0xFF800000#32)) (Host.reduce FloatOps.maximumf s (constant S_ .f32 0xFF800000#32) reducesTo_S8x8x1024x1024_S8x8x1024_d3 h_S_)))))
    = Cert.Spec.softexp s := by
  funext o
  obtain ⟨n, h, i, j, rfl⟩ : ∃ (n : Fin 8) (h : Fin 8) (i : Fin 1024) (j : Fin 1024), o = ix4 n h i j :=
    ⟨o 0, o 1, o 2, o 3, eq_ix4 o⟩
  rw [Cert.Spec.softexp_ix]
  unfold Host.exp
  simp only []
  rw [Ideal.hostUnary_exp_def, subf_apply, spreadKeys_apply, column_apply, maximumf_apply, splatRows_apply,
    reduceMax_apply, max_fold_self]
  rfl

/-- The host's add-reduce from zero over the key axis, read at a row, is the row's sum. -/
private theorem reduceSum_apply (p : FVec Ideal S8x8x1024x1024 .f32) (n h : Fin 8) (i : Fin 1024) :
    Host.reduceAdd (F := Ideal) p (constant (F := Ideal) S_ .f32 0x00000000#32) reducesTo_S8x8x1024x1024_S8x8x1024_d3 h_S_ (ix3 n h i)
      = Cert.Spec.rowSum p n h i := by
  rw [hostReduceAdd_apply]
  refine (Ideal.hostReduceAdd_single reducesTo_S8x8x1024x1024_S8x8x1024_d3 dropKey p _ (ix3 n h i)).trans ?_
  rw [constant_apply, Ideal.ofBits_zero_f32, zero_add]
  unfold Cert.Spec.rowSum
  exact Finset.sum_congr rfl (fun k _ => congrArg p (dropKey_lift n h i k))

/-! The weighted sum's operand indices, axis by axis: the two batch axes and each operand's free axis read the
    output index, the contracted axis reads the contraction position. -/

private theorem mixL0 (j : S8x8x1024x64.Idx) (k : dot_S8x8x1024x1024_S8x8x1024x64_S8x8x1024x64_3_2_2_3_01_01.contr.Idx) :
    (dot_S8x8x1024x1024_S8x8x1024x64_S8x8x1024x64_3_2_2_3_01_01.lhsIdx j k 0).val = (j 0).val := rfl
private theorem mixL1 (j : S8x8x1024x64.Idx) (k : dot_S8x8x1024x1024_S8x8x1024x64_S8x8x1024x64_3_2_2_3_01_01.contr.Idx) :
    (dot_S8x8x1024x1024_S8x8x1024x64_S8x8x1024x64_3_2_2_3_01_01.lhsIdx j k 1).val = (j 1).val := rfl
private theorem mixL2 (j : S8x8x1024x64.Idx) (k : dot_S8x8x1024x1024_S8x8x1024x64_S8x8x1024x64_3_2_2_3_01_01.contr.Idx) :
    (dot_S8x8x1024x1024_S8x8x1024x64_S8x8x1024x64_3_2_2_3_01_01.lhsIdx j k 2).val = (j 2).val := rfl
private theorem mixL3 (j : S8x8x1024x64.Idx) (k : dot_S8x8x1024x1024_S8x8x1024x64_S8x8x1024x64_3_2_2_3_01_01.contr.Idx) :
    (dot_S8x8x1024x1024_S8x8x1024x64_S8x8x1024x64_3_2_2_3_01_01.lhsIdx j k 3).val = (k ⟨0, by decide⟩).val :=
  DotDims.lhsIdx_val_of_single _ rfl j k

private theorem mixR0 (j : S8x8x1024x64.Idx) (k : dot_S8x8x1024x1024_S8x8x1024x64_S8x8x1024x64_3_2_2_3_01_01.contr.Idx) :
    (dot_S8x8x1024x1024_S8x8x1024x64_S8x8x1024x64_3_2_2_3_01_01.rhsIdx j k 0).val = (j 0).val := rfl
private theorem mixR1 (j : S8x8x1024x64.Idx) (k : dot_S8x8x1024x1024_S8x8x1024x64_S8x8x1024x64_3_2_2_3_01_01.contr.Idx) :
    (dot_S8x8x1024x1024_S8x8x1024x64_S8x8x1024x64_3_2_2_3_01_01.rhsIdx j k 1).val = (j 1).val := rfl
private theorem mixR2 (j : S8x8x1024x64.Idx) (k : dot_S8x8x1024x1024_S8x8x1024x64_S8x8x1024x64_3_2_2_3_01_01.contr.Idx) :
    (dot_S8x8x1024x1024_S8x8x1024x64_S8x8x1024x64_3_2_2_3_01_01.rhsIdx j k 2).val = (k ⟨0, by decide⟩).val :=
  DotDims.rhsIdx_val_of_single _ rfl j k
private theorem mixR3 (j : S8x8x1024x64.Idx) (k : dot_S8x8x1024x1024_S8x8x1024x64_S8x8x1024x64_3_2_2_3_01_01.contr.Idx) :
    (dot_S8x8x1024x1024_S8x8x1024x64_S8x8x1024x64_3_2_2_3_01_01.rhsIdx j k 3).val = (j 3).val := rfl

/-- The contraction positions of the weighted sum are the 1024 key positions. -/
private def keyPos : dot_S8x8x1024x1024_S8x8x1024x64_S8x8x1024x64_3_2_2_3_01_01.contr.Idx ≃ Fin 1024 :=
  contrEquiv1 dot_S8x8x1024x1024_S8x8x1024x64_S8x8x1024x64_3_2_2_3_01_01 1024 rfl rfl

private theorem keyPos_symm_val (k : Fin 1024) : ((keyPos.symm k) ⟨0, by decide⟩ : ℕ) = k.val :=
  contrEquiv1_symm_val dot_S8x8x1024x1024_S8x8x1024x64_S8x8x1024x64_3_2_2_3_01_01 1024 rfl rfl k

/-- At output entry (n, h, i, d) and key position k the weights are read at (n, h, i, k) … -/
private theorem mix_lhsIdx (n h : Fin 8) (i : Fin 1024) (d : Fin 64) (k : Fin 1024) :
    dot_S8x8x1024x1024_S8x8x1024x64_S8x8x1024x64_3_2_2_3_01_01.lhsIdx (ix4 n h i d) (keyPos.symm k) = ix4 n h i k := by
  funext a; apply Fin.ext
  match a with
  | ⟨0, _⟩ => exact mixL0 _ _
  | ⟨1, _⟩ => exact mixL1 _ _
  | ⟨2, _⟩ => exact mixL2 _ _
  | ⟨3, _⟩ => exact (mixL3 _ _).trans (keyPos_symm_val k)

/-- … and the values at (n, h, k, d). -/
private theorem mix_rhsIdx (n h : Fin 8) (i : Fin 1024) (d : Fin 64) (k : Fin 1024) :
    dot_S8x8x1024x1024_S8x8x1024x64_S8x8x1024x64_3_2_2_3_01_01.rhsIdx (ix4 n h i d) (keyPos.symm k) = ix4 n h k d := by
  funext a; apply Fin.ext
  match a with
  | ⟨0, _⟩ => exact mixR0 _ _
  | ⟨1, _⟩ => exact mixR1 _ _
  | ⟨2, _⟩ => exact (mixR2 _ _).trans (keyPos_symm_val k)
  | ⟨3, _⟩ => exact mixR3 _ _

theorem mix_eq (p : FVec Ideal S8x8x1024x1024 .f32) (v : FVec Ideal S8x8x1024x64 .f32) :
    Host.dotGeneral dot_S8x8x1024x1024_S8x8x1024x64_S8x8x1024x64_3_2_2_3_01_01 none (Host.divf p (broadcastInDim S8x8x1024x1024 ![0, 1, 2, 3] bcast_S8x8x1024x1_S8x8x1024x1024_0_1_2_3 (broadcastInDim S8x8x1024x1 ![0, 1, 2] bcast_S8x8x1024_S8x8x1024x1_0_1_2 (Host.reduceAdd p (constant S_ .f32 0x00000000#32) reducesTo_S8x8x1024x1024_S8x8x1024_d3 h_S_)))) v
    = Cert.Spec.mix p v := by
  funext o
  obtain ⟨n, h, i, d, rfl⟩ : ∃ (n : Fin 8) (h : Fin 8) (i : Fin 1024) (d : Fin 64), o = ix4 n h i d :=
    ⟨o 0, o 1, o 2, o 3, eq_ix4 o⟩
  rw [Cert.Spec.mix_ix]
  unfold Cert.Spec.mixAt
  refine (Ideal.dotGeneral_apply _ none .single _ v (ix4 n h i d)).trans ?_
  refine (Equiv.sum_comp keyPos.symm _).symm.trans ?_
  refine Finset.sum_congr rfl (fun k _ => ?_)
  rw [mix_lhsIdx, mix_rhsIdx, hostDivf_apply, spreadKeys_apply, column_apply, reduceSum_apply]

end Cert.ReferenceIdeal.RefValue

end
-- ==== Proof.RefNorm.lean ====
/-
  The reference's normalisation over the channels, read entry by entry: the mean is the channel sum over
  512, the centred value is the entry less its row's mean, the variance is the channel sum of squared
  centred values over 512, and the output is centred · rsqrt (variance + ε) · γ + β.
-/
import proofs.«428822_j16243566313770_3_alg».proof.ReferenceIdeal
import proofs.«428822_j16243566313770_3_alg».proof.Proof.Gen.ReferenceIdeal
import proofs.«428822_j16243566313770_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Facts₀ Cert.ReferenceIdeal.Facts
open Idealize.ShloMosaic Idealize.ShloMosaic.ValueIdx

/-- the mean of each token's channels, as the reference spells it -/
def meanArr (r : FVec Ideal S8x1024x512 .f32) : FVec Ideal S8x1024x1 .f32 :=
  Host.divf (broadcastInDim S8x1024x1 ![0, 1] bcast_S8x1024_S8x1024x1_0_1 (Host.reduceAdd r (constant S_ .f32 0x00000000#32) reducesTo_S8x1024x512_S8x1024_d2 h_S_)) (broadcastInDim S8x1024x1 ![] bcast_S_S8x1024x1 (constant S_ .f32 0x44000000#32))

/-- each entry less its token's mean, as the reference spells it -/
def cenArr (r : FVec Ideal S8x1024x512 .f32) : FVec Ideal S8x1024x512 .f32 :=
  subf r (broadcastInDim S8x1024x512 ![0, 1, 2] bcast_S8x1024x1_S8x1024x512_0_1_2 (meanArr r))

/-- The reference's sum over the channel axis, started from the zero word, read at a token: the plain sum of that
    token's 512 channels. -/
private theorem chanSum_apply (x : FVec Ideal S8x1024x512 .f32) (n : Fin 8) (s : Fin 1024) :
    Host.reduceAdd (F := Ideal) x (constant (F := Ideal) S_ .f32 0x00000000#32) reducesTo_S8x1024x512_S8x1024_d2 h_S_ (ix2 n s)
      = ∑ f : Fin 512, x (ix3 n s f) := by
  rw [hostReduceAdd_apply, Ideal.hostReduceAdd_single _ (by decide : S8x1024x512.Reduces [2] S8x1024), constant_apply,
    Ideal.ofBits_zero_f32, zero_add]
  refine Finset.sum_congr rfl fun f _ => congrArg x ?_
  funext c
  match c with
  | ⟨0, _⟩ => rfl
  | ⟨1, _⟩ => rfl
  | ⟨2, _⟩ => rfl

/-- A per-token array given a unit last axis reads the token's value. -/
private theorem tokCol_apply (y : FVec Ideal S8x1024 .f32) (n : Fin 8) (s : Fin 1024) :
    broadcastInDim S8x1024x1 ![0, 1] bcast_S8x1024_S8x1024x1_0_1 y (ix3 n s (0 : Fin 1)) = y (ix2 n s) := by
  refine broadcastInDim_apply _ _ _ _ (ix2 n s) fun a => ?_
  match a with
  | ⟨0, _⟩ => rfl
  | ⟨1, _⟩ => rfl

/-- A per-token column spread over the channels reads the token's value at every channel. -/
private theorem colSpread_apply (y : FVec Ideal S8x1024x1 .f32) (n : Fin 8) (s : Fin 1024) (f : Fin 512) :
    broadcastInDim S8x1024x512 ![0, 1, 2] bcast_S8x1024x1_S8x1024x512_0_1_2 y (ix3 n s f) = y (ix3 n s (0 : Fin 1)) := by
  refine broadcastInDim_apply _ _ _ _ (ix3 n s (0 : Fin 1)) fun a => ?_
  match a with
  | ⟨0, _⟩ => rfl
  | ⟨1, _⟩ => rfl
  | ⟨2, _⟩ => rfl

/-- A per-channel row spread over batch and position reads the channel's value. -/
private theorem rowSpread_apply (g : FVec Ideal S512 .f32) (n : Fin 8) (s : Fin 1024) (f : Fin 512) :
    broadcastInDim S8x1024x512 ![0, 1, 2] bcast_S1x1x512_S8x1024x512_0_1_2
      (broadcastInDim S1x1x512 ![2] bcast_S512_S1x1x512_2 g) (ix3 n s f) = g (ix1 f) := by
  rw [broadcastInDim_apply _ _ _ _ (ix3 (0 : Fin 1) (0 : Fin 1) f) fun a => by
        match a with
        | ⟨0, _⟩ => rfl
        | ⟨1, _⟩ => rfl
        | ⟨2, _⟩ => rfl]
  refine broadcastInDim_apply _ _ _ _ (ix1 f) fun a => ?_
  match a with
  | ⟨0, _⟩ => rfl

/-- The reference's mean array at a token is the specification's mean: the channel sum over the width word. -/
theorem meanArr_apply (r : FVec Ideal S8x1024x512 .f32) (n : Fin 8) (s : Fin 1024) :
    meanArr r (ix3 n s (0 : Fin 1)) = Cert.Spec.meanAt r n s := by
  unfold meanArr Cert.Spec.meanAt Cert.Spec.width
  rw [hostDivf_apply, tokCol_apply, chanSum_apply, broadcastInDim_scalar_apply, constant_apply]

/-- The reference's centred array at an entry is the specification's centred value. -/
theorem cenArr_apply (r : FVec Ideal S8x1024x512 .f32) (n : Fin 8) (s : Fin 1024) (f : Fin 512) :
    cenArr r (ix3 n s f) = Cert.Spec.cenAt r n s f := by
  unfold cenArr Cert.Spec.cenAt
  rw [subf_apply, colSpread_apply, meanArr_apply]

/-- The reference's reciprocal standard deviation at a token: rsqrt of the specification's variance plus the offset word. -/
private theorem invStd_apply (r : FVec Ideal S8x1024x512 .f32) (n : Fin 8) (s : Fin 1024) :
    Host.rsqrt (F := Ideal) (addf (Host.divf (broadcastInDim S8x1024x1 ![0, 1] bcast_S8x1024_S8x1024x1_0_1 (Host.reduceAdd (mulf (cenArr r) (cenArr r)) (constant S_ .f32 0x00000000#32) reducesTo_S8x1024x512_S8x1024_d2 h_S_)) (broadcastInDim S8x1024x1 ![] bcast_S_S8x1024x1 (constant S_ .f32 0x44000000#32))) (broadcastInDim S8x1024x1 ![] bcast_S_S8x1024x1 (constant S_ .f32 0x3727C5AC#32))) (ix3 n s (0 : Fin 1))
      = Ideal.rsqrt (Cert.Spec.varAt r n s + Cert.Spec.eps) := by
  unfold Cert.Spec.varAt Cert.Spec.eps Cert.Spec.width
  show Ideal.rsqrt _ = _
  rw [addf_apply, hostDivf_apply, tokCol_apply, chanSum_apply, broadcastInDim_scalar_apply, broadcastInDim_scalar_apply,
    constant_apply, constant_apply]
  refine congrArg Ideal.rsqrt (congrArg (· + _) (congrArg (Ideal.div · _) ?_))
  refine Finset.sum_congr rfl fun f _ => ?_
  rw [mulf_apply, cenArr_apply]

theorem normalize_eq (r : FVec Ideal S8x1024x512 .f32) (g be : FVec Ideal S512 .f32) :
    addf (mulf (mulf (cenArr r) (broadcastInDim S8x1024x512 ![0, 1, 2] bcast_S8x1024x1_S8x1024x512_0_1_2 (Host.rsqrt (addf (Host.divf (broadcastInDim S8x1024x1 ![0, 1] bcast_S8x1024_S8x1024x1_0_1 (Host.reduceAdd (mulf (cenArr r) (cenArr r)) (constant S_ .f32 0x00000000#32) reducesTo_S8x1024x512_S8x1024_d2 h_S_)) (broadcastInDim S8x1024x1 ![] bcast_S_S8x1024x1 (constant S_ .f32 0x44000000#32))) (broadcastInDim S8x1024x1 ![] bcast_S_S8x1024x1 (constant S_ .f32 0x3727C5AC#32))))))
        (broadcastInDim S8x1024x512 ![0, 1, 2] bcast_S1x1x512_S8x1024x512_0_1_2 (broadcastInDim S1x1x512 ![2] bcast_S512_S1x1x512_2 g)))
      (broadcastInDim S8x1024x512 ![0, 1, 2] bcast_S1x1x512_S8x1024x512_0_1_2 (broadcastInDim S1x1x512 ![2] bcast_S512_S1x1x512_2 be))
    = Cert.Spec.normalize r g be := by
  funext o
  obtain ⟨n, s, f, rfl⟩ : ∃ (n : Fin 8) (s : Fin 1024) (f : Fin 512), o = ix3 n s f := ⟨o 0, o 1, o 2, eq_ix3 o⟩
  rw [Cert.Spec.normalize_ix]
  unfold Cert.Spec.normalizeAt
  rw [addf_apply, mulf_apply, mulf_apply, cenArr_apply, colSpread_apply, invStd_apply, rowSpread_apply, rowSpread_apply]

end Cert.ReferenceIdeal.RefValue

end
-- ==== Proof.RefValue.lean ====
/-
  The reference's result as the specification's two layers.

  The reference's run names its long intermediate arrays (the gated scores, the softmax numerators, the
  residual sums, the means and centred values, the first layer's output).  Each is one stage law away from
  the specification's stage of the arrays before it; following the names in the order the reference
  computes them turns the result into the specification's layer applied twice.
-/
import proofs.«428822_j16243566313770_3_alg».proof.Proof.Gen.ReferenceIdeal.Run
import proofs.«428822_j16243566313770_3_alg».proof.Proof.RefProj
import proofs.«428822_j16243566313770_3_alg».proof.Proof.RefAttn
import proofs.«428822_j16243566313770_3_alg».proof.Proof.RefNorm

set_option maxRecDepth 16384

noncomputable section

namespace Cert.ReferenceIdeal.Whole

open Cert.ReferenceIdeal Cert.ReferenceIdeal.Facts₀ Cert.ReferenceIdeal.Facts
open Cert.ReferenceIdeal.Value Cert.ReferenceIdeal.RefValue
open Idealize.ShloMosaic Idealize.ShloMosaic.TcCoe Idealize.SL.Sem Idealize.ShloMosaic.StableHlo

/-! ## The reference's spellings of the layout maps, the weights and the rows -/

/-- the channel axis split into heads and the head axis moved in front of the positions -/
def split (q : FVec Ideal S8x1024x512 .f32) : FVec Ideal S8x8x1024x64 .f32 :=
  transpose S8x8x1024x64 [0, 2, 1, 3] (shapeCast _ q shapeCasts_S8x1024x512_S8x1024x8x64) transposes_S8x1024x8x64_S8x8x1024x64_0_2_1_3

/-- the head axis moved back behind the positions and merged into the channel axis -/
def merge (a : FVec Ideal S8x8x1024x64 .f32) : FVec Ideal S8x1024x512 .f32 :=
  shapeCast _ (transpose S8x1024x8x64 [0, 2, 1, 3] a transposes_S8x8x1024x64_S8x1024x8x64_0_2_1_3) shapeCasts_S8x1024x8x64_S8x1024x512

/-- the first layer's weight out of the stacked pair -/
def weight0 (W : FVec Ideal S2x512x512 .f32) : FVec Ideal S512x512 .f32 :=
  shapeCast _ (extractStridedSlice S1x512x512 ![0, 0, 0] W slices_S2x512x512_S1x512x512_0_0_0) shapeCasts_S1x512x512_S512x512

/-- the second layer's weight out of the stacked pair -/
def weight1 (W : FVec Ideal S2x512x512 .f32) : FVec Ideal S512x512 .f32 :=
  shapeCast _ (extractStridedSlice S1x512x512 ![1, 0, 0] W slices_S2x512x512_S1x512x512_1_0_0) shapeCasts_S1x512x512_S512x512

/-- the first layer's row out of the stacked pair -/
def row0 (B : FVec Ideal S2x512 .f32) : FVec Ideal S512 .f32 :=
  shapeCast _ (extractStridedSlice S1x512 ![0, 0] B slices_S2x512_S1x512_0_0) shapeCasts_S1x512_S512

/-- the second layer's row out of the stacked pair -/
def row1 (B : FVec Ideal S2x512 .f32) : FVec Ideal S512 .f32 :=
  shapeCast _ (extractStridedSlice S1x512 ![1, 0] B slices_S2x512_S1x512_1_0) shapeCasts_S1x512_S512

variable (V0 : Valuation τ sig (Elt Ideal))

/-! ## The first layer -/

theorem scores_first : res_main_v35 (F := Ideal) V0
    = Cert.Spec.scores (split (Cert.Spec.proj (V0 (Proc.devRef .tc main_arg0)) (weight0 (V0 (Proc.devRef .tc main_arg2))) (row0 (V0 (Proc.devRef .tc main_arg3)))))
        (split (Cert.Spec.proj (V0 (Proc.devRef .tc main_arg0)) (weight0 (V0 (Proc.devRef .tc main_arg4))) (row0 (V0 (Proc.devRef .tc main_arg5))))) (V0 (Proc.devRef .tc main_arg1)) := by
  unfold res_main_v35
  rw [proj_eq, proj_eq, scores_eq]
  rfl

theorem numer_first : res_main_v42 (F := Ideal) V0 = Cert.Spec.softexp (res_main_v35 V0) := by
  unfold res_main_v42
  exact softexp_eq _

theorem resid_first : res_main_v58 (F := Ideal) V0
    = Cert.Spec.res (merge (Cert.Spec.mix (res_main_v42 V0) (split (Cert.Spec.proj (V0 (Proc.devRef .tc main_arg0)) (weight0 (V0 (Proc.devRef .tc main_arg6))) (row0 (V0 (Proc.devRef .tc main_arg7)))))))
        (V0 (Proc.devRef .tc main_arg0)) (weight0 (V0 (Proc.devRef .tc main_arg8))) (row0 (V0 (Proc.devRef .tc main_arg9))) := by
  unfold res_main_v58
  rw [proj_eq (V0 (Proc.devRef .tc main_arg0)), mix_eq, proj_eq]
  rfl

theorem out_first : res_main_v86 (F := Ideal) V0
    = Cert.Spec.normalize (res_main_v58 V0) (row0 (V0 (Proc.devRef .tc main_arg10))) (row0 (V0 (Proc.devRef .tc main_arg11))) := by
  unfold res_main_v86 res_main_v68 res_main_v66
  exact normalize_eq _ _ _

/-- the first layer's output is the specification's layer of the launch arrays -/
theorem layer_first : res_main_v86 (F := Ideal) V0
    = Cert.Spec.layer split merge (V0 (Proc.devRef .tc main_arg0)) (V0 (Proc.devRef .tc main_arg1))
        (weight0 (V0 (Proc.devRef .tc main_arg2))) (row0 (V0 (Proc.devRef .tc main_arg3))) (weight0 (V0 (Proc.devRef .tc main_arg4))) (row0 (V0 (Proc.devRef .tc main_arg5)))
        (weight0 (V0 (Proc.devRef .tc main_arg6))) (row0 (V0 (Proc.devRef .tc main_arg7))) (weight0 (V0 (Proc.devRef .tc main_arg8))) (row0 (V0 (Proc.devRef .tc main_arg9)))
        (row0 (V0 (Proc.devRef .tc main_arg10))) (row0 (V0 (Proc.devRef .tc main_arg11))) := by
  rw [out_first, resid_first, numer_first, scores_first]
  rfl

/-! ## The second layer: the same stages over the first layer's output -/

theorem scores_second : res_main_v122 (F := Ideal) V0
    = Cert.Spec.scores (split (Cert.Spec.proj (res_main_v86 V0) (weight1 (V0 (Proc.devRef .tc main_arg2))) (row1 (V0 (Proc.devRef .tc main_arg3)))))
        (split (Cert.Spec.proj (res_main_v86 V0) (weight1 (V0 (Proc.devRef .tc main_arg4))) (row1 (V0 (Proc.devRef .tc main_arg5))))) (V0 (Proc.devRef .tc main_arg1)) := by
  unfold res_main_v122
  rw [proj_eq, proj_eq, scores_eq]
  rfl

theorem numer_second : res_main_v129 (F := Ideal) V0 = Cert.Spec.softexp (res_main_v122 V0) := by
  unfold res_main_v129
  exact softexp_eq _

theorem resid_second : res_main_v145 (F := Ideal) V0
    = Cert.Spec.res (merge (Cert.Spec.mix (res_main_v129 V0) (split (Cert.Spec.proj (res_main_v86 V0) (weight1 (V0 (Proc.devRef .tc main_arg6))) (row1 (V0 (Proc.devRef .tc main_arg7)))))))
        (res_main_v86 V0) (weight1 (V0 (Proc.devRef .tc main_arg8))) (row1 (V0 (Proc.devRef .tc main_arg9))) := by
  unfold res_main_v145
  rw [proj_eq (res_main_v86 V0), mix_eq, proj_eq]
  rfl

/-- the reference's result, as its run spells it -/
def result : FVec Ideal S8x1024x512 .f32 :=
  addf (mulf (mulf (subf (res_main_v145 V0) (broadcastInDim S8x1024x512 ![0, 1, 2] bcast_S8x1024x1_S8x1024x512_0_1_2 (res_main_v153 V0))) (broadcastInDim S8x1024x512 ![0, 1, 2] bcast_S8x1024x1_S8x1024x512_0_1_2 (Host.rsqrt (addf (Host.divf (broadcastInDim S8x1024x1 ![0, 1] bcast_S8x1024_S8x1024x1_0_1 (Host.reduceAdd (mulf (res_main_v155 V0) (res_main_v155 V0)) (constant S_ .f32 0x00000000#32) reducesTo_S8x1024x512_S8x1024_d2 h_S_)) (broadcastInDim S8x1024x1 ![] bcast_S_S8x1024x1 (constant S_ .f32 0x44000000#32))) (broadcastInDim S8x1024x1 ![] bcast_S_S8x1024x1 (constant S_ .f32 0x3727C5AC#32)))))) (broadcastInDim S8x1024x512 ![0, 1, 2] bcast_S1x1x512_S8x1024x512_0_1_2 (broadcastInDim S1x1x512 ![2] bcast_S512_S1x1x512_2 (shapeCast _ (extractStridedSlice S1x512 ![1, 0] (V0 (Proc.devRef .tc main_arg10)) slices_S2x512_S1x512_1_0) shapeCasts_S1x512_S512)))) (broadcastInDim S8x1024x512 ![0, 1, 2] bcast_S1x1x512_S8x1024x512_0_1_2 (broadcastInDim S1x1x512 ![2] bcast_S512_S1x1x512_2 (shapeCast _ (extractStridedSlice S1x512 ![1, 0] (V0 (Proc.devRef .tc main_arg11)) slices_S2x512_S1x512_1_0) shapeCasts_S1x512_S512)))

theorem result_eq : result V0
    = Cert.Spec.normalize (res_main_v145 V0) (row1 (V0 (Proc.devRef .tc main_arg10))) (row1 (V0 (Proc.devRef .tc main_arg11))) := by
  unfold result res_main_v155 res_main_v153
  exact normalize_eq _ _ _

/-- the reference's result is the specification's layer applied twice -/
theorem result_value : result V0
    = Cert.Spec.layer split merge
        (Cert.Spec.layer split merge (V0 (Proc.devRef .tc main_arg0)) (V0 (Proc.devRef .tc main_arg1))
          (weight0 (V0 (Proc.devRef .tc main_arg2))) (row0 (V0 (Proc.devRef .tc main_arg3))) (weight0 (V0 (Proc.devRef .tc main_arg4))) (row0 (V0 (Proc.devRef .tc main_arg5)))
          (weight0 (V0 (Proc.devRef .tc main_arg6))) (row0 (V0 (Proc.devRef .tc main_arg7))) (weight0 (V0 (Proc.devRef .tc main_arg8))) (row0 (V0 (Proc.devRef .tc main_arg9)))
          (row0 (V0 (Proc.devRef .tc main_arg10))) (row0 (V0 (Proc.devRef .tc main_arg11))))
        (V0 (Proc.devRef .tc main_arg1))
        (weight1 (V0 (Proc.devRef .tc main_arg2))) (row1 (V0 (Proc.devRef .tc main_arg3))) (weight1 (V0 (Proc.devRef .tc main_arg4))) (row1 (V0 (Proc.devRef .tc main_arg5)))
        (weight1 (V0 (Proc.devRef .tc main_arg6))) (row1 (V0 (Proc.devRef .tc main_arg7))) (weight1 (V0 (Proc.devRef .tc main_arg8))) (row1 (V0 (Proc.devRef .tc main_arg9)))
        (row1 (V0 (Proc.devRef .tc main_arg10))) (row1 (V0 (Proc.devRef .tc main_arg11))) := by
  rw [result_eq, resid_second, numer_second, scores_second, layer_first]
  rfl

end Cert.ReferenceIdeal.Whole

end
-- ==== Proof.Bridge.lean ====
/-
  Where the two programs meet.  Both apply one and the same pair of layout maps between the token layout and
  the per-head layout, and cut one and the same weights and rows out of the stacked argument arrays; the kernel
  program additionally changes the weights' float format (the identity on extended reals) and stores each row
  as a 1 × 512 array (read back per channel, it is the row).  So from memories that agree on the arguments,
  the reference's result is the kernel program's two layers.
-/
import proofs.«428822_j16243566313770_3_alg».proof.Proof.KernelValue
import proofs.«428822_j16243566313770_3_alg».proof.Proof.RefValue
import Idealize.ShloMosaic.Lib.ValueLayout

set_option maxRecDepth 16384

noncomputable section

namespace Cert.Bridge

open Idealize.ShloMosaic Idealize.ShloMosaic.TcCoe Idealize.SL.Sem Idealize.ShloMosaic.ValueIdx

theorem split_eq : Cert.KernelIdeal.Chain.split = Cert.ReferenceIdeal.Whole.split := rfl

theorem merge_eq : Cert.KernelIdeal.Chain.merge = Cert.ReferenceIdeal.Whole.merge := rfl

/-- a change of float format is the identity on extended reals -/
theorem weight0_eq (W : FVec Ideal Cert.KernelIdeal.S2x512x512 .f32) : Cert.KernelIdeal.Chain.weight0 W = Cert.ReferenceIdeal.Whole.weight0 W := rfl

theorem weight1_eq (W : FVec Ideal Cert.KernelIdeal.S2x512x512 .f32) : Cert.KernelIdeal.Chain.weight1 W = Cert.ReferenceIdeal.Whole.weight1 W := rfl

/-- a row stored as a 1 × 512 array and read back per channel is the row -/
theorem row0_eq (B : FVec Ideal Cert.KernelIdeal.S2x512 .f32) : Cert.Spec.rowOf (Cert.KernelIdeal.Chain.row0 B) = Cert.ReferenceIdeal.Whole.row0 B := by
  funext r
  obtain ⟨f, rfl⟩ : ∃ f : Fin 512, r = ix1 f := ⟨r 0, eq_ix1 r⟩
  exact shapeCast_a_1a_apply _ _ (0 : Fin 1) f

theorem row1_eq (B : FVec Ideal Cert.KernelIdeal.S2x512 .f32) : Cert.Spec.rowOf (Cert.KernelIdeal.Chain.row1 B) = Cert.ReferenceIdeal.Whole.row1 B := by
  funext r
  obtain ⟨f, rfl⟩ : ∃ f : Fin 512, r = ix1 f := ⟨r 0, eq_ix1 r⟩
  exact shapeCast_a_1a_apply _ _ (0 : Fin 1) f

/-- From memories that agree on the arguments, the reference's result is the kernel program's two layers. -/
theorem meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Whole.result (StableHlo.launchContents m' c) = Cert.KernelIdeal.Chain.twoLayers m c := by
  obtain ⟨h0, h1, h2, h3, h4, h5, h6, h7, h8, h9, h10, h11⟩ := h
  rw [Cert.ReferenceIdeal.Whole.result_value]
  unfold Cert.KernelIdeal.Chain.twoLayers
  rw [split_eq, merge_eq, weight0_eq, weight0_eq, weight0_eq, weight0_eq, weight1_eq, weight1_eq, weight1_eq, weight1_eq,
    row0_eq, row0_eq, row0_eq, row0_eq, row0_eq, row0_eq, row1_eq, row1_eq, row1_eq, row1_eq, row1_eq, row1_eq,
    ← h0, ← h1, ← h2, ← h3, ← h4, ← h5, ← h6, ← h7, ← h8, ← h9, ← h10, ← h11]

end Cert.Bridge

end
-- ==== Proof.RegionQkv.lean ====
/-
  The first region of a layer: the three projections of the tokens.  Grid point `n` holds batch `n`'s
  1024 × 512 slab of tokens and the three whole weights; it writes, for each of the three, the slab
  `Σ_e x[n,s,e] · w[f,e] + b[f]`.  The eight slabs tile each output array, so after the run each output
  array IS the projection of the whole token array.
-/
import proofs.«428822_j16243566313770_3_alg».proof.Proof.Gen.KernelIdeal.Frame
import proofs.«428822_j16243566313770_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the buffer contents the region is entered with: every statement below holds for any such contents
variable (V : (c : Dev nD) → (b : Ref sig .tc) → Buf (Elt Ideal) ((c : Thread nD τ).loc b))

/-! ## The product's operand indices

  The product contracts the tokens' channel axis (axis 1 of the left operand) with axis 0 of the right operand,
  which is the weight transposed; the result's rows are the left operand's rows and its columns the right's. -/

/-- On the left operand's row axis the index is the result's row. -/
private theorem prod_lhs_row (j : S1024x512.Idx) (k : dot_S1024x512_S512x512_S1024x512_1_0_0_1_n_n.contr.Idx) :
    (dot_S1024x512_S512x512_S1024x512_1_0_0_1_n_n.lhsIdx j k 0).val = (j 0).val := by
  unfold DotDims.lhsIdx
  rw [dif_neg (show ¬ (0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl

/-- On the left operand's contracted axis the index is the contraction position. -/
private theorem prod_lhs_col (j : S1024x512.Idx) (k : dot_S1024x512_S512x512_S1024x512_1_0_0_1_n_n.contr.Idx) :
    (dot_S1024x512_S512x512_S1024x512_1_0_0_1_n_n.lhsIdx j k 1).val = (k ⟨0, Nat.one_pos⟩).val :=
  dot_S1024x512_S512x512_S1024x512_1_0_0_1_n_n.lhsIdx_val_of_single (cl := 1) rfl j k

/-- On the right operand's contracted axis the index is the contraction position. -/
private theorem prod_rhs_row (j : S1024x512.Idx) (k : dot_S1024x512_S512x512_S1024x512_1_0_0_1_n_n.contr.Idx) :
    (dot_S1024x512_S512x512_S1024x512_1_0_0_1_n_n.rhsIdx j k 0).val = (k ⟨0, Nat.one_pos⟩).val :=
  dot_S1024x512_S512x512_S1024x512_1_0_0_1_n_n.rhsIdx_val_of_single (cr := 0) rfl j k

/-- On the right operand's column axis the index is the result's column. -/
private theorem prod_rhs_col (j : S1024x512.Idx) (k : dot_S1024x512_S512x512_S1024x512_1_0_0_1_n_n.contr.Idx) :
    (dot_S1024x512_S512x512_S1024x512_1_0_0_1_n_n.rhsIdx j k 1).val = (j 1).val := by
  unfold DotDims.rhsIdx
  rw [dif_neg (show ¬ (1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-! ## One projection's slab at an index -/

/-- The tokens' slab viewed as a matrix and narrowed reads, at `(s, e)`, the slab at `(0, s, e)`: on the extended
    reals narrowing the format changes nothing. -/
private theorem narrowed_apply (x : Vec Ideal S1x1024x512 .f32) (s : Fin 1024) (e : Fin 512) :
    k0_pay2 x (ix2 s e) = x (ix3 (0 : Fin 1) s e) := by
  unfold k0_pay2
  show shapeCast S1024x512 x shapeCasts_S1x1024x512_S1024x512 (ix2 s e) = _
  exact shapeCast_1ab_ab_apply x shapeCasts_S1x1024x512_S1024x512 s e

/-- The slab's matrix times the weight transposed plus the bias row: at `(s, f)` it is
    `Σ_e x[0,s,e] · w[f,e] + b[0,f]`. -/
private theorem slab_apply (x : Vec Ideal S1x1024x512 .f32) (w : Vec Ideal S512x512 .bf16) (b : Vec Ideal S1x512 .f32)
    (s : Fin 1024) (f : Fin 512) :
    (k0_pay3 x w b (ix2 s f) : EReal)
      = (∑ e : Fin 512, (x (ix3 (0 : Fin 1) s e) : EReal) * (w (ix2 f e) : EReal)) + (b (ix2 (0 : Fin 1) f) : EReal) := by
  unfold k0_pay3
  refine Eq.trans (addf_apply _ _ _) ?_
  refine congrArg₂ (· + ·) ?_ ?_
  · refine Eq.trans (Ideal.matmul_constant_zero_apply _ _ _ _ _) ?_
    rw [← Equiv.sum_comp (contrEquiv1 dot_S1024x512_S512x512_S1024x512_1_0_0_1_n_n 512 rfl rfl).symm]
    refine Finset.sum_congr rfl fun e _ => ?_
    have ce := contrEquiv1_symm_val dot_S1024x512_S512x512_S1024x512_1_0_0_1_n_n 512 rfl rfl e
    have hl : dot_S1024x512_S512x512_S1024x512_1_0_0_1_n_n.lhsIdx (ix2 s f)
        ((contrEquiv1 dot_S1024x512_S512x512_S1024x512_1_0_0_1_n_n 512 rfl rfl).symm e) = ix2 s e := by
      funext ax; apply Fin.ext
      match ax with
      | ⟨0, _⟩ => exact prod_lhs_row _ _
      | ⟨1, _⟩ => exact (prod_lhs_col _ _).trans ce
    have hr : dot_S1024x512_S512x512_S1024x512_1_0_0_1_n_n.rhsIdx (ix2 s f)
        ((contrEquiv1 dot_S1024x512_S512x512_S1024x512_1_0_0_1_n_n 512 rfl rfl).symm e) = ix2 e f := by
      funext ax; apply Fin.ext
      match ax with
      | ⟨0, _⟩ => exact (prod_rhs_row _ _).trans ce
      | ⟨1, _⟩ => exact prod_rhs_col _ _
    rw [hl, hr]
    refine congrArg₂ (· * ·) (narrowed_apply x s e) ?_
    refine Eq.trans (transpose_ix2_apply _ _ e f) ?_
    rw [shapeCast_self]
  · refine Eq.trans (broadcastTo_1b_ab_apply _ _ s f) ?_
    rw [shapeCast_self]

/-- A matrix stored as a one-slab block reads, at `(u, s, f)`, the matrix at `(s, f)`. -/
private theorem stored_apply (v : FVec Ideal S1024x512 .f32) (u : Fin 1) (s : Fin 1024) (f : Fin 512) :
    k0_pay1 v (ix3 u s f) = v (ix2 s f) := by
  unfold k0_pay1
  exact shapeCast_ab_1ab_apply v shapeCasts_S1024x512_S1x1024x512 u s f

/-- The three stored payloads are one and the same term of their three operands. -/
private theorem pay_q_eq (x : Vec Ideal S1x1024x512 .f32) (w : Vec Ideal S512x512 .bf16) (b : Vec Ideal S1x512 .f32) :
    k0_pay4 x w b = k0_pay1 (k0_pay3 x w b) := rfl

private theorem pay_k_eq (x : Vec Ideal S1x1024x512 .f32) (w : Vec Ideal S512x512 .bf16) (b : Vec Ideal S1x512 .f32) :
    k0_pay5 x w b = k0_pay1 (k0_pay3 x w b) := rfl

/-! ## A slab of the projection from blocks of the arrays

  When the tokens' block is batch `n`'s slab of the token array, and the weight's and the bias's blocks are the
  whole weight and the whole bias, the stored payload at `(u, s, f)` is the projection at `(n, s, f)`. -/

private theorem proj_of_blocks (X : Cert.Spec.Tok.Idx → EReal) (W : Cert.Spec.Mat.Idx → EReal) (B : S1x512.Idx → EReal)
    (x : Vec Ideal S1x1024x512 .f32) (w : Vec Ideal S512x512 .bf16) (b : Vec Ideal S1x512 .f32) (n : Fin 8)
    (hx : ∀ (s : Fin 1024) (e : Fin 512), (x (ix3 (0 : Fin 1) s e) : EReal) = X (ix3 n s e))
    (hw : ∀ (f e : Fin 512), (w (ix2 f e) : EReal) = W (ix2 f e))
    (hb : ∀ f : Fin 512, (b (ix2 (0 : Fin 1) f) : EReal) = B (ix2 (0 : Fin 1) f))
    (u : Fin 1) (s : Fin 1024) (f : Fin 512) :
    (k0_pay1 (k0_pay3 x w b) (ix3 u s f) : EReal) = Cert.Spec.proj X W (Cert.Spec.rowOf B) (ix3 n s f) := by
  refine Eq.trans (stored_apply _ u s f) ?_
  refine Eq.trans (slab_apply x w b s f) ?_
  rw [Cert.Spec.proj_ix]
  unfold Cert.Spec.projAt
  refine congrArg₂ (· + ·) (Finset.sum_congr rfl fun e _ => ?_) (hb f)
  rw [hx s e, hw f e]

/-! ## The blocks, read off the arrays

  Over the eight grid points: the tokens' block and each output's block sit at batch `t`, and every weight's and
  bias's block is the whole array. -/

/-- The grid point as a batch number. -/
private def batchOf (t : Fin cfg0.N) : Fin 8 := Fin.cast (by decide : grid0.N = 8) t

private theorem idx_tok : ∀ t : Fin cfg0.N, win0_0.index t (0 : Fin 3) = t.val ∧ win0_0.index t (1 : Fin 3) = 0
    ∧ win0_0.index t (2 : Fin 3) = 0 :=
  (by decide +kernel : ∀ t : Fin grid0.N, _)

/-- The tokens' block at point `t` is batch `t`'s slab of the token array. -/
private theorem tok_block (c : Dev nD) (t : Fin cfg0.N) (s : Fin 1024) (e : Fin 512) :
    ((iblk0 (F := Ideal) V c 0 t : Vec Ideal S1x1024x512 .f32) (ix3 (0 : Fin 1) s e) : EReal)
      = (V c main_arg0 : S8x1024x512.Idx → Elt Ideal .f32) (ix3 (batchOf t) s e) := by
  obtain ⟨h0, h1, h2⟩ := idx_tok t
  unfold iblk0
  rw [View.read_apply]
  show V c main_arg0 _ = V c main_arg0 _
  congr 1
  funext a
  apply Fin.ext
  match a with
  | ⟨0, _⟩ => show win0_0.index t (0 : Fin 3) * 1 + 1 * 0 = t.val; omega
  | ⟨1, _⟩ => show win0_0.index t (1 : Fin 3) * 1024 + 1 * s.val = s.val; omega
  | ⟨2, _⟩ => show win0_0.index t (2 : Fin 3) * 512 + 1 * e.val = e.val; omega

private theorem idx_wq : ∀ t : Fin cfg0.N, win0_1.index t (0 : Fin 2) = 0 ∧ win0_1.index t (1 : Fin 2) = 0 :=
  (by decide +kernel : ∀ t : Fin grid0.N, _)

private theorem idx_bq : ∀ t : Fin cfg0.N, win0_2.index t (0 : Fin 2) = 0 ∧ win0_2.index t (1 : Fin 2) = 0 :=
  (by decide +kernel : ∀ t : Fin grid0.N, _)

private theorem idx_q : ∀ t : Fin cfg0.N, win0_7.index t (0 : Fin 3) = t.val ∧ win0_7.index t (1 : Fin 3) = 0
    ∧ win0_7.index t (2 : Fin 3) = 0 :=
  (by decide +kernel : ∀ t : Fin grid0.N, _)

private theorem idx_wk : ∀ t : Fin cfg0.N, win0_3.index t (0 : Fin 2) = 0 ∧ win0_3.index t (1 : Fin 2) = 0 :=
  (by decide +kernel : ∀ t : Fin grid0.N, _)

private theorem idx_bk : ∀ t : Fin cfg0.N, win0_4.index t (0 : Fin 2) = 0 ∧ win0_4.index t (1 : Fin 2) = 0 :=
  (by decide +kernel : ∀ t : Fin grid0.N, _)

private theorem idx_k : ∀ t : Fin cfg0.N, win0_8.index t (0 : Fin 3) = t.val ∧ win0_8.index t (1 : Fin 3) = 0
    ∧ win0_8.index t (2 : Fin 3) = 0 :=
  (by decide +kernel : ∀ t : Fin grid0.N, _)

private theorem idx_wv : ∀ t : Fin cfg0.N, win0_5.index t (0 : Fin 2) = 0 ∧ win0_5.index t (1 : Fin 2) = 0 :=
  (by decide +kernel : ∀ t : Fin grid0.N, _)

private theorem idx_bv : ∀ t : Fin cfg0.N, win0_6.index t (0 : Fin 2) = 0 ∧ win0_6.index t (1 : Fin 2) = 0 :=
  (by decide +kernel : ∀ t : Fin grid0.N, _)

private theorem idx_v : ∀ t : Fin cfg0.N, win0_9.index t (0 : Fin 3) = t.val ∧ win0_9.index t (1 : Fin 3) = 0
    ∧ win0_9.index t (2 : Fin 3) = 0 :=
  (by decide +kernel : ∀ t : Fin grid0.N, _)

/-- The first weight's block is the whole weight. -/
private theorem wq_block (c : Dev nD) (t : Fin cfg0.N) (f e : Fin 512) :
    ((iblk0 (F := Ideal) V c 1 t : Vec Ideal S512x512 .bf16) (ix2 f e) : EReal)
      = (V c main_v2 : S512x512.Idx → Elt Ideal .bf16) (ix2 f e) := by
  obtain ⟨h0, h1⟩ := idx_wq t
  unfold iblk0
  rw [View.read_apply]
  show V c main_v2 _ = V c main_v2 _
  congr 1
  funext a
  apply Fin.ext
  match a with
  | ⟨0, _⟩ => show win0_1.index t (0 : Fin 2) * 512 + 1 * f.val = f.val; omega
  | ⟨1, _⟩ => show win0_1.index t (1 : Fin 2) * 512 + 1 * e.val = e.val; omega

/-- The first bias's block is the whole bias row. -/
private theorem bq_block (c : Dev nD) (t : Fin cfg0.N) (f : Fin 512) :
    ((iblk0 (F := Ideal) V c 2 t : Vec Ideal S1x512 .f32) (ix2 (0 : Fin 1) f) : EReal)
      = (V c main_v18 : S1x512.Idx → Elt Ideal .f32) (ix2 (0 : Fin 1) f) := by
  obtain ⟨h0, h1⟩ := idx_bq t
  unfold iblk0
  rw [View.read_apply]
  show V c main_v18 _ = V c main_v18 _
  congr 1
  funext a
  apply Fin.ext
  match a with
  | ⟨0, _⟩ => show win0_2.index t (0 : Fin 2) * 1 + 1 * 0 = 0; omega
  | ⟨1, _⟩ => show win0_2.index t (1 : Fin 2) * 512 + 1 * f.val = f.val; omega

/-- The second weight's block is the whole weight. -/
private theorem wk_block (c : Dev nD) (t : Fin cfg0.N) (f e : Fin 512) :
    ((iblk0 (F := Ideal) V c 3 t : Vec Ideal S512x512 .bf16) (ix2 f e) : EReal)
      = (V c main_v5 : S512x512.Idx → Elt Ideal .bf16) (ix2 f e) := by
  obtain ⟨h0, h1⟩ := idx_wk t
  unfold iblk0
  rw [View.read_apply]
  show V c main_v5 _ = V c main_v5 _
  congr 1
  funext a
  apply Fin.ext
  match a with
  | ⟨0, _⟩ => show win0_3.index t (0 : Fin 2) * 512 + 1 * f.val = f.val; omega
  | ⟨1, _⟩ => show win0_3.index t (1 : Fin 2) * 512 + 1 * e.val = e.val; omega

/-- The second bias's block is the whole bias row. -/
private theorem bk_block (c : Dev nD) (t : Fin cfg0.N) (f : Fin 512) :
    ((iblk0 (F := Ideal) V c 4 t : Vec Ideal S1x512 .f32) (ix2 (0 : Fin 1) f) : EReal)
      = (V c main_v19 : S1x512.Idx → Elt Ideal .f32) (ix2 (0 : Fin 1) f) := by
  obtain ⟨h0, h1⟩ := idx_bk t
  unfold iblk0
  rw [View.read_apply]
  show V c main_v19 _ = V c main_v19 _
  congr 1
  funext a
  apply Fin.ext
  match a with
  | ⟨0, _⟩ => show win0_4.index t (0 : Fin 2) * 1 + 1 * 0 = 0; omega
  | ⟨1, _⟩ => show win0_4.index t (1 : Fin 2) * 512 + 1 * f.val = f.val; omega

/-- The third weight's block is the whole weight. -/
private theorem wv_block (c : Dev nD) (t : Fin cfg0.N) (f e : Fin 512) :
    ((iblk0 (F := Ideal) V c 5 t : Vec Ideal S512x512 .bf16) (ix2 f e) : EReal)
      = (V c main_v8 : S512x512.Idx → Elt Ideal .bf16) (ix2 f e) := by
  obtain ⟨h0, h1⟩ := idx_wv t
  unfold iblk0
  rw [View.read_apply]
  show V c main_v8 _ = V c main_v8 _
  congr 1
  funext a
  apply Fin.ext
  match a with
  | ⟨0, _⟩ => show win0_5.index t (0 : Fin 2) * 512 + 1 * f.val = f.val; omega
  | ⟨1, _⟩ => show win0_5.index t (1 : Fin 2) * 512 + 1 * e.val = e.val; omega

/-- The third bias's block is the whole bias row. -/
private theorem bv_block (c : Dev nD) (t : Fin cfg0.N) (f : Fin 512) :
    ((iblk0 (F := Ideal) V c 6 t : Vec Ideal S1x512 .f32) (ix2 (0 : Fin 1) f) : EReal)
      = (V c main_v20 : S1x512.Idx → Elt Ideal .f32) (ix2 (0 : Fin 1) f) := by
  obtain ⟨h0, h1⟩ := idx_bv t
  unfold iblk0
  rw [View.read_apply]
  show V c main_v20 _ = V c main_v20 _
  congr 1
  funext a
  apply Fin.ext
  match a with
  | ⟨0, _⟩ => show win0_6.index t (0 : Fin 2) * 1 + 1 * 0 = 0; omega
  | ⟨1, _⟩ => show win0_6.index t (1 : Fin 2) * 512 + 1 * f.val = f.val; omega

/-! ## Whole staging buffers are read and written at zero offsets -/

private theorem hz3 : (![0, 0, 0] : Fin 3 → Nat) = fun _ => 0 := funext fun a => by fin_cases a <;> rfl
private theorem hz2 : (![0, 0] : Fin 2 → Nat) = fun _ => 0 := funext fun a => by fin_cases a <;> rfl

/-! ## The first projection -/

/-- What grid point `t` writes back to the first output is block `t` of the projection of the whole token array. -/
private theorem flushed_q (c : Dev nD) (t : Fin cfg0.N) :
    (dat0 (F := Ideal) V c).flushed 7 t = ((cfg0.win 7).blk t).view.read (Elt Ideal)
      (Cert.Spec.proj (V c main_arg0) (V c main_v2) (Cert.Spec.rowOf (V c main_v18))) := by
  show (cfg0.win 7).cut (grid0.coords t) ((dat0 V c).after 7 t) = _
  rw [after0_7]
  unfold out0_7
  rw [View.canon_unit_zero hz3]
  simp only [View.ld_unit_zero (S := S1x1024x512) hz3, View.ld_unit_zero (S := S512x512) hz2,
    View.ld_unit_zero (S := S1x512) hz2]
  rw [pay_q_eq]
  funext j
  obtain ⟨u, s, f, rfl⟩ : ∃ (u : Fin 1) (s : Fin 1024) (f : Fin 512), j = ix3 u s f := ⟨j 0, j 1, j 2, eq_ix3 j⟩
  have hi : ((cfg0.win 7).blk t).view.emb (ix3 u s f) = ix3 (batchOf t) s f := by
    obtain ⟨h0, h1, h2⟩ := idx_q t
    funext a
    apply Fin.ext
    match a with
    | ⟨0, _⟩ => show win0_7.index t (0 : Fin 3) * 1 + 1 * u.val = t.val; omega
    | ⟨1, _⟩ => show win0_7.index t (1 : Fin 3) * 1024 + 1 * s.val = s.val; omega
    | ⟨2, _⟩ => show win0_7.index t (2 : Fin 3) * 512 + 1 * f.val = f.val; omega
  show k0_pay1 (k0_pay3 (iblk0 V c 0 t) (iblk0 V c 1 t) (iblk0 V c 2 t)) (ix3 u s f)
    = Cert.Spec.proj (V c main_arg0) (V c main_v2) (Cert.Spec.rowOf (V c main_v18)) (((cfg0.win 7).blk t).view.emb (ix3 u s f))
  rw [hi]
  exact proj_of_blocks (V c main_arg0) (V c main_v2) (V c main_v18) (iblk0 V c 0 t) (iblk0 V c 1 t) (iblk0 V c 2 t)
    (batchOf t) (tok_block V c t) (wq_block V c t) (bq_block V c t) u s f

/-- An index of the first output is in point `t`'s block iff each coordinate is in the block's range on its axis. -/
private theorem mem_blk_q (t : Fin cfg0.N) (i : S8x1024x512.Idx) :
    i ∈ ((cfg0.win 7).blk t).view.set ↔ ∀ a : Fin 3, win0_7.index t a * S1x1024x512.size a ≤ (i a).val
      ∧ (i a).val < win0_7.index t a * S1x1024x512.size a + S1x1024x512.size a := by
  show i ∈ ((View.whole main_v21_0).slice (win0_7.rect t)).set ↔ _
  rw [View.set_slice_whole, Rect.mem_set_unit]
  exact Iff.rfl

/-- Every index of the first output lies in the block of the grid point that is its batch. -/
private theorem cover_q (i : S8x1024x512.Idx) :
    ∃ t : Fin cfg0.N, (cfg0.win 7).flush t = true ∧ i ∈ ((cfg0.win 7).blk t).view.set := by
  have hi0 : (i 0).val < 8 := (i 0).isLt
  have hi1 : (i 1).val < 1024 := (i 1).isLt
  have hi2 : (i 2).val < 512 := (i 2).isLt
  obtain ⟨t, ht⟩ : ∃ t : Fin cfg0.N, t.val = (i 0).val :=
    ⟨Fin.cast (by decide : 8 = grid0.N) ⟨(i 0).val, hi0⟩, rfl⟩
  obtain ⟨h0, h1, h2⟩ := idx_q t
  refine ⟨t, flush0_7 t, ?_⟩
  rw [mem_blk_q]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 512 ≤ (i 2).val ∧ (i 2).val < win0_7.index t (2 : Fin 3) * 512 + 512; omega

theorem qkv0_q (c : Dev nD) : (dat0 (F := Ideal) V c).arrAt 7 cfg0.N
    = Cert.Spec.proj (V c main_arg0) (V c main_v2) (Cert.Spec.rowOf (V c main_v18)) :=
  (dat0 V c).arrAt_eq_of_cover 7 _ (fun t _ => flushed_q V c t) cover_q

/-! ## The second projection -/

/-- What grid point `t` writes back to the second output is block `t` of the projection of the whole token array. -/
private theorem flushed_k (c : Dev nD) (t : Fin cfg0.N) :
    (dat0 (F := Ideal) V c).flushed 8 t = ((cfg0.win 8).blk t).view.read (Elt Ideal)
      (Cert.Spec.proj (V c main_arg0) (V c main_v5) (Cert.Spec.rowOf (V c main_v19))) := by
  show (cfg0.win 8).cut (grid0.coords t) ((dat0 V c).after 8 t) = _
  rw [after0_8]
  unfold out0_8
  rw [View.canon_unit_zero hz3]
  simp only [View.ld_unit_zero (S := S1x1024x512) hz3, View.ld_unit_zero (S := S512x512) hz2,
    View.ld_unit_zero (S := S1x512) hz2]
  rw [pay_k_eq]
  funext j
  obtain ⟨u, s, f, rfl⟩ : ∃ (u : Fin 1) (s : Fin 1024) (f : Fin 512), j = ix3 u s f := ⟨j 0, j 1, j 2, eq_ix3 j⟩
  have hi : ((cfg0.win 8).blk t).view.emb (ix3 u s f) = ix3 (batchOf t) s f := by
    obtain ⟨h0, h1, h2⟩ := idx_k t
    funext a
    apply Fin.ext
    match a with
    | ⟨0, _⟩ => show win0_8.index t (0 : Fin 3) * 1 + 1 * u.val = t.val; omega
    | ⟨1, _⟩ => show win0_8.index t (1 : Fin 3) * 1024 + 1 * s.val = s.val; omega
    | ⟨2, _⟩ => show win0_8.index t (2 : Fin 3) * 512 + 1 * f.val = f.val; omega
  show k0_pay1 (k0_pay3 (iblk0 V c 0 t) (iblk0 V c 3 t) (iblk0 V c 4 t)) (ix3 u s f)
    = Cert.Spec.proj (V c main_arg0) (V c main_v5) (Cert.Spec.rowOf (V c main_v19)) (((cfg0.win 8).blk t).view.emb (ix3 u s f))
  rw [hi]
  exact proj_of_blocks (V c main_arg0) (V c main_v5) (V c main_v19) (iblk0 V c 0 t) (iblk0 V c 3 t) (iblk0 V c 4 t)
    (batchOf t) (tok_block V c t) (wk_block V c t) (bk_block V c t) u s f

/-- An index of the second output is in point `t`'s block iff each coordinate is in the block's range on its axis. -/
private theorem mem_blk_k (t : Fin cfg0.N) (i : S8x1024x512.Idx) :
    i ∈ ((cfg0.win 8).blk t).view.set ↔ ∀ a : Fin 3, win0_8.index t a * S1x1024x512.size a ≤ (i a).val
      ∧ (i a).val < win0_8.index t a * S1x1024x512.size a + S1x1024x512.size a := by
  show i ∈ ((View.whole main_v21_1).slice (win0_8.rect t)).set ↔ _
  rw [View.set_slice_whole, Rect.mem_set_unit]
  exact Iff.rfl

/-- Every index of the second output lies in the block of the grid point that is its batch. -/
private theorem cover_k (i : S8x1024x512.Idx) :
    ∃ t : Fin cfg0.N, (cfg0.win 8).flush t = true ∧ i ∈ ((cfg0.win 8).blk t).view.set := by
  have hi0 : (i 0).val < 8 := (i 0).isLt
  have hi1 : (i 1).val < 1024 := (i 1).isLt
  have hi2 : (i 2).val < 512 := (i 2).isLt
  obtain ⟨t, ht⟩ : ∃ t : Fin cfg0.N, t.val = (i 0).val :=
    ⟨Fin.cast (by decide : 8 = grid0.N) ⟨(i 0).val, hi0⟩, rfl⟩
  obtain ⟨h0, h1, h2⟩ := idx_k t
  refine ⟨t, flush0_8 t, ?_⟩
  rw [mem_blk_k]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 512 ≤ (i 2).val ∧ (i 2).val < win0_8.index t (2 : Fin 3) * 512 + 512; omega

theorem qkv0_k (c : Dev nD) : (dat0 (F := Ideal) V c).arrAt 8 cfg0.N
    = Cert.Spec.proj (V c main_arg0) (V c main_v5) (Cert.Spec.rowOf (V c main_v19)) :=
  (dat0 V c).arrAt_eq_of_cover 8 _ (fun t _ => flushed_k V c t) cover_k

/-! ## The third projection -/

/-- What grid point `t` writes back to the third output is block `t` of the projection of the whole token array. -/
private theorem flushed_v (c : Dev nD) (t : Fin cfg0.N) :
    (dat0 (F := Ideal) V c).flushed 9 t = ((cfg0.win 9).blk t).view.read (Elt Ideal)
      (Cert.Spec.proj (V c main_arg0) (V c main_v8) (Cert.Spec.rowOf (V c main_v20))) := by
  show (cfg0.win 9).cut (grid0.coords t) ((dat0 V c).after 9 t) = _
  rw [after0_9]
  unfold out0_9
  rw [View.canon_unit_zero hz3]
  simp only [View.ld_unit_zero (S := S1x1024x512) hz3, View.ld_unit_zero (S := S512x512) hz2,
    View.ld_unit_zero (S := S1x512) hz2]
  funext j
  obtain ⟨u, s, f, rfl⟩ : ∃ (u : Fin 1) (s : Fin 1024) (f : Fin 512), j = ix3 u s f := ⟨j 0, j 1, j 2, eq_ix3 j⟩
  have hi : ((cfg0.win 9).blk t).view.emb (ix3 u s f) = ix3 (batchOf t) s f := by
    obtain ⟨h0, h1, h2⟩ := idx_v t
    funext a
    apply Fin.ext
    match a with
    | ⟨0, _⟩ => show win0_9.index t (0 : Fin 3) * 1 + 1 * u.val = t.val; omega
    | ⟨1, _⟩ => show win0_9.index t (1 : Fin 3) * 1024 + 1 * s.val = s.val; omega
    | ⟨2, _⟩ => show win0_9.index t (2 : Fin 3) * 512 + 1 * f.val = f.val; omega
  show k0_pay1 (k0_pay3 (iblk0 V c 0 t) (iblk0 V c 5 t) (iblk0 V c 6 t)) (ix3 u s f)
    = Cert.Spec.proj (V c main_arg0) (V c main_v8) (Cert.Spec.rowOf (V c main_v20)) (((cfg0.win 9).blk t).view.emb (ix3 u s f))
  rw [hi]
  exact proj_of_blocks (V c main_arg0) (V c main_v8) (V c main_v20) (iblk0 V c 0 t) (iblk0 V c 5 t) (iblk0 V c 6 t)
    (batchOf t) (tok_block V c t) (wv_block V c t) (bv_block V c t) u s f

/-- An index of the third output is in point `t`'s block iff each coordinate is in the block's range on its axis. -/
private theorem mem_blk_v (t : Fin cfg0.N) (i : S8x1024x512.Idx) :
    i ∈ ((cfg0.win 9).blk t).view.set ↔ ∀ a : Fin 3, win0_9.index t a * S1x1024x512.size a ≤ (i a).val
      ∧ (i a).val < win0_9.index t a * S1x1024x512.size a + S1x1024x512.size a := by
  show i ∈ ((View.whole main_v21_2).slice (win0_9.rect t)).set ↔ _
  rw [View.set_slice_whole, Rect.mem_set_unit]
  exact Iff.rfl

/-- Every index of the third output lies in the block of the grid point that is its batch. -/
private theorem cover_v (i : S8x1024x512.Idx) :
    ∃ t : Fin cfg0.N, (cfg0.win 9).flush t = true ∧ i ∈ ((cfg0.win 9).blk t).view.set := by
  have hi0 : (i 0).val < 8 := (i 0).isLt
  have hi1 : (i 1).val < 1024 := (i 1).isLt
  have hi2 : (i 2).val < 512 := (i 2).isLt
  obtain ⟨t, ht⟩ : ∃ t : Fin cfg0.N, t.val = (i 0).val :=
    ⟨Fin.cast (by decide : 8 = grid0.N) ⟨(i 0).val, hi0⟩, rfl⟩
  obtain ⟨h0, h1, h2⟩ := idx_v t
  refine ⟨t, flush0_9 t, ?_⟩
  rw [mem_blk_v]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 512 ≤ (i 2).val ∧ (i 2).val < win0_9.index t (2 : Fin 3) * 512 + 512; omega

theorem qkv0_v (c : Dev nD) : (dat0 (F := Ideal) V c).arrAt 9 cfg0.N
    = Cert.Spec.proj (V c main_arg0) (V c main_v8) (Cert.Spec.rowOf (V c main_v20)) :=
  (dat0 V c).arrAt_eq_of_cover 9 _ (fun t _ => flushed_v V c t) cover_v

end Cert.KernelIdeal.RegionValue

end
-- ==== Proof.RegionAttn.lean ====
/-
  The second region of a layer: gated attention, one (batch, head) pair per grid point.  Point (n, h) holds
  the 1024 × 64 slabs of queries, keys and values of that pair and the whole gate; it writes the slab of
  attention outputs.  The 64 slabs tile the output array.
-/
import proofs.«428822_j16243566313770_3_alg».proof.Proof.Gen.KernelIdeal.Frame
import proofs.«428822_j16243566313770_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## Layout operations of the body, read at an index -/

/-- A `[1, 1, a, b]` slab read as an `[a, b]` matrix: entry `(i, j)` is the slab's entry `(0, 0, i, j)`. -/
private theorem slab_as_matrix_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` matrix read as a `[1, 1, a, b]` slab: entry `(u, u', i, j)` is the matrix's entry `(i, j)`. -/
private theorem matrix_as_slab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector of `a` entries stood up as a column `[a, 1]`: entry `(i, u)` is the vector's entry `i`. -/
private theorem vector_as_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along the rows to `[a, b]`: entry `(i, j)` is the column's entry `i`. -/
private theorem column_along_rows_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The two matrix products, read at an index

  Each contracts one axis: the operand indices at a result index and a contraction coordinate, axis by axis. -/

private theorem lhs_qk_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
private theorem lhs_qk_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
private theorem rhs_qk_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
private theorem rhs_qk_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- Queries times transposed keys: entry `(i, j)` sums, over the 64 channels of the head, the products of row `i`
    of the left operand and column `j` of the right. -/
private theorem queries_keys_apply (L : FVec Ideal S1024x64 .bf16) (R : FVec Ideal S64x1024 .bf16) (i j : Fin 1024) :
    matmul dot_S1024x64_S64x1024_S1024x1024_1_0_0_1_n_n none L R (constant (F := Ideal) S1024x1024 .f32 0x00000000#32) (ix2 i j)
      = ∑ d : Fin 64, L (ix2 i d) * R (ix2 d j) := by
  refine (Ideal.matmul_constant_zero_apply dot_S1024x64_S64x1024_S1024x1024_1_0_0_1_n_n none L R (ix2 i j)).trans ?_
  rw [← Equiv.sum_comp (contrEquiv1 dot_S1024x64_S64x1024_S1024x1024_1_0_0_1_n_n 64 rfl rfl).symm]
  refine Finset.sum_congr rfl fun d _ => ?_
  have hd := contrEquiv1_symm_val dot_S1024x64_S64x1024_S1024x1024_1_0_0_1_n_n 64 rfl rfl d
  have el : dot_S1024x64_S64x1024_S1024x1024_1_0_0_1_n_n.lhsIdx (ix2 i j)
      ((contrEquiv1 dot_S1024x64_S64x1024_S1024x1024_1_0_0_1_n_n 64 rfl rfl).symm d) = ix2 i d := funext fun a => Fin.ext (by
    match a with
    | ⟨0, _⟩ => exact lhs_qk_0 _ _
    | ⟨1, _⟩ => exact (lhs_qk_1 _ _).trans hd)
  have er : dot_S1024x64_S64x1024_S1024x1024_1_0_0_1_n_n.rhsIdx (ix2 i j)
      ((contrEquiv1 dot_S1024x64_S64x1024_S1024x1024_1_0_0_1_n_n 64 rfl rfl).symm d) = ix2 d j := funext fun a => Fin.ext (by
    match a with
    | ⟨0, _⟩ => exact (rhs_qk_0 _ _).trans hd
    | ⟨1, _⟩ => exact rhs_qk_1 _ _)
  rw [el, er]

private theorem lhs_pv_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
private theorem lhs_pv_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
private theorem rhs_pv_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
private theorem rhs_pv_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- Weights times values: entry `(i, d)` sums, over the 1024 key positions, the products of row `i` of the weights
    and column `d` of the values. -/
private theorem weights_values_apply (L : FVec Ideal S1024x1024 .bf16) (R : FVec Ideal S1024x64 .bf16) (i : Fin 1024) (d : Fin 64) :
    matmul dot_S1024x1024_S1024x64_S1024x64_1_0_0_1_n_n none L R (constant (F := Ideal) S1024x64 .f32 0x00000000#32) (ix2 i d)
      = ∑ j : Fin 1024, L (ix2 i j) * R (ix2 j d) := by
  refine (Ideal.matmul_constant_zero_apply dot_S1024x1024_S1024x64_S1024x64_1_0_0_1_n_n none L R (ix2 i d)).trans ?_
  rw [← Equiv.sum_comp (contrEquiv1 dot_S1024x1024_S1024x64_S1024x64_1_0_0_1_n_n 1024 rfl rfl).symm]
  refine Finset.sum_congr rfl fun j _ => ?_
  have hj := contrEquiv1_symm_val dot_S1024x1024_S1024x64_S1024x64_1_0_0_1_n_n 1024 rfl rfl j
  have el : dot_S1024x1024_S1024x64_S1024x64_1_0_0_1_n_n.lhsIdx (ix2 i d)
      ((contrEquiv1 dot_S1024x1024_S1024x64_S1024x64_1_0_0_1_n_n 1024 rfl rfl).symm j) = ix2 i j := funext fun a => Fin.ext (by
    match a with
    | ⟨0, _⟩ => exact lhs_pv_0 _ _
    | ⟨1, _⟩ => exact (lhs_pv_1 _ _).trans hj)
  have er : dot_S1024x1024_S1024x64_S1024x64_1_0_0_1_n_n.rhsIdx (ix2 i d)
      ((contrEquiv1 dot_S1024x1024_S1024x64_S1024x64_1_0_0_1_n_n 1024 rfl rfl).symm j) = ix2 j d := funext fun a => Fin.ext (by
    match a with
    | ⟨0, _⟩ => exact (rhs_pv_0 _ _).trans hj
    | ⟨1, _⟩ => exact rhs_pv_1 _ _)
  rw [el, er]

/-! ## The two row reductions, read at a row -/

/-- The row maximum of a square matrix of scores: the fold of `max` over the row, started at the word of −∞. -/
private theorem row_max_apply (s : FVec Ideal S1024x1024 .f32) (hr : S1024x1024.Reduces [1] S1024) (hφ : FKind.Formats .f32)
    (hacc : (0xFF800000#32 : BitVec 32) = FKind.maximumf.neutral .f32 hφ) (i : Fin 1024) :
    multiReduction (F := Ideal) .maximumf [1] S1024 s 0xFF800000#32 hr hφ hacc (ix1 i)
      = (Finset.univ : Finset (Fin 1024)).fold max Spec.negInf (fun j => s (ix2 i j)) := by
  refine (Ideal.multiReduction_maximumf_single s 0xFF800000#32 hr hφ hacc (ix1 i)).trans ?_
  have e : (s ∘ hr.lift (ix1 i)) = fun j : Fin 1024 => s (ix2 i j) :=
    funext fun j => congrArg s (funext fun c => Fin.ext (by match c with | ⟨0, _⟩ => rfl | ⟨1, _⟩ => rfl))
  exact congrArg (fun f => (Finset.univ : Finset (Fin 1024)).fold max Spec.negInf f) e

/-- The row sum of a square matrix: the plain sum over the row. -/
private theorem row_sum_apply (p : FVec Ideal S1024x1024 .f32) (hr : S1024x1024.Reduces [1] S1024) (hφ : FKind.Formats .f32)
    (hacc : (0x00000000#32 : BitVec 32) = FKind.add.neutral .f32 hφ) (i : Fin 1024) :
    multiReduction (F := Ideal) .add [1] S1024 p 0x00000000#32 hr hφ hacc (ix1 i) = ∑ j : Fin 1024, p (ix2 i j) := by
  refine (Ideal.multiReduction_add_single p 0x00000000#32 hr hφ hacc (ix1 i)).trans ?_
  exact Finset.sum_congr rfl fun j _ =>
    congrArg p (funext fun c => Fin.ext (by match c with | ⟨0, _⟩ => rfl | ⟨1, _⟩ => rfl))

/-! ## One head's attention as functions of its score matrix

  Within one (batch, head) pair the layer is a function of a 1024 × 1024 matrix of scores and the pair's values:
  the numerator `exp (score − the row's largest score)`, the weight numerator / row sum, the weighted sum of values. -/

/-- The gated, scaled score of query position `i` against key position `j`, from one pair's slabs and the gate. -/
private def slabScore (Q K : Vec Ideal S1x1x1024x64 .f32) (A : Vec Ideal S1024x1024 .f32) (i j : Fin 1024) : EReal :=
  ((∑ d : Fin 64, Q (ix4 (0 : Fin 1) (0 : Fin 1) i d) * K (ix4 (0 : Fin 1) (0 : Fin 1) j d)) * Spec.eighth) * A (ix2 i j)

/-- The softmax's numerator of a score matrix. -/
private def softNumer (σ : Fin 1024 → Fin 1024 → EReal) (i j : Fin 1024) : EReal :=
  Ideal.exp (σ i j - (Finset.univ : Finset (Fin 1024)).fold max Spec.negInf (σ i))

/-- A matrix's entries over their row sums. -/
private def rowShare (π : Fin 1024 → Fin 1024 → EReal) (i j : Fin 1024) : EReal :=
  Ideal.div (π i j) (∑ j' : Fin 1024, π i j')

/-- The values weighted by a matrix of weights. -/
private def headMix (ω : Fin 1024 → Fin 1024 → EReal) (w : Fin 1024 → Fin 64 → EReal) (i : Fin 1024) (d : Fin 64) : EReal :=
  ∑ j : Fin 1024, ω i j * w j d

/-- The specification's attention at pair `(n, h)` is these functions of the pair's scores and values. -/
private theorem spec_attn_ix (q k v : Spec.Hd.Idx → EReal) (adj : Spec.Gate.Idx → EReal) (n h : Fin 8) (i : Fin 1024) (d : Fin 64) :
    Spec.attn q k v adj (ix4 n h i d)
      = headMix (rowShare (softNumer fun i j => Spec.scoreAt q k adj n h i j)) (fun j d => v (ix4 n h j d)) i d := rfl

/-! ## The body's stages, read at an index -/

/-- Scores: queries times transposed keys, scaled, gated. -/
private theorem score_stage_apply (Q K : Vec Ideal S1x1x1024x64 .f32) (A : Vec Ideal S1024x1024 .f32)
    (h1 : S1x1x1024x64.ShapeCasts S1024x64) (hb : FTy.bits .bf16 < FTy.bits .f32) (ht : S1024x64.Transposes [1, 0] S64x1024)
    (i j : Fin 1024) :
    mulf (mulf (matmul dot_S1024x64_S64x1024_S1024x1024_1_0_0_1_n_n none
        (truncf .bf16 (shapeCast S1024x64 Q h1) hb)
        (transpose S64x1024 [1, 0] (truncf .bf16 (shapeCast S1024x64 K h1) hb) ht)
        (constant (F := Ideal) S1024x1024 .f32 0x00000000#32))
      (broadcast S1024x1024 (Scalar.ofBits (F := Ideal) .f32 0x3E000000#32))) A (ix2 i j) = slabScore Q K A i j := by
  unfold slabScore
  refine congrArg (· * A (ix2 i j)) (congrArg (· * Spec.eighth) ?_)
  refine (queries_keys_apply _ _ i j).trans (Finset.sum_congr rfl fun d _ => ?_)
  refine congrArg₂ (· * ·) (slab_as_matrix_apply Q h1 i d) ?_
  exact (transpose_ix2_apply _ ht d j).trans (slab_as_matrix_apply K h1 j d)

/-- Numerators: `exp` of the scores less their row's largest, the largest stood up as a column and repeated along the row. -/
private theorem numer_stage_apply (s : FVec Ideal S1024x1024 .f32) (σ : Fin 1024 → Fin 1024 → EReal)
    (hs : ∀ i j, s (ix2 i j) = σ i j)
    (hr : S1024x1024.Reduces [1] S1024) (hφ : FKind.Formats .f32) (hacc : (0xFF800000#32 : BitVec 32) = FKind.maximumf.neutral .f32 hφ)
    (hc : S1024.ShapeCasts S1024x1) (hbr : S1024x1.Broadcasts S1024x1024) (i j : Fin 1024) :
    exp (subf s (broadcastTo S1024x1024 (shapeCast S1024x1
        (multiReduction (F := Ideal) .maximumf [1] S1024 s 0xFF800000#32 hr hφ hacc) hc) hbr)) (ix2 i j) = softNumer σ i j := by
  unfold softNumer
  refine congrArg Ideal.exp (congrArg₂ (· - ·) (hs i j) ?_)
  refine (column_along_rows_apply _ hbr i j).trans ((vector_as_column_apply _ hc i 0).trans ((row_max_apply s hr hφ hacc i).trans ?_))
  exact congrArg (fun f => (Finset.univ : Finset (Fin 1024)).fold max Spec.negInf f) (funext fun j' => hs i j')

/-- Weights: the numerators over their row sums, the sums stood up as a column and repeated along the row. -/
private theorem share_stage_apply (p : FVec Ideal S1024x1024 .f32) (π : Fin 1024 → Fin 1024 → EReal)
    (hp : ∀ i j, p (ix2 i j) = π i j)
    (hr : S1024x1024.Reduces [1] S1024) (hφ : FKind.Formats .f32) (hacc : (0x00000000#32 : BitVec 32) = FKind.add.neutral .f32 hφ)
    (hc : S1024.ShapeCasts S1024x1) (hbr : S1024x1.Broadcasts S1024x1024) (i j : Fin 1024) :
    divf p (broadcastTo S1024x1024 (shapeCast S1024x1
        (multiReduction (F := Ideal) .add [1] S1024 p 0x00000000#32 hr hφ hacc) hc) hbr) (ix2 i j) = rowShare π i j := by
  unfold rowShare
  refine congrArg₂ Ideal.div (hp i j) ?_
  refine (column_along_rows_apply _ hbr i j).trans ((vector_as_column_apply _ hc i 0).trans ((row_sum_apply p hr hφ hacc i).trans ?_))
  exact Finset.sum_congr rfl fun j' _ => hp i j'

/-- Outputs: weights times values, as a slab. -/
private theorem mix_stage_apply (P : FVec Ideal S1024x1024 .f32) (ω : Fin 1024 → Fin 1024 → EReal)
    (hP : ∀ i j, P (ix2 i j) = ω i j) (W : Vec Ideal S1x1x1024x64 .f32)
    (h1 : S1x1x1024x64.ShapeCasts S1024x64) (hb : FTy.bits .bf16 < FTy.bits .f32) (h2 : S1024x64.ShapeCasts S1x1x1024x64)
    (a b : Fin 1) (i : Fin 1024) (d : Fin 64) :
    shapeCast S1x1x1024x64 (matmul dot_S1024x1024_S1024x64_S1024x64_1_0_0_1_n_n none
        (truncf .bf16 P hb) (truncf .bf16 (shapeCast S1024x64 W h1) hb)
        (constant (F := Ideal) S1024x64 .f32 0x00000000#32)) h2 (ix4 a b i d)
      = headMix ω (fun j d => W (ix4 (0 : Fin 1) (0 : Fin 1) j d)) i d := by
  unfold headMix
  refine (matrix_as_slab_apply _ h2 a b i d).trans ((weights_values_apply _ _ i d).trans (Finset.sum_congr rfl fun j _ => ?_))
  exact congrArg₂ (· * ·) (hP i j) (slab_as_matrix_apply W h1 j d)

/-- THE BODY'S PAYLOAD at an index: one head's attention of the pair's slabs and the gate. -/
private theorem payload_apply (Q K W : Vec Ideal S1x1x1024x64 .f32) (A : Vec Ideal S1024x1024 .f32)
    (a b : Fin 1) (i : Fin 1024) (d : Fin 64) :
    k1_pay1 Q K W A (ix4 a b i d)
      = headMix (rowShare (softNumer (slabScore Q K A))) (fun j d => W (ix4 (0 : Fin 1) (0 : Fin 1) j d)) i d := by
  unfold k1_pay1
  exact mix_stage_apply _ _ (share_stage_apply _ _ (numer_stage_apply _ _ (score_stage_apply Q K A _ _ _) _ _ _ _ _) _ _ _ _ _) W _ _ _ a b i d

-- the buffer contents the region is entered with: every statement below holds for any such contents
variable (V : (c : Dev nD) → (b : Ref sig .tc) → Buf (Elt Ideal) ((c : Thread nD τ).loc b))

/-! ## From the slabs to the array

  Point `t` of the 8 × 8 grid is a (batch, head) pair `(n, h)`: its query, key, value and output slabs are the
  pair's `[1, 1, 1024, 64]` blocks of their arrays, the gate's block is the whole gate. -/

private theorem zeros4 : (![0, 0, 0, 0] : Fin 4 → Nat) = fun _ => 0 := funext fun a => by fin_cases a <;> rfl
private theorem zeros2 : (![0, 0] : Fin 2 → Nat) = fun _ => 0 := funext fun a => by fin_cases a <;> rfl

/-- The printed index maps, decided over the grid: the output's block index is a pair `(n, h, 0, 0)` with `n, h < 8`;
    the queries', keys' and values' block indices are the output's; the gate's is `(0, 0)`. -/
private theorem index_facts : ∀ t : Fin cfg1.N,
    win1_4.index t (0 : Fin 4) < 8 ∧ win1_4.index t (1 : Fin 4) < 8
    ∧ win1_4.index t (2 : Fin 4) = 0 ∧ win1_4.index t (3 : Fin 4) = 0
    ∧ win1_0.index t (0 : Fin 4) = win1_4.index t (0 : Fin 4) ∧ win1_0.index t (1 : Fin 4) = win1_4.index t (1 : Fin 4)
    ∧ win1_0.index t (2 : Fin 4) = 0 ∧ win1_0.index t (3 : Fin 4) = 0
    ∧ win1_1.index t (0 : Fin 4) = win1_4.index t (0 : Fin 4) ∧ win1_1.index t (1 : Fin 4) = win1_4.index t (1 : Fin 4)
    ∧ win1_1.index t (2 : Fin 4) = 0 ∧ win1_1.index t (3 : Fin 4) = 0
    ∧ win1_2.index t (0 : Fin 4) = win1_4.index t (0 : Fin 4) ∧ win1_2.index t (1 : Fin 4) = win1_4.index t (1 : Fin 4)
    ∧ win1_2.index t (2 : Fin 4) = 0 ∧ win1_2.index t (3 : Fin 4) = 0
    ∧ win1_3.index t (0 : Fin 2) = 0 ∧ win1_3.index t (1 : Fin 2) = 0 :=
  (by decide +kernel : ∀ t : Fin grid1.N, _)

/-- Every (batch, head) pair is some point's. -/
private theorem index_onto : ∀ (n h : Fin 8), ∃ t : Fin cfg1.N, win1_4.index t = ![n.val, h.val, 0, 0] :=
  (by decide +kernel : ∀ (n h : Fin 8), ∃ t : Fin grid1.N, win1_4.index t = ![n.val, h.val, 0, 0])

/-- The queries' slab at the point of pair `(n, h)` is the pair's slab of the queries' array. -/
private theorem queries_slab_apply (c : Dev nD) (t : Fin cfg1.N) (n h : Fin 8)
    (hn : win1_4.index t (0 : Fin 4) = n.val) (hh : win1_4.index t (1 : Fin 4) = h.val) (i : Fin 1024) (d : Fin 64) :
    iblk1 V c 0 t (ix4 (0 : Fin 1) (0 : Fin 1) i d) = V c main_v23 (ix4 n h i d) := by
  obtain ⟨-, -, -, -, q0, q1, q2, q3, -⟩ := index_facts t
  show V c (Pipeline.arrRef spec1 0) (((cfg1.win 0).blk t).view.emb (ix4 (0 : Fin 1) (0 : Fin 1) i d)) = _
  refine congrArg (V c main_v23) (funext fun ax => Fin.ext ?_)
  match ax with
  | ⟨0, _⟩ => show win1_0.index t (0 : Fin 4) * 1 + 1 * 0 = n.val; omega
  | ⟨1, _⟩ => show win1_0.index t (1 : Fin 4) * 1 + 1 * 0 = h.val; omega
  | ⟨2, _⟩ => show win1_0.index t (2 : Fin 4) * 1024 + 1 * i.val = i.val; omega
  | ⟨3, _⟩ => show win1_0.index t (3 : Fin 4) * 64 + 1 * d.val = d.val; omega

/-- The keys' slab at the point of pair `(n, h)` is the pair's slab of the keys' array. -/
private theorem keys_slab_apply (c : Dev nD) (t : Fin cfg1.N) (n h : Fin 8)
    (hn : win1_4.index t (0 : Fin 4) = n.val) (hh : win1_4.index t (1 : Fin 4) = h.val) (j : Fin 1024) (d : Fin 64) :
    iblk1 V c 1 t (ix4 (0 : Fin 1) (0 : Fin 1) j d) = V c main_v25 (ix4 n h j d) := by
  obtain ⟨-, -, -, -, -, -, -, -, k0, k1, k2, k3, -⟩ := index_facts t
  show V c (Pipeline.arrRef spec1 1) (((cfg1.win 1).blk t).view.emb (ix4 (0 : Fin 1) (0 : Fin 1) j d)) = _
  refine congrArg (V c main_v25) (funext fun ax => Fin.ext ?_)
  match ax with
  | ⟨0, _⟩ => show win1_1.index t (0 : Fin 4) * 1 + 1 * 0 = n.val; omega
  | ⟨1, _⟩ => show win1_1.index t (1 : Fin 4) * 1 + 1 * 0 = h.val; omega
  | ⟨2, _⟩ => show win1_1.index t (2 : Fin 4) * 1024 + 1 * j.val = j.val; omega
  | ⟨3, _⟩ => show win1_1.index t (3 : Fin 4) * 64 + 1 * d.val = d.val; omega

/-- The values' slab at the point of pair `(n, h)` is the pair's slab of the values' array. -/
private theorem values_slab_apply (c : Dev nD) (t : Fin cfg1.N) (n h : Fin 8)
    (hn : win1_4.index t (0 : Fin 4) = n.val) (hh : win1_4.index t (1 : Fin 4) = h.val) (j : Fin 1024) (d : Fin 64) :
    iblk1 V c 2 t (ix4 (0 : Fin 1) (0 : Fin 1) j d) = V c main_v27 (ix4 n h j d) := by
  obtain ⟨-, -, -, -, -, -, -, -, -, -, -, -, v0, v1, v2, v3, -⟩ := index_facts t
  show V c (Pipeline.arrRef spec1 2) (((cfg1.win 2).blk t).view.emb (ix4 (0 : Fin 1) (0 : Fin 1) j d)) = _
  refine congrArg (V c main_v27) (funext fun ax => Fin.ext ?_)
  match ax with
  | ⟨0, _⟩ => show win1_2.index t (0 : Fin 4) * 1 + 1 * 0 = n.val; omega
  | ⟨1, _⟩ => show win1_2.index t (1 : Fin 4) * 1 + 1 * 0 = h.val; omega
  | ⟨2, _⟩ => show win1_2.index t (2 : Fin 4) * 1024 + 1 * j.val = j.val; omega
  | ⟨3, _⟩ => show win1_2.index t (3 : Fin 4) * 64 + 1 * d.val = d.val; omega

/-- The gate's block at every point is the whole gate. -/
private theorem gate_block_apply (c : Dev nD) (t : Fin cfg1.N) (i j : Fin 1024) :
    iblk1 V c 3 t (ix2 i j) = V c main_arg1 (ix2 i j) := by
  obtain ⟨-, -, -, -, -, -, -, -, -, -, -, -, -, -, -, -, g0, g1⟩ := index_facts t
  show V c (Pipeline.arrRef spec1 3) (((cfg1.win 3).blk t).view.emb (ix2 i j)) = _
  refine congrArg (V c main_arg1) (funext fun ax => Fin.ext ?_)
  match ax with
  | ⟨0, _⟩ => show win1_3.index t (0 : Fin 2) * 1024 + 1 * i.val = i.val; omega
  | ⟨1, _⟩ => show win1_3.index t (1 : Fin 2) * 1024 + 1 * j.val = j.val; omega

/-- Entry `(a, b, i, d)` of the output's slab at the point of pair `(n, h)` sits at `(n, h, i, d)` in the output array. -/
private theorem output_slab_emb (t : Fin cfg1.N) (n h : Fin 8)
    (hn : win1_4.index t (0 : Fin 4) = n.val) (hh : win1_4.index t (1 : Fin 4) = h.val)
    (a b : Fin 1) (i : Fin 1024) (d : Fin 64) :
    (((cfg1.win 4).blk t).view.emb (ix4 a b i d) : S8x8x1024x64.Idx) = ix4 n h i d := by
  obtain ⟨-, -, e2, e3, -⟩ := index_facts t
  funext ax; apply Fin.ext
  match ax with
  | ⟨0, _⟩ => show win1_4.index t (0 : Fin 4) * 1 + 1 * a.val = n.val; have := a.isLt; omega
  | ⟨1, _⟩ => show win1_4.index t (1 : Fin 4) * 1 + 1 * b.val = h.val; have := b.isLt; omega
  | ⟨2, _⟩ => show win1_4.index t (2 : Fin 4) * 1024 + 1 * i.val = i.val; omega
  | ⟨3, _⟩ => show win1_4.index t (3 : Fin 4) * 64 + 1 * d.val = d.val; omega

/-- One pair's scores from the slabs at its point are the specification's scores of the pair. -/
private theorem slab_scores_eq (c : Dev nD) (t : Fin cfg1.N) (n h : Fin 8)
    (hn : win1_4.index t (0 : Fin 4) = n.val) (hh : win1_4.index t (1 : Fin 4) = h.val) :
    slabScore (iblk1 V c 0 t) (iblk1 V c 1 t) (iblk1 V c 3 t)
      = fun i j => Cert.Spec.scoreAt (V c main_v23) (V c main_v25) (V c main_arg1) n h i j := by
  funext i j
  unfold slabScore Cert.Spec.scoreAt
  refine congrArg₂ (· * ·) (congrArg (· * Cert.Spec.eighth) (Finset.sum_congr rfl fun d _ => congrArg₂ (· * ·) ?_ ?_)) ?_
  · exact queries_slab_apply V c t n h hn hh i d
  · exact keys_slab_apply V c t n h hn hh j d
  · exact gate_block_apply V c t i j

/-- WHAT POINT `t` WRITES BACK is block `t` of the specification's attention of the arrays as the region finds them. -/
private theorem flushed_eq (c : Dev nD) (t : Fin cfg1.N) :
    (dat1 (F := Ideal) V c).flushed 4 t
      = ((cfg1.win 4).blk t).view.read (Elt Ideal)
          (Cert.Spec.attn (V c main_v23) (V c main_v25) (V c main_v27) (V c main_arg1)) := by
  show (cfg1.win 4).cut (grid1.coords t) ((dat1 (F := Ideal) V c).after 4 t) = _
  rw [after1_4]
  unfold out1_4
  rw [View.canon_unit_zero zeros4]
  simp only [View.ld_unit_zero (S := S1x1x1024x64) zeros4, View.ld_unit_zero (S := S1024x1024) zeros2]
  obtain ⟨b0, b1, -⟩ := index_facts t
  refine funext fun (y : S1x1x1024x64.Idx) => ?_
  obtain ⟨a, b, i, d, rfl⟩ : ∃ (a b : Fin 1) (i : Fin 1024) (d : Fin 64), y = ix4 a b i d := ⟨y 0, y 1, y 2, y 3, eq_ix4 y⟩
  show k1_pay1 (iblk1 V c 0 t) (iblk1 V c 1 t) (iblk1 V c 2 t) (iblk1 V c 3 t) (ix4 a b i d)
    = Cert.Spec.attn (V c main_v23) (V c main_v25) (V c main_v27) (V c main_arg1) (((cfg1.win 4).blk t).view.emb (ix4 a b i d))
  refine (payload_apply _ _ _ _ a b i d).trans ?_
  rw [output_slab_emb t ⟨win1_4.index t (0 : Fin 4), b0⟩ ⟨win1_4.index t (1 : Fin 4), b1⟩ rfl rfl a b i d, spec_attn_ix]
  exact congrArg₂ (fun σ w => headMix (rowShare (softNumer σ)) w i d)
    (slab_scores_eq V c t ⟨win1_4.index t (0 : Fin 4), b0⟩ ⟨win1_4.index t (1 : Fin 4), b1⟩ rfl rfl)
    (funext fun j => funext fun d' => values_slab_apply V c t ⟨win1_4.index t (0 : Fin 4), b0⟩ ⟨win1_4.index t (1 : Fin 4), b1⟩ rfl rfl j d')

/-- An index of the output array is in point `t`'s block iff each coordinate is in the block's range on its axis. -/
private theorem mem_slab (t : Fin cfg1.N) (x : S8x8x1024x64.Idx) :
    x ∈ ((cfg1.win 4).blk t).view.set ↔ ∀ a : Fin 4, win1_4.index t a * S1x1x1024x64.size a ≤ (x a).val
      ∧ (x a).val < win1_4.index t a * S1x1x1024x64.size a + S1x1x1024x64.size a := by
  show x ∈ ((View.whole main_v28).slice (win1_4.rect t)).set ↔ _
  rw [View.set_slice_whole, Rect.mem_set_unit]
  exact Iff.rfl

/-- The 64 slabs tile the output array: index `(n, h, i, d)` is in the block of the point whose pair is `(n, h)`. -/
private theorem slabs_cover (x : S8x8x1024x64.Idx) :
    ∃ t : Fin cfg1.N, (cfg1.win 4).flush t = true ∧ x ∈ ((cfg1.win 4).blk t).view.set := by
  have hx0 : (x 0).val < 8 := (x 0).isLt
  have hx1 : (x 1).val < 8 := (x 1).isLt
  have hx2 : (x 2).val < 1024 := (x 2).isLt
  have hx3 : (x 3).val < 64 := (x 3).isLt
  obtain ⟨t, ht⟩ := index_onto ⟨(x 0).val, hx0⟩ ⟨(x 1).val, hx1⟩
  have p0 : win1_4.index t (0 : Fin 4) = (x 0).val := congrFun ht 0
  have p1 : win1_4.index t (1 : Fin 4) = (x 1).val := congrFun ht 1
  have p2 : win1_4.index t (2 : Fin 4) = 0 := congrFun ht 2
  have p3 : win1_4.index t (3 : Fin 4) = 0 := congrFun ht 3
  refine ⟨t, flush1_4 t, ?_⟩
  rw [mem_slab]
  intro a
  match a with
  | ⟨0, _⟩ => show win1_4.index t (0 : Fin 4) * 1 ≤ (x 0).val ∧ (x 0).val < win1_4.index t (0 : Fin 4) * 1 + 1; omega
  | ⟨1, _⟩ => show win1_4.index t (1 : Fin 4) * 1 ≤ (x 1).val ∧ (x 1).val < win1_4.index t (1 : Fin 4) * 1 + 1; omega
  | ⟨2, _⟩ => show win1_4.index t (2 : Fin 4) * 1024 ≤ (x 2).val ∧ (x 2).val < win1_4.index t (2 : Fin 4) * 1024 + 1024; omega
  | ⟨3, _⟩ => show win1_4.index t (3 : Fin 4) * 64 ≤ (x 3).val ∧ (x 3).val < win1_4.index t (3 : Fin 4) * 64 + 64; omega

/-- THE OUTPUT ARRAY after the region's run is the specification's attention of the region's input arrays. -/
theorem attn1 (c : Dev nD) : (dat1 (F := Ideal) V c).arrAt 4 cfg1.N
    = Cert.Spec.attn (V c main_v23) (V c main_v25) (V c main_v27) (V c main_arg1) :=
  (dat1 (F := Ideal) V c).arrAt_eq_of_cover 4 _ (fun t _ => flushed_eq V c t) slabs_cover

end Cert.KernelIdeal.RegionValue

end
-- ==== Proof.RegionNorm.lean ====
/-
  The third region of a layer: output projection, residual and normalisation over the channels, one batch
  per grid point.  Point `n` holds batch `n`'s slabs of merged attention outputs and of tokens, the whole
  output weight and the three per-channel rows; it writes the normalised slab.  The eight slabs tile the
  output array.
-/
import proofs.«428822_j16243566313770_3_alg».proof.Proof.Gen.KernelIdeal.Frame
import proofs.«428822_j16243566313770_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the buffer contents the region is entered with: every statement below holds for any such contents
variable (V : (c : Dev nD) → (b : Ref sig .tc) → Buf (Elt Ideal) ((c : Thread nD τ).loc b))

/-! ## Layout forms for a per-row scalar kept as a one-wide column -/

/-- A vector `[a]` cast to a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic in layers

  The body forms the residual slab `r = x + (a·woᵀ + bo)`, then per row its mean, its centred values, the mean of
  their squares, and the scaled and shifted result.  Each layer is named here as the body writes it, so that it can be
  read at an index on its own. -/

/-- The residual slab: tokens plus the projected attention outputs plus the bias row. -/
private def resid (a x : FVec Ideal S1x1024x512 .f32) (wo : FVec Ideal S512x512 .bf16) (bo : FVec Ideal S1x512 .f32) :
    FVec Ideal S1024x512 .f32 :=
  addf (shapeCast S1024x512 x shapeCasts_S1x1024x512_S1024x512)
    (addf
      (matmul dot_S1024x512_S512x512_S1024x512_1_0_0_1_n_n none
        (truncf .bf16 (shapeCast S1024x512 a shapeCasts_S1x1024x512_S1024x512) bitsLt_bf16_f32)
        (transpose S512x512 [1, 0] (shapeCast S512x512 wo shapeCasts_S512x512_S512x512) transposes_S512x512_p1_0_S512x512)
        (constant S1024x512 .f32 0x00000000#32))
      (broadcastTo S1024x512 (shapeCast S1x512 bo shapeCasts_S1x512_S1x512) broadcasts_S1x512_S1024x512))

/-- The lane sum of each row divided by the channel count, kept as a column. -/
private def meanCol (v : FVec Ideal S1024x512 .f32) : FVec Ideal S1024x1 .f32 :=
  divf (shapeCast S1024x1 (multiReduction .add [1] S1024 v 0x00000000#32 reduces_S1024x512_S1024 (.inl rfl) rfl) shapeCasts_S1024_S1024x1)
    (broadcast S1024x1 (Scalar.ofBits .f32 0x44000000#32))

/-- Each entry minus its row's mean. -/
private def centred (v : FVec Ideal S1024x512 .f32) : FVec Ideal S1024x512 .f32 :=
  subf v (broadcastTo S1024x512 (meanCol v) broadcasts_S1024x1_S1024x512)

/-- The centred values times the reciprocal root of (their mean square plus the offset). -/
private def unitRow (v : FVec Ideal S1024x512 .f32) : FVec Ideal S1024x512 .f32 :=
  mulf (centred v)
    (broadcastTo S1024x512
      (rsqrt (addf (meanCol (mulf (centred v) (centred v))) (broadcast S1024x1 (Scalar.ofBits .f32 0x3727C5AC#32))))
      broadcasts_S1024x1_S1024x512)

/-- A per-channel row laid over every row of the slab. -/
private def overRows (b : FVec Ideal S1x512 .f32) : FVec Ideal S1024x512 .f32 :=
  broadcastTo S1024x512 (shapeCast S1x512 b shapeCasts_S1x512_S1x512) broadcasts_S1x512_S1024x512

/-- The body's stored value is the normalised residual, scaled and shifted per channel, as a one-batch slab. -/
private theorem pay_layers (x0 x1 : FVec Ideal S1x1024x512 .f32) (x2 : FVec Ideal S512x512 .bf16) (x3 x4 x5 : FVec Ideal S1x512 .f32) :
    k2_pay1 (k2_pay2 x0 x2 x3 x1 x4) (k2_pay3 x5)
      = shapeCast S1x1024x512 (addf (mulf (unitRow (resid x0 x1 x2 x3)) (overRows x4)) (overRows x5)) shapeCasts_S1024x512_S1x1024x512 := rfl

/-! ## The projection's product at an index -/

/-- On the product's row axis the left operand reads the output's row. -/
private theorem lhs_row (j : S1024x512.Idx) (k : dot_S1024x512_S512x512_S1024x512_1_0_0_1_n_n.contr.Idx) :
    (dot_S1024x512_S512x512_S1024x512_1_0_0_1_n_n.lhsIdx j k (0 : Fin 2)).val = (j 0).val := by
  simp [DotDims.lhsIdx, dot_S1024x512_S512x512_S1024x512_1_0_0_1_n_n]; rfl

/-- On its lane axis the left operand reads the contracted coordinate. -/
private theorem lhs_lane (j : S1024x512.Idx) (k : dot_S1024x512_S512x512_S1024x512_1_0_0_1_n_n.contr.Idx) :
    (dot_S1024x512_S512x512_S1024x512_1_0_0_1_n_n.lhsIdx j k (1 : Fin 2)).val = (k ⟨0, by decide⟩).val :=
  DotDims.lhsIdx_val_of_single (d := dot_S1024x512_S512x512_S1024x512_1_0_0_1_n_n) (cl := (1 : Fin 2)) rfl j k

/-- On its row axis the right operand reads the contracted coordinate. -/
private theorem rhs_row (j : S1024x512.Idx) (k : dot_S1024x512_S512x512_S1024x512_1_0_0_1_n_n.contr.Idx) :
    (dot_S1024x512_S512x512_S1024x512_1_0_0_1_n_n.rhsIdx j k (0 : Fin 2)).val = (k ⟨0, by decide⟩).val :=
  DotDims.rhsIdx_val_of_single (d := dot_S1024x512_S512x512_S1024x512_1_0_0_1_n_n) (cr := (0 : Fin 2)) rfl j k

/-- On its lane axis the right operand reads the output's lane. -/
private theorem rhs_lane (j : S1024x512.Idx) (k : dot_S1024x512_S512x512_S1024x512_1_0_0_1_n_n.contr.Idx) :
    (dot_S1024x512_S512x512_S1024x512_1_0_0_1_n_n.rhsIdx j k (1 : Fin 2)).val = (j 1).val := by
  simp [DotDims.rhsIdx, dot_S1024x512_S512x512_S1024x512_1_0_0_1_n_n]; rfl

/-- A rows-by-channels product into the zero slab, at `(s, f)`: the sum over the contracted channel. -/
private theorem product_apply (A : FVec Ideal S1024x512 .bf16) (B : FVec Ideal S512x512 .bf16) (s : Fin 1024) (f : Fin 512) :
    matmul dot_S1024x512_S512x512_S1024x512_1_0_0_1_n_n none A B (constant (F := Ideal) S1024x512 .f32 0x00000000#32) (ix2 s f)
      = ∑ e : Fin 512, A (ix2 s e) * B (ix2 e f) := by
  show FloatOps.matmul dot_S1024x512_S512x512_S1024x512_1_0_0_1_n_n none A B (constant (F := Ideal) S1024x512 .f32 0x00000000#32) (ix2 s f) = _
  rw [Ideal.matmul_constant_zero_apply,
    ← Equiv.sum_comp (contrEquiv1 dot_S1024x512_S512x512_S1024x512_1_0_0_1_n_n 512 rfl rfl).symm]
  refine Finset.sum_congr rfl fun e _ => ?_
  have ce := contrEquiv1_symm_val dot_S1024x512_S512x512_S1024x512_1_0_0_1_n_n 512 rfl rfl e
  have hl : dot_S1024x512_S512x512_S1024x512_1_0_0_1_n_n.lhsIdx (ix2 s f)
      ((contrEquiv1 dot_S1024x512_S512x512_S1024x512_1_0_0_1_n_n 512 rfl rfl).symm e) = ix2 s e := by
    funext ax; apply Fin.ext
    match ax with
    | ⟨0, _⟩ => exact lhs_row _ _
    | ⟨1, _⟩ => exact (lhs_lane _ _).trans ce
  have hr : dot_S1024x512_S512x512_S1024x512_1_0_0_1_n_n.rhsIdx (ix2 s f)
      ((contrEquiv1 dot_S1024x512_S512x512_S1024x512_1_0_0_1_n_n 512 rfl rfl).symm e) = ix2 e f := by
    funext ax; apply Fin.ext
    match ax with
    | ⟨0, _⟩ => exact (rhs_row _ _).trans ce
    | ⟨1, _⟩ => exact rhs_lane _ _
  rw [hl, hr]

/-! ## A row's lane sum at an index -/

private theorem laneSum_apply (v : FVec Ideal S1024x512 .f32) (s : Fin 1024) :
    multiReduction (F := Ideal) .add [1] S1024 v 0x00000000#32 reduces_S1024x512_S1024 (.inl rfl) rfl (ix1 s)
      = ∑ f : Fin 512, v (ix2 s f) := by
  refine (Ideal.multiReduction_add_single v 0x00000000#32 reduces_S1024x512_S1024 (.inl rfl) rfl (ix1 s)).trans ?_
  show ∑ k : Fin 512, v (reduces_S1024x512_S1024.lift (ix1 s) k) = _
  exact Finset.sum_congr rfl fun k _ => congrArg v (funext fun a => Fin.ext (by
    match a with
    | ⟨0, _⟩ => rfl
    | ⟨1, _⟩ => rfl))

/-! ## The layers at an index -/

/-- The residual at `(s, f)`: the token entry plus the projection there plus the bias of channel `f`. -/
private theorem resid_apply (a x : FVec Ideal S1x1024x512 .f32) (wo : FVec Ideal S512x512 .bf16) (bo : FVec Ideal S1x512 .f32)
    (s : Fin 1024) (f : Fin 512) :
    resid a x wo bo (ix2 s f)
      = x (ix3 (0 : Fin 1) s f) + ((∑ e : Fin 512, a (ix3 (0 : Fin 1) s e) * wo (ix2 f e)) + bo (ix2 (0 : Fin 1) f)) := by
  unfold resid
  refine congrArg₂ (· + ·) (shapeCast_1ab_ab_apply x _ s f) (congrArg₂ (· + ·) ?_ ?_)
  · refine (product_apply _ _ s f).trans (Finset.sum_congr rfl fun e _ => congrArg₂ (· * ·) ?_ ?_)
    · exact shapeCast_1ab_ab_apply a _ s e
    · exact (transpose_ix2_apply _ _ e f).trans (congrFun (shapeCast_self wo _) (ix2 f e))
  · exact (broadcastTo_1b_ab_apply _ _ s f).trans (congrFun (shapeCast_self bo _) (ix2 (0 : Fin 1) f))

/-- A row's mean, wherever the column is read. -/
private theorem meanCol_apply (v : FVec Ideal S1024x512 .f32) (s : Fin 1024) (u : Fin 1) :
    meanCol v (ix2 s u) = Ideal.div (∑ f : Fin 512, v (ix2 s f)) Cert.Spec.width := by
  unfold meanCol
  exact congrArg (fun z => Ideal.div z Cert.Spec.width) ((shapeCast_a_a1_apply _ _ s u).trans (laneSum_apply v s))

/-- An entry minus its row's mean. -/
private theorem centred_apply (v : FVec Ideal S1024x512 .f32) (s : Fin 1024) (f : Fin 512) :
    centred v (ix2 s f) = v (ix2 s f) - Ideal.div (∑ f' : Fin 512, v (ix2 s f')) Cert.Spec.width := by
  unfold centred
  exact congrArg (v (ix2 s f) - ·) ((broadcastTo_a1_ab_apply _ _ s f).trans (meanCol_apply v s 0))

/-- The centred entry times the reciprocal root of its row's mean square plus the offset. -/
private theorem unitRow_apply (v : FVec Ideal S1024x512 .f32) (s : Fin 1024) (f : Fin 512) :
    unitRow v (ix2 s f)
      = (v (ix2 s f) - Ideal.div (∑ f' : Fin 512, v (ix2 s f')) Cert.Spec.width)
        * Ideal.rsqrt (Ideal.div (∑ f' : Fin 512,
            (v (ix2 s f') - Ideal.div (∑ f'' : Fin 512, v (ix2 s f'')) Cert.Spec.width)
              * (v (ix2 s f') - Ideal.div (∑ f'' : Fin 512, v (ix2 s f'')) Cert.Spec.width)) Cert.Spec.width
          + Cert.Spec.eps) := by
  unfold unitRow
  refine congrArg₂ (· * ·) (centred_apply v s f) ((broadcastTo_a1_ab_apply _ _ s f).trans ?_)
  refine congrArg (fun z => Ideal.rsqrt (z + Cert.Spec.eps)) ((meanCol_apply _ s 0).trans ?_)
  refine congrArg (fun z => Ideal.div z Cert.Spec.width) (Finset.sum_congr rfl fun f' _ => ?_)
  exact congrArg₂ (· * ·) (centred_apply v s f') (centred_apply v s f')

/-- A per-channel row laid over the slab reads channel `f` on every row. -/
private theorem overRows_apply (b : FVec Ideal S1x512 .f32) (s : Fin 1024) (f : Fin 512) :
    overRows b (ix2 s f) = b (ix2 (0 : Fin 1) f) := by
  unfold overRows
  exact (broadcastTo_1b_ab_apply _ _ s f).trans (congrFun (shapeCast_self b _) (ix2 (0 : Fin 1) f))

/-! ## One row normalised -/

/-- A row `R` of 512 residuals normalised over its channels, scaled by `G` and shifted by `BE`, at channel `f`. -/
private def rowNorm (R G BE : Fin 512 → EReal) (f : Fin 512) : EReal :=
  ((R f - Ideal.div (∑ f' : Fin 512, R f') Cert.Spec.width)
      * Ideal.rsqrt (Ideal.div (∑ f' : Fin 512,
          (R f' - Ideal.div (∑ f'' : Fin 512, R f'') Cert.Spec.width)
            * (R f' - Ideal.div (∑ f'' : Fin 512, R f'') Cert.Spec.width)) Cert.Spec.width
        + Cert.Spec.eps)) * G f + BE f

/-- The body's stored value at `(u, s, f)` is row `s` of the loaded slabs' residual, normalised. -/
private theorem pay_apply (x0 x1 : FVec Ideal S1x1024x512 .f32) (x2 : FVec Ideal S512x512 .bf16) (x3 x4 x5 : FVec Ideal S1x512 .f32)
    (u : Fin 1) (s : Fin 1024) (f : Fin 512) :
    k2_pay1 (F := Ideal) (k2_pay2 x0 x2 x3 x1 x4) (k2_pay3 x5) (ix3 u s f)
      = rowNorm (fun f' => x1 (ix3 (0 : Fin 1) s f') + ((∑ e : Fin 512, x0 (ix3 (0 : Fin 1) s e) * x2 (ix2 f' e)) + x3 (ix2 (0 : Fin 1) f')))
          (fun f' => x4 (ix2 (0 : Fin 1) f')) (fun f' => x5 (ix2 (0 : Fin 1) f')) f := by
  rw [pay_layers]
  refine (shapeCast_ab_1ab_apply _ _ u s f).trans ?_
  show unitRow (resid x0 x1 x2 x3) (ix2 s f) * overRows x4 (ix2 s f) + overRows x5 (ix2 s f) = _
  rw [unitRow_apply, overRows_apply, overRows_apply]
  simp only [resid_apply]
  rfl

/-- The same with every factor named: whatever the six loaded blocks are known to hold. -/
private theorem pay_apply_of_eq (x0 x1 : FVec Ideal S1x1024x512 .f32) (x2 : FVec Ideal S512x512 .bf16) (x3 x4 x5 : FVec Ideal S1x512 .f32)
    (A X : Fin 1024 → Fin 512 → EReal) (W : Fin 512 → Fin 512 → EReal) (B G BE : Fin 512 → EReal)
    (h0 : ∀ s e, x0 (ix3 (0 : Fin 1) s e) = A s e) (h1 : ∀ s f, x1 (ix3 (0 : Fin 1) s f) = X s f)
    (h2 : ∀ f e, x2 (ix2 f e) = W f e) (h3 : ∀ f, x3 (ix2 (0 : Fin 1) f) = B f)
    (h4 : ∀ f, x4 (ix2 (0 : Fin 1) f) = G f) (h5 : ∀ f, x5 (ix2 (0 : Fin 1) f) = BE f)
    (u : Fin 1) (s : Fin 1024) (f : Fin 512) :
    k2_pay1 (F := Ideal) (k2_pay2 x0 x2 x3 x1 x4) (k2_pay3 x5) (ix3 u s f)
      = rowNorm (fun f' => X s f' + ((∑ e : Fin 512, A s e * W f' e) + B f')) G BE f := by
  rw [pay_apply]
  simp only [h0, h1, h2, h3, h4, h5]

/-- The specification with its three rows given as one-row arrays. -/
private theorem norm_rows_apply (a x : Cert.Spec.Tok.Idx → EReal) (wo : Cert.Spec.Mat.Idx → EReal)
    (bo g be : (⟨2, ![1, 512]⟩ : Shape).Idx → EReal) (n : Fin 8) (s : Fin 1024) (f : Fin 512) :
    Cert.Spec.norm a x wo (Cert.Spec.rowOf bo) (Cert.Spec.rowOf g) (Cert.Spec.rowOf be) (ix3 n s f)
      = rowNorm (fun f' => x (ix3 n s f') + ((∑ e : Fin 512, a (ix3 n s e) * wo (ix2 f' e)) + bo (ix2 (0 : Fin 1) f')))
          (fun f' => g (ix2 (0 : Fin 1) f')) (fun f' => be (ix2 (0 : Fin 1) f')) f := rfl

/-! ## From the slabs to the array -/

private theorem zeros3 : (![0, 0, 0] : Fin 3 → Nat) = fun _ => 0 := funext fun a => by fin_cases a <;> rfl

private theorem zeros2 : (![0, 0] : Fin 2 → Nat) = fun _ => 0 := funext fun a => by fin_cases a <;> rfl

/-- The printed index maps, decided over the grid: at point `t` the three slab windows sit at batch `t`, the weight
    and the three rows at their origin. -/
private theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) = t.val ∧ win2_6.index t (1 : Fin 3) = 0 ∧ win2_6.index t (2 : Fin 3) = 0
    ∧ t.val < 8 :=
  (by decide +kernel : ∀ t : Fin grid2.N, _)

/-- Every batch is some point's. -/
private theorem idx_onto : ∀ n : Fin 8, ∃ t : Fin cfg2.N, win2_6.index t = ![n.val, 0, 0] :=
  (by decide +kernel : ∀ n : Fin 8, ∃ t : Fin grid2.N, win2_6.index t = ![n.val, 0, 0])

set_option maxHeartbeats 1600000 in
/-- What point `t` writes back is slab `t` of the specification's array. -/
private theorem slab_flushed (c : Dev nD) (t : Fin cfg2.N) :
    (dat2 (F := Ideal) V c).flushed 6 t = ((cfg2.win 6).blk t).view.read (Elt Ideal)
      (Cert.Spec.norm (V c main_v30) (V c main_arg0) (V c main_v11)
        (Cert.Spec.rowOf (V c main_v37)) (Cert.Spec.rowOf (V c main_v38)) (Cert.Spec.rowOf (V c main_v39))) := by
  show (cfg2.win 6).cut (grid2.coords t) ((dat2 (F := Ideal) V c).after 6 t) = _
  rw [after2_6]
  unfold out2_6
  rw [View.canon_unit_zero zeros3]
  simp only [View.ld_unit_zero (S := S1x1024x512) zeros3, View.ld_unit_zero (S := S512x512) zeros2,
    View.ld_unit_zero (S := S1x512) zeros2]
  obtain ⟨a0, a1, a2, b0, b1, b2, w0, w1, p0, p1, g0, g1, q0, q1, o0, o1, o2, ht⟩ := idx_facts t
  funext j
  obtain ⟨u, s, f, rfl⟩ : ∃ (u : Fin 1) (s : Fin 1024) (f : Fin 512), j = ix3 u s f := ⟨j 0, j 1, j 2, eq_ix3 j⟩
  show k2_pay1 (F := Ideal) (k2_pay2 (iblk2 V c 0 t) (iblk2 V c 2 t) (iblk2 V c 3 t) (iblk2 V c 1 t) (iblk2 V c 4 t)) (k2_pay3 (iblk2 V c 5 t)) (ix3 u s f)
    = Cert.Spec.norm (V c main_v30) (V c main_arg0) (V c main_v11)
        (Cert.Spec.rowOf (V c main_v37)) (Cert.Spec.rowOf (V c main_v38)) (Cert.Spec.rowOf (V c main_v39))
        (((cfg2.win 6).blk t).view.emb (ix3 u s f))
  have hu : u.val = 0 := by omega
  have hemb : ((cfg2.win 6).blk t).view.emb (ix3 u s f) = ix3 (⟨t.val, ht⟩ : Fin 8) s f := by
    funext a; apply Fin.ext
    match a with
    | ⟨0, _⟩ => show win2_6.index t (0 : Fin 3) * 1 + 1 * u.val = t.val; omega
    | ⟨1, _⟩ => show win2_6.index t (1 : Fin 3) * 1024 + 1 * s.val = s.val; omega
    | ⟨2, _⟩ => show win2_6.index t (2 : Fin 3) * 512 + 1 * f.val = f.val; omega
  have h0 : ∀ (s : Fin 1024) (e : Fin 512), iblk2 V c 0 t (ix3 (0 : Fin 1) s e) = V c main_v30 (ix3 (⟨t.val, ht⟩ : Fin 8) s e) := fun s e => by
    show V c main_v30 (((cfg2.win 0).blk t).view.emb (ix3 (0 : Fin 1) s e)) = V c main_v30 (ix3 (⟨t.val, ht⟩ : Fin 8) s e)
    refine congrArg _ (funext fun a => Fin.ext ?_)
    match a with
    | ⟨0, _⟩ => show win2_0.index t (0 : Fin 3) * 1 + 1 * 0 = t.val; omega
    | ⟨1, _⟩ => show win2_0.index t (1 : Fin 3) * 1024 + 1 * s.val = s.val; omega
    | ⟨2, _⟩ => show win2_0.index t (2 : Fin 3) * 512 + 1 * e.val = e.val; omega
  have h1 : ∀ (s : Fin 1024) (f : Fin 512), iblk2 V c 1 t (ix3 (0 : Fin 1) s f) = V c main_arg0 (ix3 (⟨t.val, ht⟩ : Fin 8) s f) := fun s f => by
    show V c main_arg0 (((cfg2.win 1).blk t).view.emb (ix3 (0 : Fin 1) s f)) = V c main_arg0 (ix3 (⟨t.val, ht⟩ : Fin 8) s f)
    refine congrArg _ (funext fun a => Fin.ext ?_)
    match a with
    | ⟨0, _⟩ => show win2_1.index t (0 : Fin 3) * 1 + 1 * 0 = t.val; omega
    | ⟨1, _⟩ => show win2_1.index t (1 : Fin 3) * 1024 + 1 * s.val = s.val; omega
    | ⟨2, _⟩ => show win2_1.index t (2 : Fin 3) * 512 + 1 * f.val = f.val; omega
  have h2 : ∀ (f e : Fin 512), iblk2 V c 2 t (ix2 f e) = V c main_v11 (ix2 f e) := fun f e => by
    show V c main_v11 (((cfg2.win 2).blk t).view.emb (ix2 f e)) = V c main_v11 (ix2 f e)
    refine congrArg _ (funext fun a => Fin.ext ?_)
    match a with
    | ⟨0, _⟩ => show win2_2.index t (0 : Fin 2) * 512 + 1 * f.val = f.val; omega
    | ⟨1, _⟩ => show win2_2.index t (1 : Fin 2) * 512 + 1 * e.val = e.val; omega
  have h3 : ∀ (f : Fin 512), iblk2 V c 3 t (ix2 (0 : Fin 1) f) = V c main_v37 (ix2 (0 : Fin 1) f) := fun f => by
    show V c main_v37 (((cfg2.win 3).blk t).view.emb (ix2 (0 : Fin 1) f)) = V c main_v37 (ix2 (0 : Fin 1) f)
    refine congrArg _ (funext fun a => Fin.ext ?_)
    match a with
    | ⟨0, _⟩ => show win2_3.index t (0 : Fin 2) * 1 + 1 * 0 = 0; omega
    | ⟨1, _⟩ => show win2_3.index t (1 : Fin 2) * 512 + 1 * f.val = f.val; omega
  have h4 : ∀ (f : Fin 512), iblk2 V c 4 t (ix2 (0 : Fin 1) f) = V c main_v38 (ix2 (0 : Fin 1) f) := fun f => by
    show V c main_v38 (((cfg2.win 4).blk t).view.emb (ix2 (0 : Fin 1) f)) = V c main_v38 (ix2 (0 : Fin 1) f)
    refine congrArg _ (funext fun a => Fin.ext ?_)
    match a with
    | ⟨0, _⟩ => show win2_4.index t (0 : Fin 2) * 1 + 1 * 0 = 0; omega
    | ⟨1, _⟩ => show win2_4.index t (1 : Fin 2) * 512 + 1 * f.val = f.val; omega
  have h5 : ∀ (f : Fin 512), iblk2 V c 5 t (ix2 (0 : Fin 1) f) = V c main_v39 (ix2 (0 : Fin 1) f) := fun f => by
    show V c main_v39 (((cfg2.win 5).blk t).view.emb (ix2 (0 : Fin 1) f)) = V c main_v39 (ix2 (0 : Fin 1) f)
    refine congrArg _ (funext fun a => Fin.ext ?_)
    match a with
    | ⟨0, _⟩ => show win2_5.index t (0 : Fin 2) * 1 + 1 * 0 = 0; omega
    | ⟨1, _⟩ => show win2_5.index t (1 : Fin 2) * 512 + 1 * f.val = f.val; omega
  refine (pay_apply_of_eq (iblk2 V c 0 t) (iblk2 V c 1 t) (iblk2 V c 2 t) (iblk2 V c 3 t) (iblk2 V c 4 t) (iblk2 V c 5 t)
    (fun s e => V c main_v30 (ix3 (⟨t.val, ht⟩ : Fin 8) s e)) (fun s f => V c main_arg0 (ix3 (⟨t.val, ht⟩ : Fin 8) s f))
    (fun f e => V c main_v11 (ix2 f e)) (fun f => V c main_v37 (ix2 (0 : Fin 1) f))
    (fun f => V c main_v38 (ix2 (0 : Fin 1) f)) (fun f => V c main_v39 (ix2 (0 : Fin 1) f))
    h0 h1 h2 h3 h4 h5 u s f).trans ?_
  exact ((congrArg (Cert.Spec.norm (V c main_v30) (V c main_arg0) (V c main_v11)
      (Cert.Spec.rowOf (V c main_v37)) (Cert.Spec.rowOf (V c main_v38)) (Cert.Spec.rowOf (V c main_v39))) hemb).trans
    (norm_rows_apply _ _ _ _ _ _ (⟨t.val, ht⟩ : Fin 8) s f)).symm

/-- An index of the array is in point `t`'s slab iff each coordinate is in the slab's range on its axis. -/
private theorem mem_slab (t : Fin cfg2.N) (i : S8x1024x512.Idx) :
    i ∈ ((cfg2.win 6).blk t).view.set ↔ ∀ a : Fin 3, win2_6.index t a * S1x1024x512.size a ≤ (i a).val
      ∧ (i a).val < win2_6.index t a * S1x1024x512.size a + S1x1024x512.size a := by
  show i ∈ ((View.whole main_v40).slice (win2_6.rect t)).set ↔ _
  rw [View.set_slice_whole, Rect.mem_set_unit]
  exact Iff.rfl

/-- The eight slabs tile the array: every index is in the slab of its batch. -/
private theorem slab_cover (i : S8x1024x512.Idx) :
    ∃ t : Fin cfg2.N, (cfg2.win 6).flush t = true ∧ i ∈ ((cfg2.win 6).blk t).view.set := by
  have hi0 : (i 0).val < 8 := (i 0).isLt
  have hi1 : (i 1).val < 1024 := (i 1).isLt
  have hi2 : (i 2).val < 512 := (i 2).isLt
  obtain ⟨t, ht⟩ := idx_onto ⟨(i 0).val, hi0⟩
  have q0 : win2_6.index t (0 : Fin 3) = (i 0).val := congrFun ht 0
  have q1 : win2_6.index t (1 : Fin 3) = 0 := congrFun ht 1
  have q2 : win2_6.index t (2 : Fin 3) = 0 := congrFun ht 2
  refine ⟨t, flush2_6 t, ?_⟩
  rw [mem_slab]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 1024 ≤ (i 1).val ∧ (i 1).val < win2_6.index t (1 : Fin 3) * 1024 + 1024; omega
  | ⟨2, _⟩ => show win2_6.index t (2 : Fin 3) * 512 ≤ (i 2).val ∧ (i 2).val < win2_6.index t (2 : Fin 3) * 512 + 512; omega

theorem norm2 (c : Dev nD) : (dat2 (F := Ideal) V c).arrAt 6 cfg2.N
    = Cert.Spec.norm (V c main_v30) (V c main_arg0) (V c main_v11)
        (Cert.Spec.rowOf (V c main_v37)) (Cert.Spec.rowOf (V c main_v38)) (Cert.Spec.rowOf (V c main_v39)) :=
  (dat2 (F := Ideal) V c).arrAt_eq_of_cover 6 _ (fun t _ => slab_flushed V c t) slab_cover

end Cert.KernelIdeal.RegionValue

end
-- ==== Proof.RegionQkvB.lean ====
/-
  The first region of a layer: the three projections of the tokens.  Grid point `n` holds batch `n`'s
  1024 × 512 slab of tokens and the three whole weights; it writes, for each of the three, the slab
  `Σ_e x[n,s,e] · w[f,e] + b[f]`.  The eight slabs tile each output array, so after the run each output
  array IS the projection of the whole token array.
-/
import proofs.«428822_j16243566313770_3_alg».proof.Proof.Gen.KernelIdeal.Frame
import proofs.«428822_j16243566313770_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValueB

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the buffer contents the region is entered with: every statement below holds for any such contents
variable (V : (c : Dev nD) → (b : Ref sig .tc) → Buf (Elt Ideal) ((c : Thread nD τ).loc b))

/-! ## The product's operand indices

  The product contracts the tokens' channel axis (axis 1 of the left operand) with axis 0 of the right operand,
  which is the weight transposed; the result's rows are the left operand's rows and its columns the right's. -/

/-- On the left operand's row axis the index is the result's row. -/
private theorem prod_lhs_row (j : S1024x512.Idx) (k : dot_S1024x512_S512x512_S1024x512_1_0_0_1_n_n.contr.Idx) :
    (dot_S1024x512_S512x512_S1024x512_1_0_0_1_n_n.lhsIdx j k 0).val = (j 0).val := by
  unfold DotDims.lhsIdx
  rw [dif_neg (show ¬ (0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl

/-- On the left operand's contracted axis the index is the contraction position. -/
private theorem prod_lhs_col (j : S1024x512.Idx) (k : dot_S1024x512_S512x512_S1024x512_1_0_0_1_n_n.contr.Idx) :
    (dot_S1024x512_S512x512_S1024x512_1_0_0_1_n_n.lhsIdx j k 1).val = (k ⟨0, Nat.one_pos⟩).val :=
  dot_S1024x512_S512x512_S1024x512_1_0_0_1_n_n.lhsIdx_val_of_single (cl := 1) rfl j k

/-- On the right operand's contracted axis the index is the contraction position. -/
private theorem prod_rhs_row (j : S1024x512.Idx) (k : dot_S1024x512_S512x512_S1024x512_1_0_0_1_n_n.contr.Idx) :
    (dot_S1024x512_S512x512_S1024x512_1_0_0_1_n_n.rhsIdx j k 0).val = (k ⟨0, Nat.one_pos⟩).val :=
  dot_S1024x512_S512x512_S1024x512_1_0_0_1_n_n.rhsIdx_val_of_single (cr := 0) rfl j k

/-- On the right operand's column axis the index is the result's column. -/
private theorem prod_rhs_col (j : S1024x512.Idx) (k : dot_S1024x512_S512x512_S1024x512_1_0_0_1_n_n.contr.Idx) :
    (dot_S1024x512_S512x512_S1024x512_1_0_0_1_n_n.rhsIdx j k 1).val = (j 1).val := by
  unfold DotDims.rhsIdx
  rw [dif_neg (show ¬ (1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-! ## One projection's slab at an index -/

/-- The tokens' slab viewed as a matrix and narrowed reads, at `(s, e)`, the slab at `(0, s, e)`: on the extended
    reals narrowing the format changes nothing. -/
private theorem narrowed_apply (x : Vec Ideal S1x1024x512 .f32) (s : Fin 1024) (e : Fin 512) :
    k3_pay2 x (ix2 s e) = x (ix3 (0 : Fin 1) s e) := by
  unfold k3_pay2
  show shapeCast S1024x512 x shapeCasts_S1x1024x512_S1024x512 (ix2 s e) = _
  exact shapeCast_1ab_ab_apply x shapeCasts_S1x1024x512_S1024x512 s e

/-- The slab's matrix times the weight transposed plus the bias row: at `(s, f)` it is
    `Σ_e x[0,s,e] · w[f,e] + b[0,f]`. -/
private theorem slab_apply (x : Vec Ideal S1x1024x512 .f32) (w : Vec Ideal S512x512 .bf16) (b : Vec Ideal S1x512 .f32)
    (s : Fin 1024) (f : Fin 512) :
    (k3_pay3 x w b (ix2 s f) : EReal)
      = (∑ e : Fin 512, (x (ix3 (0 : Fin 1) s e) : EReal) * (w (ix2 f e) : EReal)) + (b (ix2 (0 : Fin 1) f) : EReal) := by
  unfold k3_pay3
  refine Eq.trans (addf_apply _ _ _) ?_
  refine congrArg₂ (· + ·) ?_ ?_
  · refine Eq.trans (Ideal.matmul_constant_zero_apply _ _ _ _ _) ?_
    rw [← Equiv.sum_comp (contrEquiv1 dot_S1024x512_S512x512_S1024x512_1_0_0_1_n_n 512 rfl rfl).symm]
    refine Finset.sum_congr rfl fun e _ => ?_
    have ce := contrEquiv1_symm_val dot_S1024x512_S512x512_S1024x512_1_0_0_1_n_n 512 rfl rfl e
    have hl : dot_S1024x512_S512x512_S1024x512_1_0_0_1_n_n.lhsIdx (ix2 s f)
        ((contrEquiv1 dot_S1024x512_S512x512_S1024x512_1_0_0_1_n_n 512 rfl rfl).symm e) = ix2 s e := by
      funext ax; apply Fin.ext
      match ax with
      | ⟨0, _⟩ => exact prod_lhs_row _ _
      | ⟨1, _⟩ => exact (prod_lhs_col _ _).trans ce
    have hr : dot_S1024x512_S512x512_S1024x512_1_0_0_1_n_n.rhsIdx (ix2 s f)
        ((contrEquiv1 dot_S1024x512_S512x512_S1024x512_1_0_0_1_n_n 512 rfl rfl).symm e) = ix2 e f := by
      funext ax; apply Fin.ext
      match ax with
      | ⟨0, _⟩ => exact (prod_rhs_row _ _).trans ce
      | ⟨1, _⟩ => exact prod_rhs_col _ _
    rw [hl, hr]
    refine congrArg₂ (· * ·) (narrowed_apply x s e) ?_
    refine Eq.trans (transpose_ix2_apply _ _ e f) ?_
    rw [shapeCast_self]
  · refine Eq.trans (broadcastTo_1b_ab_apply _ _ s f) ?_
    rw [shapeCast_self]

/-- A matrix stored as a one-slab block reads, at `(u, s, f)`, the matrix at `(s, f)`. -/
private theorem stored_apply (v : FVec Ideal S1024x512 .f32) (u : Fin 1) (s : Fin 1024) (f : Fin 512) :
    k3_pay1 v (ix3 u s f) = v (ix2 s f) := by
  unfold k3_pay1
  exact shapeCast_ab_1ab_apply v shapeCasts_S1024x512_S1x1024x512 u s f

/-- The three stored payloads are one and the same term of their three operands. -/
private theorem pay_q_eq (x : Vec Ideal S1x1024x512 .f32) (w : Vec Ideal S512x512 .bf16) (b : Vec Ideal S1x512 .f32) :
    k3_pay4 x w b = k3_pay1 (k3_pay3 x w b) := rfl

private theorem pay_k_eq (x : Vec Ideal S1x1024x512 .f32) (w : Vec Ideal S512x512 .bf16) (b : Vec Ideal S1x512 .f32) :
    k3_pay5 x w b = k3_pay1 (k3_pay3 x w b) := rfl

/-! ## A slab of the projection from blocks of the arrays

  When the tokens' block is batch `n`'s slab of the token array, and the weight's and the bias's blocks are the
  whole weight and the whole bias, the stored payload at `(u, s, f)` is the projection at `(n, s, f)`. -/

private theorem proj_of_blocks (X : Cert.Spec.Tok.Idx → EReal) (W : Cert.Spec.Mat.Idx → EReal) (B : S1x512.Idx → EReal)
    (x : Vec Ideal S1x1024x512 .f32) (w : Vec Ideal S512x512 .bf16) (b : Vec Ideal S1x512 .f32) (n : Fin 8)
    (hx : ∀ (s : Fin 1024) (e : Fin 512), (x (ix3 (0 : Fin 1) s e) : EReal) = X (ix3 n s e))
    (hw : ∀ (f e : Fin 512), (w (ix2 f e) : EReal) = W (ix2 f e))
    (hb : ∀ f : Fin 512, (b (ix2 (0 : Fin 1) f) : EReal) = B (ix2 (0 : Fin 1) f))
    (u : Fin 1) (s : Fin 1024) (f : Fin 512) :
    (k3_pay1 (k3_pay3 x w b) (ix3 u s f) : EReal) = Cert.Spec.proj X W (Cert.Spec.rowOf B) (ix3 n s f) := by
  refine Eq.trans (stored_apply _ u s f) ?_
  refine Eq.trans (slab_apply x w b s f) ?_
  rw [Cert.Spec.proj_ix]
  unfold Cert.Spec.projAt
  refine congrArg₂ (· + ·) (Finset.sum_congr rfl fun e _ => ?_) (hb f)
  rw [hx s e, hw f e]

/-! ## The blocks, read off the arrays

  Over the eight grid points: the tokens' block and each output's block sit at batch `t`, and every weight's and
  bias's block is the whole array. -/

/-- The grid point as a batch number. -/
private def batchOf (t : Fin cfg3.N) : Fin 8 := Fin.cast (by decide : grid3.N = 8) t

private theorem idx_tok : ∀ t : Fin cfg3.N, win3_0.index t (0 : Fin 3) = t.val ∧ win3_0.index t (1 : Fin 3) = 0
    ∧ win3_0.index t (2 : Fin 3) = 0 :=
  (by decide +kernel : ∀ t : Fin grid3.N, _)

/-- The tokens' block at point `t` is batch `t`'s slab of the token array. -/
private theorem tok_block (c : Dev nD) (t : Fin cfg3.N) (s : Fin 1024) (e : Fin 512) :
    ((iblk3 (F := Ideal) V c 0 t : Vec Ideal S1x1024x512 .f32) (ix3 (0 : Fin 1) s e) : EReal)
      = (V c main_v40 : S8x1024x512.Idx → Elt Ideal .f32) (ix3 (batchOf t) s e) := by
  obtain ⟨h0, h1, h2⟩ := idx_tok t
  unfold iblk3
  rw [View.read_apply]
  show V c main_v40 _ = V c main_v40 _
  congr 1
  funext a
  apply Fin.ext
  match a with
  | ⟨0, _⟩ => show win3_0.index t (0 : Fin 3) * 1 + 1 * 0 = t.val; omega
  | ⟨1, _⟩ => show win3_0.index t (1 : Fin 3) * 1024 + 1 * s.val = s.val; omega
  | ⟨2, _⟩ => show win3_0.index t (2 : Fin 3) * 512 + 1 * e.val = e.val; omega

private theorem idx_wq : ∀ t : Fin cfg3.N, win3_1.index t (0 : Fin 2) = 0 ∧ win3_1.index t (1 : Fin 2) = 0 :=
  (by decide +kernel : ∀ t : Fin grid3.N, _)

private theorem idx_bq : ∀ t : Fin cfg3.N, win3_2.index t (0 : Fin 2) = 0 ∧ win3_2.index t (1 : Fin 2) = 0 :=
  (by decide +kernel : ∀ t : Fin grid3.N, _)

private theorem idx_q : ∀ t : Fin cfg3.N, win3_7.index t (0 : Fin 3) = t.val ∧ win3_7.index t (1 : Fin 3) = 0
    ∧ win3_7.index t (2 : Fin 3) = 0 :=
  (by decide +kernel : ∀ t : Fin grid3.N, _)

private theorem idx_wk : ∀ t : Fin cfg3.N, win3_3.index t (0 : Fin 2) = 0 ∧ win3_3.index t (1 : Fin 2) = 0 :=
  (by decide +kernel : ∀ t : Fin grid3.N, _)

private theorem idx_bk : ∀ t : Fin cfg3.N, win3_4.index t (0 : Fin 2) = 0 ∧ win3_4.index t (1 : Fin 2) = 0 :=
  (by decide +kernel : ∀ t : Fin grid3.N, _)

private theorem idx_k : ∀ t : Fin cfg3.N, win3_8.index t (0 : Fin 3) = t.val ∧ win3_8.index t (1 : Fin 3) = 0
    ∧ win3_8.index t (2 : Fin 3) = 0 :=
  (by decide +kernel : ∀ t : Fin grid3.N, _)

private theorem idx_wv : ∀ t : Fin cfg3.N, win3_5.index t (0 : Fin 2) = 0 ∧ win3_5.index t (1 : Fin 2) = 0 :=
  (by decide +kernel : ∀ t : Fin grid3.N, _)

private theorem idx_bv : ∀ t : Fin cfg3.N, win3_6.index t (0 : Fin 2) = 0 ∧ win3_6.index t (1 : Fin 2) = 0 :=
  (by decide +kernel : ∀ t : Fin grid3.N, _)

private theorem idx_v : ∀ t : Fin cfg3.N, win3_9.index t (0 : Fin 3) = t.val ∧ win3_9.index t (1 : Fin 3) = 0
    ∧ win3_9.index t (2 : Fin 3) = 0 :=
  (by decide +kernel : ∀ t : Fin grid3.N, _)

/-- The first weight's block is the whole weight. -/
private theorem wq_block (c : Dev nD) (t : Fin cfg3.N) (f e : Fin 512) :
    ((iblk3 (F := Ideal) V c 1 t : Vec Ideal S512x512 .bf16) (ix2 f e) : EReal)
      = (V c main_v43 : S512x512.Idx → Elt Ideal .bf16) (ix2 f e) := by
  obtain ⟨h0, h1⟩ := idx_wq t
  unfold iblk3
  rw [View.read_apply]
  show V c main_v43 _ = V c main_v43 _
  congr 1
  funext a
  apply Fin.ext
  match a with
  | ⟨0, _⟩ => show win3_1.index t (0 : Fin 2) * 512 + 1 * f.val = f.val; omega
  | ⟨1, _⟩ => show win3_1.index t (1 : Fin 2) * 512 + 1 * e.val = e.val; omega

/-- The first bias's block is the whole bias row. -/
private theorem bq_block (c : Dev nD) (t : Fin cfg3.N) (f : Fin 512) :
    ((iblk3 (F := Ideal) V c 2 t : Vec Ideal S1x512 .f32) (ix2 (0 : Fin 1) f) : EReal)
      = (V c main_v59 : S1x512.Idx → Elt Ideal .f32) (ix2 (0 : Fin 1) f) := by
  obtain ⟨h0, h1⟩ := idx_bq t
  unfold iblk3
  rw [View.read_apply]
  show V c main_v59 _ = V c main_v59 _
  congr 1
  funext a
  apply Fin.ext
  match a with
  | ⟨0, _⟩ => show win3_2.index t (0 : Fin 2) * 1 + 1 * 0 = 0; omega
  | ⟨1, _⟩ => show win3_2.index t (1 : Fin 2) * 512 + 1 * f.val = f.val; omega

/-- The second weight's block is the whole weight. -/
private theorem wk_block (c : Dev nD) (t : Fin cfg3.N) (f e : Fin 512) :
    ((iblk3 (F := Ideal) V c 3 t : Vec Ideal S512x512 .bf16) (ix2 f e) : EReal)
      = (V c main_v46 : S512x512.Idx → Elt Ideal .bf16) (ix2 f e) := by
  obtain ⟨h0, h1⟩ := idx_wk t
  unfold iblk3
  rw [View.read_apply]
  show V c main_v46 _ = V c main_v46 _
  congr 1
  funext a
  apply Fin.ext
  match a with
  | ⟨0, _⟩ => show win3_3.index t (0 : Fin 2) * 512 + 1 * f.val = f.val; omega
  | ⟨1, _⟩ => show win3_3.index t (1 : Fin 2) * 512 + 1 * e.val = e.val; omega

/-- The second bias's block is the whole bias row. -/
private theorem bk_block (c : Dev nD) (t : Fin cfg3.N) (f : Fin 512) :
    ((iblk3 (F := Ideal) V c 4 t : Vec Ideal S1x512 .f32) (ix2 (0 : Fin 1) f) : EReal)
      = (V c main_v60 : S1x512.Idx → Elt Ideal .f32) (ix2 (0 : Fin 1) f) := by
  obtain ⟨h0, h1⟩ := idx_bk t
  unfold iblk3
  rw [View.read_apply]
  show V c main_v60 _ = V c main_v60 _
  congr 1
  funext a
  apply Fin.ext
  match a with
  | ⟨0, _⟩ => show win3_4.index t (0 : Fin 2) * 1 + 1 * 0 = 0; omega
  | ⟨1, _⟩ => show win3_4.index t (1 : Fin 2) * 512 + 1 * f.val = f.val; omega

/-- The third weight's block is the whole weight. -/
private theorem wv_block (c : Dev nD) (t : Fin cfg3.N) (f e : Fin 512) :
    ((iblk3 (F := Ideal) V c 5 t : Vec Ideal S512x512 .bf16) (ix2 f e) : EReal)
      = (V c main_v49 : S512x512.Idx → Elt Ideal .bf16) (ix2 f e) := by
  obtain ⟨h0, h1⟩ := idx_wv t
  unfold iblk3
  rw [View.read_apply]
  show V c main_v49 _ = V c main_v49 _
  congr 1
  funext a
  apply Fin.ext
  match a with
  | ⟨0, _⟩ => show win3_5.index t (0 : Fin 2) * 512 + 1 * f.val = f.val; omega
  | ⟨1, _⟩ => show win3_5.index t (1 : Fin 2) * 512 + 1 * e.val = e.val; omega

/-- The third bias's block is the whole bias row. -/
private theorem bv_block (c : Dev nD) (t : Fin cfg3.N) (f : Fin 512) :
    ((iblk3 (F := Ideal) V c 6 t : Vec Ideal S1x512 .f32) (ix2 (0 : Fin 1) f) : EReal)
      = (V c main_v61 : S1x512.Idx → Elt Ideal .f32) (ix2 (0 : Fin 1) f) := by
  obtain ⟨h0, h1⟩ := idx_bv t
  unfold iblk3
  rw [View.read_apply]
  show V c main_v61 _ = V c main_v61 _
  congr 1
  funext a
  apply Fin.ext
  match a with
  | ⟨0, _⟩ => show win3_6.index t (0 : Fin 2) * 1 + 1 * 0 = 0; omega
  | ⟨1, _⟩ => show win3_6.index t (1 : Fin 2) * 512 + 1 * f.val = f.val; omega

/-! ## Whole staging buffers are read and written at zero offsets -/

private theorem hz3 : (![0, 0, 0] : Fin 3 → Nat) = fun _ => 0 := funext fun a => by fin_cases a <;> rfl
private theorem hz2 : (![0, 0] : Fin 2 → Nat) = fun _ => 0 := funext fun a => by fin_cases a <;> rfl

/-! ## The first projection -/

/-- What grid point `t` writes back to the first output is block `t` of the projection of the whole token array. -/
private theorem flushed_q (c : Dev nD) (t : Fin cfg3.N) :
    (dat3 (F := Ideal) V c).flushed 7 t = ((cfg3.win 7).blk t).view.read (Elt Ideal)
      (Cert.Spec.proj (V c main_v40) (V c main_v43) (Cert.Spec.rowOf (V c main_v59))) := by
  show (cfg3.win 7).cut (grid3.coords t) ((dat3 V c).after 7 t) = _
  rw [after3_7]
  unfold out3_7
  rw [View.canon_unit_zero hz3]
  simp only [View.ld_unit_zero (S := S1x1024x512) hz3, View.ld_unit_zero (S := S512x512) hz2,
    View.ld_unit_zero (S := S1x512) hz2]
  rw [pay_q_eq]
  funext j
  obtain ⟨u, s, f, rfl⟩ : ∃ (u : Fin 1) (s : Fin 1024) (f : Fin 512), j = ix3 u s f := ⟨j 0, j 1, j 2, eq_ix3 j⟩
  have hi : ((cfg3.win 7).blk t).view.emb (ix3 u s f) = ix3 (batchOf t) s f := by
    obtain ⟨h0, h1, h2⟩ := idx_q t
    funext a
    apply Fin.ext
    match a with
    | ⟨0, _⟩ => show win3_7.index t (0 : Fin 3) * 1 + 1 * u.val = t.val; omega
    | ⟨1, _⟩ => show win3_7.index t (1 : Fin 3) * 1024 + 1 * s.val = s.val; omega
    | ⟨2, _⟩ => show win3_7.index t (2 : Fin 3) * 512 + 1 * f.val = f.val; omega
  show k3_pay1 (k3_pay3 (iblk3 V c 0 t) (iblk3 V c 1 t) (iblk3 V c 2 t)) (ix3 u s f)
    = Cert.Spec.proj (V c main_v40) (V c main_v43) (Cert.Spec.rowOf (V c main_v59)) (((cfg3.win 7).blk t).view.emb (ix3 u s f))
  rw [hi]
  exact proj_of_blocks (V c main_v40) (V c main_v43) (V c main_v59) (iblk3 V c 0 t) (iblk3 V c 1 t) (iblk3 V c 2 t)
    (batchOf t) (tok_block V c t) (wq_block V c t) (bq_block V c t) u s f

/-- An index of the first output is in point `t`'s block iff each coordinate is in the block's range on its axis. -/
private theorem mem_blk_q (t : Fin cfg3.N) (i : S8x1024x512.Idx) :
    i ∈ ((cfg3.win 7).blk t).view.set ↔ ∀ a : Fin 3, win3_7.index t a * S1x1024x512.size a ≤ (i a).val
      ∧ (i a).val < win3_7.index t a * S1x1024x512.size a + S1x1024x512.size a := by
  show i ∈ ((View.whole main_v62_0).slice (win3_7.rect t)).set ↔ _
  rw [View.set_slice_whole, Rect.mem_set_unit]
  exact Iff.rfl

/-- Every index of the first output lies in the block of the grid point that is its batch. -/
private theorem cover_q (i : S8x1024x512.Idx) :
    ∃ t : Fin cfg3.N, (cfg3.win 7).flush t = true ∧ i ∈ ((cfg3.win 7).blk t).view.set := by
  have hi0 : (i 0).val < 8 := (i 0).isLt
  have hi1 : (i 1).val < 1024 := (i 1).isLt
  have hi2 : (i 2).val < 512 := (i 2).isLt
  obtain ⟨t, ht⟩ : ∃ t : Fin cfg3.N, t.val = (i 0).val :=
    ⟨Fin.cast (by decide : 8 = grid3.N) ⟨(i 0).val, hi0⟩, rfl⟩
  obtain ⟨h0, h1, h2⟩ := idx_q t
  refine ⟨t, flush3_7 t, ?_⟩
  rw [mem_blk_q]
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 1024 ≤ (i 1).val ∧ (i 1).val < win3_7.index t (1 : Fin 3) * 1024 + 1024; omega
  | ⟨2, _⟩ => show win3_7.index t (2 : Fin 3) * 512 ≤ (i 2).val ∧ (i 2).val < win3_7.index t (2 : Fin 3) * 512 + 512; omega

theorem qkv3_q (c : Dev nD) : (dat3 (F := Ideal) V c).arrAt 7 cfg3.N
    = Cert.Spec.proj (V c main_v40) (V c main_v43) (Cert.Spec.rowOf (V c main_v59)) :=
  (dat3 V c).arrAt_eq_of_cover 7 _ (fun t _ => flushed_q V c t) cover_q

/-! ## The second projection -/

/-- What grid point `t` writes back to the second output is block `t` of the projection of the whole token array. -/
private theorem flushed_k (c : Dev nD) (t : Fin cfg3.N) :
    (dat3 (F := Ideal) V c).flushed 8 t = ((cfg3.win 8).blk t).view.read (Elt Ideal)
      (Cert.Spec.proj (V c main_v40) (V c main_v46) (Cert.Spec.rowOf (V c main_v60))) := by
  show (cfg3.win 8).cut (grid3.coords t) ((dat3 V c).after 8 t) = _
  rw [after3_8]
  unfold out3_8
  rw [View.canon_unit_zero hz3]
  simp only [View.ld_unit_zero (S := S1x1024x512) hz3, View.ld_unit_zero (S := S512x512) hz2,
    View.ld_unit_zero (S := S1x512) hz2]
  rw [pay_k_eq]
  funext j
  obtain ⟨u, s, f, rfl⟩ : ∃ (u : Fin 1) (s : Fin 1024) (f : Fin 512), j = ix3 u s f := ⟨j 0, j 1, j 2, eq_ix3 j⟩
  have hi : ((cfg3.win 8).blk t).view.emb (ix3 u s f) = ix3 (batchOf t) s f := by
    obtain ⟨h0, h1, h2⟩ := idx_k t
    funext a
    apply Fin.ext
    match a with
    | ⟨0, _⟩ => show win3_8.index t (0 : Fin 3) * 1 + 1 * u.val = t.val; omega
    | ⟨1, _⟩ => show win3_8.index t (1 : Fin 3) * 1024 + 1 * s.val = s.val; omega
    | ⟨2, _⟩ => show win3_8.index t (2 : Fin 3) * 512 + 1 * f.val = f.val; omega
  show k3_pay1 (k3_pay3 (iblk3 V c 0 t) (iblk3 V c 3 t) (iblk3 V c 4 t)) (ix3 u s f)
    = Cert.Spec.proj (V c main_v40) (V c main_v46) (Cert.Spec.rowOf (V c main_v60)) (((cfg3.win 8).blk t).view.emb (ix3 u s f))
  rw [hi]
  exact proj_of_blocks (V c main_v40) (V c main_v46) (V c main_v60) (iblk3 V c 0 t) (iblk3 V c 3 t) (iblk3 V c 4 t)
    (batchOf t) (tok_block V c t) (wk_block V c t) (bk_block V c t) u s f

/-- An index of the second output is in point `t`'s block iff each coordinate is in the block's range on its axis. -/
private theorem mem_blk_k (t : Fin cfg3.N) (i : S8x1024x512.Idx) :
    i ∈ ((cfg3.win 8).blk t).view.set ↔ ∀ a : Fin 3, win3_8.index t a * S1x1024x512.size a ≤ (i a).val
      ∧ (i a).val < win3_8.index t a * S1x1024x512.size a + S1x1024x512.size a := by
  show i ∈ ((View.whole main_v62_1).slice (win3_8.rect t)).set ↔ _
  rw [View.set_slice_whole, Rect.mem_set_unit]
  exact Iff.rfl

/-- Every index of the second output lies in the block of the grid point that is its batch. -/
private theorem cover_k (i : S8x1024x512.Idx) :
    ∃ t : Fin cfg3.N, (cfg3.win 8).flush t = true ∧ i ∈ ((cfg3.win 8).blk t).view.set := by
  have hi0 : (i 0).val < 8 := (i 0).isLt
  have hi1 : (i 1).val < 1024 := (i 1).isLt
  have hi2 : (i 2).val < 512 := (i 2).isLt
  obtain ⟨t, ht⟩ : ∃ t : Fin cfg3.N, t.val = (i 0).val :=
    ⟨Fin.cast (by decide : 8 = grid3.N) ⟨(i 0).val, hi0⟩, rfl⟩
  obtain ⟨h0, h1, h2⟩ := idx_k t
  refine ⟨t, flush3_8 t, ?_⟩
  rw [mem_blk_k]
  intro a
  match a with
  | ⟨0, _⟩ => show win3_8.index t (0 : Fin 3) * 1 ≤ (i 0).val ∧ (i 0).val < win3_8.index t (0 : Fin 3) * 1 + 1; omega
  | ⟨1, _⟩ => show win3_8.index t (1 : Fin 3) * 1024 ≤ (i 1).val ∧ (i 1).val < win3_8.index t (1 : Fin 3) * 1024 + 1024; omega
  | ⟨2, _⟩ => show win3_8.index t (2 : Fin 3) * 512 ≤ (i 2).val ∧ (i 2).val < win3_8.index t (2 : Fin 3) * 512 + 512; omega

theorem qkv3_k (c : Dev nD) : (dat3 (F := Ideal) V c).arrAt 8 cfg3.N
    = Cert.Spec.proj (V c main_v40) (V c main_v46) (Cert.Spec.rowOf (V c main_v60)) :=
  (dat3 V c).arrAt_eq_of_cover 8 _ (fun t _ => flushed_k V c t) cover_k

/-! ## The third projection -/

/-- What grid point `t` writes back to the third output is block `t` of the projection of the whole token array. -/
private theorem flushed_v (c : Dev nD) (t : Fin cfg3.N) :
    (dat3 (F := Ideal) V c).flushed 9 t = ((cfg3.win 9).blk t).view.read (Elt Ideal)
      (Cert.Spec.proj (V c main_v40) (V c main_v49) (Cert.Spec.rowOf (V c main_v61))) := by
  show (cfg3.win 9).cut (grid3.coords t) ((dat3 V c).after 9 t) = _
  rw [after3_9]
  unfold out3_9
  rw [View.canon_unit_zero hz3]
  simp only [View.ld_unit_zero (S := S1x1024x512) hz3, View.ld_unit_zero (S := S512x512) hz2,
    View.ld_unit_zero (S := S1x512) hz2]
  funext j
  obtain ⟨u, s, f, rfl⟩ : ∃ (u : Fin 1) (s : Fin 1024) (f : Fin 512), j = ix3 u s f := ⟨j 0, j 1, j 2, eq_ix3 j⟩
  have hi : ((cfg3.win 9).blk t).view.emb (ix3 u s f) = ix3 (batchOf t) s f := by
    obtain ⟨h0, h1, h2⟩ := idx_v t
    funext a
    apply Fin.ext
    match a with
    | ⟨0, _⟩ => show win3_9.index t (0 : Fin 3) * 1 + 1 * u.val = t.val; omega
    | ⟨1, _⟩ => show win3_9.index t (1 : Fin 3) * 1024 + 1 * s.val = s.val; omega
    | ⟨2, _⟩ => show win3_9.index t (2 : Fin 3) * 512 + 1 * f.val = f.val; omega
  show k3_pay1 (k3_pay3 (iblk3 V c 0 t) (iblk3 V c 5 t) (iblk3 V c 6 t)) (ix3 u s f)
    = Cert.Spec.proj (V c main_v40) (V c main_v49) (Cert.Spec.rowOf (V c main_v61)) (((cfg3.win 9).blk t).view.emb (ix3 u s f))
  rw [hi]
  exact proj_of_blocks (V c main_v40) (V c main_v49) (V c main_v61) (iblk3 V c 0 t) (iblk3 V c 5 t) (iblk3 V c 6 t)
    (batchOf t) (tok_block V c t) (wv_block V c t) (bv_block V c t) u s f

/-- An index of the third output is in point `t`'s block iff each coordinate is in the block's range on its axis. -/
private theorem mem_blk_v (t : Fin cfg3.N) (i : S8x1024x512.Idx) :
    i ∈ ((cfg3.win 9).blk t).view.set ↔ ∀ a : Fin 3, win3_9.index t a * S1x1024x512.size a ≤ (i a).val
      ∧ (i a).val < win3_9.index t a * S1x1024x512.size a + S1x1024x512.size a := by
  show i ∈ ((View.whole main_v62_2).slice (win3_9.rect t)).set ↔ _
  rw [View.set_slice_whole, Rect.mem_set_unit]
  exact Iff.rfl

/-- Every index of the third output lies in the block of the grid point that is its batch. -/
private theorem cover_v (i : S8x1024x512.Idx) :
    ∃ t : Fin cfg3.N, (cfg3.win 9).flush t = true ∧ i ∈ ((cfg3.win 9).blk t).view.set := by
  have hi0 : (i 0).val < 8 := (i 0).isLt
  have hi1 : (i 1).val < 1024 := (i 1).isLt
  have hi2 : (i 2).val < 512 := (i 2).isLt
  obtain ⟨t, ht⟩ : ∃ t : Fin cfg3.N, t.val = (i 0).val :=
    ⟨Fin.cast (by decide : 8 = grid3.N) ⟨(i 0).val, hi0⟩, rfl⟩
  obtain ⟨h0, h1, h2⟩ := idx_v t
  refine ⟨t, flush3_9 t, ?_⟩
  rw [mem_blk_v]
  intro a
  match a with
  | ⟨0, _⟩ => show win3_9.index t (0 : Fin 3) * 1 ≤ (i 0).val ∧ (i 0).val < win3_9.index t (0 : Fin 3) * 1 + 1; omega
  | ⟨1, _⟩ => show win3_9.index t (1 : Fin 3) * 1024 ≤ (i 1).val ∧ (i 1).val < win3_9.index t (1 : Fin 3) * 1024 + 1024; omega
  | ⟨2, _⟩ => show win3_9.index t (2 : Fin 3) * 512 ≤ (i 2).val ∧ (i 2).val < win3_9.index t (2 : Fin 3) * 512 + 512; omega

theorem qkv3_v (c : Dev nD) : (dat3 (F := Ideal) V c).arrAt 9 cfg3.N
    = Cert.Spec.proj (V c main_v40) (V c main_v49) (Cert.Spec.rowOf (V c main_v61)) :=
  (dat3 V c).arrAt_eq_of_cover 9 _ (fun t _ => flushed_v V c t) cover_v

end Cert.KernelIdeal.RegionValueB

end
-- ==== Proof.RegionAttnB.lean ====
/-
  The second region of a layer: gated attention, one (batch, head) pair per grid point.  Point (n, h) holds
  the 1024 × 64 slabs of queries, keys and values of that pair and the whole gate; it writes the slab of
  attention outputs.  The 64 slabs tile the output array.
-/
import proofs.«428822_j16243566313770_3_alg».proof.Proof.Gen.KernelIdeal.Frame
import proofs.«428822_j16243566313770_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValueB

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## Layout operations of the body, read at an index -/

/-- A `[1, 1, a, b]` slab read as an `[a, b]` matrix: entry `(i, j)` is the slab's entry `(0, 0, i, j)`. -/
private theorem slab_as_matrix_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` matrix read as a `[1, 1, a, b]` slab: entry `(u, u', i, j)` is the matrix's entry `(i, j)`. -/
private theorem matrix_as_slab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector of `a` entries stood up as a column `[a, 1]`: entry `(i, u)` is the vector's entry `i`. -/
private theorem vector_as_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along the rows to `[a, b]`: entry `(i, j)` is the column's entry `i`. -/
private theorem column_along_rows_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The two matrix products, read at an index

  Each contracts one axis: the operand indices at a result index and a contraction coordinate, axis by axis. -/

private theorem lhs_qk_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
private theorem lhs_qk_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
private theorem rhs_qk_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
private theorem rhs_qk_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- Queries times transposed keys: entry `(i, j)` sums, over the 64 channels of the head, the products of row `i`
    of the left operand and column `j` of the right. -/
private theorem queries_keys_apply (L : FVec Ideal S1024x64 .bf16) (R : FVec Ideal S64x1024 .bf16) (i j : Fin 1024) :
    matmul dot_S1024x64_S64x1024_S1024x1024_1_0_0_1_n_n none L R (constant (F := Ideal) S1024x1024 .f32 0x00000000#32) (ix2 i j)
      = ∑ d : Fin 64, L (ix2 i d) * R (ix2 d j) := by
  refine (Ideal.matmul_constant_zero_apply dot_S1024x64_S64x1024_S1024x1024_1_0_0_1_n_n none L R (ix2 i j)).trans ?_
  rw [← Equiv.sum_comp (contrEquiv1 dot_S1024x64_S64x1024_S1024x1024_1_0_0_1_n_n 64 rfl rfl).symm]
  refine Finset.sum_congr rfl fun d _ => ?_
  have hd := contrEquiv1_symm_val dot_S1024x64_S64x1024_S1024x1024_1_0_0_1_n_n 64 rfl rfl d
  have el : dot_S1024x64_S64x1024_S1024x1024_1_0_0_1_n_n.lhsIdx (ix2 i j)
      ((contrEquiv1 dot_S1024x64_S64x1024_S1024x1024_1_0_0_1_n_n 64 rfl rfl).symm d) = ix2 i d := funext fun a => Fin.ext (by
    match a with
    | ⟨0, _⟩ => exact lhs_qk_0 _ _
    | ⟨1, _⟩ => exact (lhs_qk_1 _ _).trans hd)
  have er : dot_S1024x64_S64x1024_S1024x1024_1_0_0_1_n_n.rhsIdx (ix2 i j)
      ((contrEquiv1 dot_S1024x64_S64x1024_S1024x1024_1_0_0_1_n_n 64 rfl rfl).symm d) = ix2 d j := funext fun a => Fin.ext (by
    match a with
    | ⟨0, _⟩ => exact (rhs_qk_0 _ _).trans hd
    | ⟨1, _⟩ => exact rhs_qk_1 _ _)
  rw [el, er]

private theorem lhs_pv_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
private theorem lhs_pv_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
private theorem rhs_pv_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
private theorem rhs_pv_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- Weights times values: entry `(i, d)` sums, over the 1024 key positions, the products of row `i` of the weights
    and column `d` of the values. -/
private theorem weights_values_apply (L : FVec Ideal S1024x1024 .bf16) (R : FVec Ideal S1024x64 .bf16) (i : Fin 1024) (d : Fin 64) :
    matmul dot_S1024x1024_S1024x64_S1024x64_1_0_0_1_n_n none L R (constant (F := Ideal) S1024x64 .f32 0x00000000#32) (ix2 i d)
      = ∑ j : Fin 1024, L (ix2 i j) * R (ix2 j d) := by
  refine (Ideal.matmul_constant_zero_apply dot_S1024x1024_S1024x64_S1024x64_1_0_0_1_n_n none L R (ix2 i d)).trans ?_
  rw [← Equiv.sum_comp (contrEquiv1 dot_S1024x1024_S1024x64_S1024x64_1_0_0_1_n_n 1024 rfl rfl).symm]
  refine Finset.sum_congr rfl fun j _ => ?_
  have hj := contrEquiv1_symm_val dot_S1024x1024_S1024x64_S1024x64_1_0_0_1_n_n 1024 rfl rfl j
  have el : dot_S1024x1024_S1024x64_S1024x64_1_0_0_1_n_n.lhsIdx (ix2 i d)
      ((contrEquiv1 dot_S1024x1024_S1024x64_S1024x64_1_0_0_1_n_n 1024 rfl rfl).symm j) = ix2 i j := funext fun a => Fin.ext (by
    match a with
    | ⟨0, _⟩ => exact lhs_pv_0 _ _
    | ⟨1, _⟩ => exact (lhs_pv_1 _ _).trans hj)
  have er : dot_S1024x1024_S1024x64_S1024x64_1_0_0_1_n_n.rhsIdx (ix2 i d)
      ((contrEquiv1 dot_S1024x1024_S1024x64_S1024x64_1_0_0_1_n_n 1024 rfl rfl).symm j) = ix2 j d := funext fun a => Fin.ext (by
    match a with
    | ⟨0, _⟩ => exact (rhs_pv_0 _ _).trans hj
    | ⟨1, _⟩ => exact rhs_pv_1 _ _)
  rw [el, er]

/-! ## The two row reductions, read at a row -/

/-- The row maximum of a square matrix of scores: the fold of `max` over the row, started at the word of −∞. -/
private theorem row_max_apply (s : FVec Ideal S1024x1024 .f32) (hr : S1024x1024.Reduces [1] S1024) (hφ : FKind.Formats .f32)
    (hacc : (0xFF800000#32 : BitVec 32) = FKind.maximumf.neutral .f32 hφ) (i : Fin 1024) :
    multiReduction (F := Ideal) .maximumf [1] S1024 s 0xFF800000#32 hr hφ hacc (ix1 i)
      = (Finset.univ : Finset (Fin 1024)).fold max Spec.negInf (fun j => s (ix2 i j)) := by
  refine (Ideal.multiReduction_maximumf_single s 0xFF800000#32 hr hφ hacc (ix1 i)).trans ?_
  have e : (s ∘ hr.lift (ix1 i)) = fun j : Fin 1024 => s (ix2 i j) :=
    funext fun j => congrArg s (funext fun c => Fin.ext (by match c with | ⟨0, _⟩ => rfl | ⟨1, _⟩ => rfl))
  exact congrArg (fun f => (Finset.univ : Finset (Fin 1024)).fold max Spec.negInf f) e

/-- The row sum of a square matrix: the plain sum over the row. -/
private theorem row_sum_apply (p : FVec Ideal S1024x1024 .f32) (hr : S1024x1024.Reduces [1] S1024) (hφ : FKind.Formats .f32)
    (hacc : (0x00000000#32 : BitVec 32) = FKind.add.neutral .f32 hφ) (i : Fin 1024) :
    multiReduction (F := Ideal) .add [1] S1024 p 0x00000000#32 hr hφ hacc (ix1 i) = ∑ j : Fin 1024, p (ix2 i j) := by
  refine (Ideal.multiReduction_add_single p 0x00000000#32 hr hφ hacc (ix1 i)).trans ?_
  exact Finset.sum_congr rfl fun j _ =>
    congrArg p (funext fun c => Fin.ext (by match c with | ⟨0, _⟩ => rfl | ⟨1, _⟩ => rfl))

/-! ## One head's attention as functions of its score matrix

  Within one (batch, head) pair the layer is a function of a 1024 × 1024 matrix of scores and the pair's values:
  the numerator `exp (score − the row's largest score)`, the weight numerator / row sum, the weighted sum of values. -/

/-- The gated, scaled score of query position `i` against key position `j`, from one pair's slabs and the gate. -/
private def slabScore (Q K : Vec Ideal S1x1x1024x64 .f32) (A : Vec Ideal S1024x1024 .f32) (i j : Fin 1024) : EReal :=
  ((∑ d : Fin 64, Q (ix4 (0 : Fin 1) (0 : Fin 1) i d) * K (ix4 (0 : Fin 1) (0 : Fin 1) j d)) * Spec.eighth) * A (ix2 i j)

/-- The softmax's numerator of a score matrix. -/
private def softNumer (σ : Fin 1024 → Fin 1024 → EReal) (i j : Fin 1024) : EReal :=
  Ideal.exp (σ i j - (Finset.univ : Finset (Fin 1024)).fold max Spec.negInf (σ i))

/-- A matrix's entries over their row sums. -/
private def rowShare (π : Fin 1024 → Fin 1024 → EReal) (i j : Fin 1024) : EReal :=
  Ideal.div (π i j) (∑ j' : Fin 1024, π i j')

/-- The values weighted by a matrix of weights. -/
private def headMix (ω : Fin 1024 → Fin 1024 → EReal) (w : Fin 1024 → Fin 64 → EReal) (i : Fin 1024) (d : Fin 64) : EReal :=
  ∑ j : Fin 1024, ω i j * w j d

/-- The specification's attention at pair `(n, h)` is these functions of the pair's scores and values. -/
private theorem spec_attn_ix (q k v : Spec.Hd.Idx → EReal) (adj : Spec.Gate.Idx → EReal) (n h : Fin 8) (i : Fin 1024) (d : Fin 64) :
    Spec.attn q k v adj (ix4 n h i d)
      = headMix (rowShare (softNumer fun i j => Spec.scoreAt q k adj n h i j)) (fun j d => v (ix4 n h j d)) i d := rfl

/-! ## The body's stages, read at an index -/

/-- Scores: queries times transposed keys, scaled, gated. -/
private theorem score_stage_apply (Q K : Vec Ideal S1x1x1024x64 .f32) (A : Vec Ideal S1024x1024 .f32)
    (h1 : S1x1x1024x64.ShapeCasts S1024x64) (hb : FTy.bits .bf16 < FTy.bits .f32) (ht : S1024x64.Transposes [1, 0] S64x1024)
    (i j : Fin 1024) :
    mulf (mulf (matmul dot_S1024x64_S64x1024_S1024x1024_1_0_0_1_n_n none
        (truncf .bf16 (shapeCast S1024x64 Q h1) hb)
        (transpose S64x1024 [1, 0] (truncf .bf16 (shapeCast S1024x64 K h1) hb) ht)
        (constant (F := Ideal) S1024x1024 .f32 0x00000000#32))
      (broadcast S1024x1024 (Scalar.ofBits (F := Ideal) .f32 0x3E000000#32))) A (ix2 i j) = slabScore Q K A i j := by
  unfold slabScore
  refine congrArg (· * A (ix2 i j)) (congrArg (· * Spec.eighth) ?_)
  refine (queries_keys_apply _ _ i j).trans (Finset.sum_congr rfl fun d _ => ?_)
  refine congrArg₂ (· * ·) (slab_as_matrix_apply Q h1 i d) ?_
  exact (transpose_ix2_apply _ ht d j).trans (slab_as_matrix_apply K h1 j d)

/-- Numerators: `exp` of the scores less their row's largest, the largest stood up as a column and repeated along the row. -/
private theorem numer_stage_apply (s : FVec Ideal S1024x1024 .f32) (σ : Fin 1024 → Fin 1024 → EReal)
    (hs : ∀ i j, s (ix2 i j) = σ i j)
    (hr : S1024x1024.Reduces [1] S1024) (hφ : FKind.Formats .f32) (hacc : (0xFF800000#32 : BitVec 32) = FKind.maximumf.neutral .f32 hφ)
    (hc : S1024.ShapeCasts S1024x1) (hbr : S1024x1.Broadcasts S1024x1024) (i j : Fin 1024) :
    exp (subf s (broadcastTo S1024x1024 (shapeCast S1024x1
        (multiReduction (F := Ideal) .maximumf [1] S1024 s 0xFF800000#32 hr hφ hacc) hc) hbr)) (ix2 i j) = softNumer σ i j := by
  unfold softNumer
  refine congrArg Ideal.exp (congrArg₂ (· - ·) (hs i j) ?_)
  refine (column_along_rows_apply _ hbr i j).trans ((vector_as_column_apply _ hc i 0).trans ((row_max_apply s hr hφ hacc i).trans ?_))
  exact congrArg (fun f => (Finset.univ : Finset (Fin 1024)).fold max Spec.negInf f) (funext fun j' => hs i j')

/-- Weights: the numerators over their row sums, the sums stood up as a column and repeated along the row. -/
private theorem share_stage_apply (p : FVec Ideal S1024x1024 .f32) (π : Fin 1024 → Fin 1024 → EReal)
    (hp : ∀ i j, p (ix2 i j) = π i j)
    (hr : S1024x1024.Reduces [1] S1024) (hφ : FKind.Formats .f32) (hacc : (0x00000000#32 : BitVec 32) = FKind.add.neutral .f32 hφ)
    (hc : S1024.ShapeCasts S1024x1) (hbr : S1024x1.Broadcasts S1024x1024) (i j : Fin 1024) :
    divf p (broadcastTo S1024x1024 (shapeCast S1024x1
        (multiReduction (F := Ideal) .add [1] S1024 p 0x00000000#32 hr hφ hacc) hc) hbr) (ix2 i j) = rowShare π i j := by
  unfold rowShare
  refine congrArg₂ Ideal.div (hp i j) ?_
  refine (column_along_rows_apply _ hbr i j).trans ((vector_as_column_apply _ hc i 0).trans ((row_sum_apply p hr hφ hacc i).trans ?_))
  exact Finset.sum_congr rfl fun j' _ => hp i j'

/-- Outputs: weights times values, as a slab. -/
private theorem mix_stage_apply (P : FVec Ideal S1024x1024 .f32) (ω : Fin 1024 → Fin 1024 → EReal)
    (hP : ∀ i j, P (ix2 i j) = ω i j) (W : Vec Ideal S1x1x1024x64 .f32)
    (h1 : S1x1x1024x64.ShapeCasts S1024x64) (hb : FTy.bits .bf16 < FTy.bits .f32) (h2 : S1024x64.ShapeCasts S1x1x1024x64)
    (a b : Fin 1) (i : Fin 1024) (d : Fin 64) :
    shapeCast S1x1x1024x64 (matmul dot_S1024x1024_S1024x64_S1024x64_1_0_0_1_n_n none
        (truncf .bf16 P hb) (truncf .bf16 (shapeCast S1024x64 W h1) hb)
        (constant (F := Ideal) S1024x64 .f32 0x00000000#32)) h2 (ix4 a b i d)
      = headMix ω (fun j d => W (ix4 (0 : Fin 1) (0 : Fin 1) j d)) i d := by
  unfold headMix
  refine (matrix_as_slab_apply _ h2 a b i d).trans ((weights_values_apply _ _ i d).trans (Finset.sum_congr rfl fun j _ => ?_))
  exact congrArg₂ (· * ·) (hP i j) (slab_as_matrix_apply W h1 j d)

/-- THE BODY'S PAYLOAD at an index: one head's attention of the pair's slabs and the gate. -/
private theorem payload_apply (Q K W : Vec Ideal S1x1x1024x64 .f32) (A : Vec Ideal S1024x1024 .f32)
    (a b : Fin 1) (i : Fin 1024) (d : Fin 64) :
    k4_pay1 Q K W A (ix4 a b i d)
      = headMix (rowShare (softNumer (slabScore Q K A))) (fun j d => W (ix4 (0 : Fin 1) (0 : Fin 1) j d)) i d := by
  unfold k4_pay1
  exact mix_stage_apply _ _ (share_stage_apply _ _ (numer_stage_apply _ _ (score_stage_apply Q K A _ _ _) _ _ _ _ _) _ _ _ _ _) W _ _ _ a b i d

-- the buffer contents the region is entered with: every statement below holds for any such contents
variable (V : (c : Dev nD) → (b : Ref sig .tc) → Buf (Elt Ideal) ((c : Thread nD τ).loc b))

/-! ## From the slabs to the array

  Point `t` of the 8 × 8 grid is a (batch, head) pair `(n, h)`: its query, key, value and output slabs are the
  pair's `[1, 1, 1024, 64]` blocks of their arrays, the gate's block is the whole gate. -/

private theorem zeros4 : (![0, 0, 0, 0] : Fin 4 → Nat) = fun _ => 0 := funext fun a => by fin_cases a <;> rfl
private theorem zeros2 : (![0, 0] : Fin 2 → Nat) = fun _ => 0 := funext fun a => by fin_cases a <;> rfl

/-- The printed index maps, decided over the grid: the output's block index is a pair `(n, h, 0, 0)` with `n, h < 8`;
    the queries', keys' and values' block indices are the output's; the gate's is `(0, 0)`. -/
private theorem index_facts : ∀ t : Fin cfg4.N,
    win4_4.index t (0 : Fin 4) < 8 ∧ win4_4.index t (1 : Fin 4) < 8
    ∧ win4_4.index t (2 : Fin 4) = 0 ∧ win4_4.index t (3 : Fin 4) = 0
    ∧ win4_0.index t (0 : Fin 4) = win4_4.index t (0 : Fin 4) ∧ win4_0.index t (1 : Fin 4) = win4_4.index t (1 : Fin 4)
    ∧ win4_0.index t (2 : Fin 4) = 0 ∧ win4_0.index t (3 : Fin 4) = 0
    ∧ win4_1.index t (0 : Fin 4) = win4_4.index t (0 : Fin 4) ∧ win4_1.index t (1 : Fin 4) = win4_4.index t (1 : Fin 4)
    ∧ win4_1.index t (2 : Fin 4) = 0 ∧ win4_1.index t (3 : Fin 4) = 0
    ∧ win4_2.index t (0 : Fin 4) = win4_4.index t (0 : Fin 4) ∧ win4_2.index t (1 : Fin 4) = win4_4.index t (1 : Fin 4)
    ∧ win4_2.index t (2 : Fin 4) = 0 ∧ win4_2.index t (3 : Fin 4) = 0
    ∧ win4_3.index t (0 : Fin 2) = 0 ∧ win4_3.index t (1 : Fin 2) = 0 :=
  (by decide +kernel : ∀ t : Fin grid4.N, _)

/-- Every (batch, head) pair is some point's. -/
private theorem index_onto : ∀ (n h : Fin 8), ∃ t : Fin cfg4.N, win4_4.index t = ![n.val, h.val, 0, 0] :=
  (by decide +kernel : ∀ (n h : Fin 8), ∃ t : Fin grid4.N, win4_4.index t = ![n.val, h.val, 0, 0])

/-- The queries' slab at the point of pair `(n, h)` is the pair's slab of the queries' array. -/
private theorem queries_slab_apply (c : Dev nD) (t : Fin cfg4.N) (n h : Fin 8)
    (hn : win4_4.index t (0 : Fin 4) = n.val) (hh : win4_4.index t (1 : Fin 4) = h.val) (i : Fin 1024) (d : Fin 64) :
    iblk4 V c 0 t (ix4 (0 : Fin 1) (0 : Fin 1) i d) = V c main_v64 (ix4 n h i d) := by
  obtain ⟨-, -, -, -, q0, q1, q2, q3, -⟩ := index_facts t
  show V c (Pipeline.arrRef spec4 0) (((cfg4.win 0).blk t).view.emb (ix4 (0 : Fin 1) (0 : Fin 1) i d)) = _
  refine congrArg (V c main_v64) (funext fun ax => Fin.ext ?_)
  match ax with
  | ⟨0, _⟩ => show win4_0.index t (0 : Fin 4) * 1 + 1 * 0 = n.val; omega
  | ⟨1, _⟩ => show win4_0.index t (1 : Fin 4) * 1 + 1 * 0 = h.val; omega
  | ⟨2, _⟩ => show win4_0.index t (2 : Fin 4) * 1024 + 1 * i.val = i.val; omega
  | ⟨3, _⟩ => show win4_0.index t (3 : Fin 4) * 64 + 1 * d.val = d.val; omega

/-- The keys' slab at the point of pair `(n, h)` is the pair's slab of the keys' array. -/
private theorem keys_slab_apply (c : Dev nD) (t : Fin cfg4.N) (n h : Fin 8)
    (hn : win4_4.index t (0 : Fin 4) = n.val) (hh : win4_4.index t (1 : Fin 4) = h.val) (j : Fin 1024) (d : Fin 64) :
    iblk4 V c 1 t (ix4 (0 : Fin 1) (0 : Fin 1) j d) = V c main_v66 (ix4 n h j d) := by
  obtain ⟨-, -, -, -, -, -, -, -, k0, k1, k2, k3, -⟩ := index_facts t
  show V c (Pipeline.arrRef spec4 1) (((cfg4.win 1).blk t).view.emb (ix4 (0 : Fin 1) (0 : Fin 1) j d)) = _
  refine congrArg (V c main_v66) (funext fun ax => Fin.ext ?_)
  match ax with
  | ⟨0, _⟩ => show win4_1.index t (0 : Fin 4) * 1 + 1 * 0 = n.val; omega
  | ⟨1, _⟩ => show win4_1.index t (1 : Fin 4) * 1 + 1 * 0 = h.val; omega
  | ⟨2, _⟩ => show win4_1.index t (2 : Fin 4) * 1024 + 1 * j.val = j.val; omega
  | ⟨3, _⟩ => show win4_1.index t (3 : Fin 4) * 64 + 1 * d.val = d.val; omega

/-- The values' slab at the point of pair `(n, h)` is the pair's slab of the values' array. -/
private theorem values_slab_apply (c : Dev nD) (t : Fin cfg4.N) (n h : Fin 8)
    (hn : win4_4.index t (0 : Fin 4) = n.val) (hh : win4_4.index t (1 : Fin 4) = h.val) (j : Fin 1024) (d : Fin 64) :
    iblk4 V c 2 t (ix4 (0 : Fin 1) (0 : Fin 1) j d) = V c main_v68 (ix4 n h j d) := by
  obtain ⟨-, -, -, -, -, -, -, -, -, -, -, -, v0, v1, v2, v3, -⟩ := index_facts t
  show V c (Pipeline.arrRef spec4 2) (((cfg4.win 2).blk t).view.emb (ix4 (0 : Fin 1) (0 : Fin 1) j d)) = _
  refine congrArg (V c main_v68) (funext fun ax => Fin.ext ?_)
  match ax with
  | ⟨0, _⟩ => show win4_2.index t (0 : Fin 4) * 1 + 1 * 0 = n.val; omega
  | ⟨1, _⟩ => show win4_2.index t (1 : Fin 4) * 1 + 1 * 0 = h.val; omega
  | ⟨2, _⟩ => show win4_2.index t (2 : Fin 4) * 1024 + 1 * j.val = j.val; omega
  | ⟨3, _⟩ => show win4_2.index t (3 : Fin 4) * 64 + 1 * d.val = d.val; omega

/-- The gate's block at every point is the whole gate. -/
private theorem gate_block_apply (c : Dev nD) (t : Fin cfg4.N) (i j : Fin 1024) :
    iblk4 V c 3 t (ix2 i j) = V c main_arg1 (ix2 i j) := by
  obtain ⟨-, -, -, -, -, -, -, -, -, -, -, -, -, -, -, -, g0, g1⟩ := index_facts t
  show V c (Pipeline.arrRef spec4 3) (((cfg4.win 3).blk t).view.emb (ix2 i j)) = _
  refine congrArg (V c main_arg1) (funext fun ax => Fin.ext ?_)
  match ax with
  | ⟨0, _⟩ => show win4_3.index t (0 : Fin 2) * 1024 + 1 * i.val = i.val; omega
  | ⟨1, _⟩ => show win4_3.index t (1 : Fin 2) * 1024 + 1 * j.val = j.val; omega

/-- Entry `(a, b, i, d)` of the output's slab at the point of pair `(n, h)` sits at `(n, h, i, d)` in the output array. -/
private theorem output_slab_emb (t : Fin cfg4.N) (n h : Fin 8)
    (hn : win4_4.index t (0 : Fin 4) = n.val) (hh : win4_4.index t (1 : Fin 4) = h.val)
    (a b : Fin 1) (i : Fin 1024) (d : Fin 64) :
    (((cfg4.win 4).blk t).view.emb (ix4 a b i d) : S8x8x1024x64.Idx) = ix4 n h i d := by
  obtain ⟨-, -, e2, e3, -⟩ := index_facts t
  funext ax; apply Fin.ext
  match ax with
  | ⟨0, _⟩ => show win4_4.index t (0 : Fin 4) * 1 + 1 * a.val = n.val; have := a.isLt; omega
  | ⟨1, _⟩ => show win4_4.index t (1 : Fin 4) * 1 + 1 * b.val = h.val; have := b.isLt; omega
  | ⟨2, _⟩ => show win4_4.index t (2 : Fin 4) * 1024 + 1 * i.val = i.val; omega
  | ⟨3, _⟩ => show win4_4.index t (3 : Fin 4) * 64 + 1 * d.val = d.val; omega

/-- One pair's scores from the slabs at its point are the specification's scores of the pair. -/
private theorem slab_scores_eq (c : Dev nD) (t : Fin cfg4.N) (n h : Fin 8)
    (hn : win4_4.index t (0 : Fin 4) = n.val) (hh : win4_4.index t (1 : Fin 4) = h.val) :
    slabScore (iblk4 V c 0 t) (iblk4 V c 1 t) (iblk4 V c 3 t)
      = fun i j => Cert.Spec.scoreAt (V c main_v64) (V c main_v66) (V c main_arg1) n h i j := by
  funext i j
  unfold slabScore Cert.Spec.scoreAt
  refine congrArg₂ (· * ·) (congrArg (· * Cert.Spec.eighth) (Finset.sum_congr rfl fun d _ => congrArg₂ (· * ·) ?_ ?_)) ?_
  · exact queries_slab_apply V c t n h hn hh i d
  · exact keys_slab_apply V c t n h hn hh j d
  · exact gate_block_apply V c t i j

/-- WHAT POINT `t` WRITES BACK is block `t` of the specification's attention of the arrays as the region finds them. -/
private theorem flushed_eq (c : Dev nD) (t : Fin cfg4.N) :
    (dat4 (F := Ideal) V c).flushed 4 t
      = ((cfg4.win 4).blk t).view.read (Elt Ideal)
          (Cert.Spec.attn (V c main_v64) (V c main_v66) (V c main_v68) (V c main_arg1)) := by
  show (cfg4.win 4).cut (grid4.coords t) ((dat4 (F := Ideal) V c).after 4 t) = _
  rw [after4_4]
  unfold out4_4
  rw [View.canon_unit_zero zeros4]
  simp only [View.ld_unit_zero (S := S1x1x1024x64) zeros4, View.ld_unit_zero (S := S1024x1024) zeros2]
  obtain ⟨b0, b1, -⟩ := index_facts t
  refine funext fun (y : S1x1x1024x64.Idx) => ?_
  obtain ⟨a, b, i, d, rfl⟩ : ∃ (a b : Fin 1) (i : Fin 1024) (d : Fin 64), y = ix4 a b i d := ⟨y 0, y 1, y 2, y 3, eq_ix4 y⟩
  show k4_pay1 (iblk4 V c 0 t) (iblk4 V c 1 t) (iblk4 V c 2 t) (iblk4 V c 3 t) (ix4 a b i d)
    = Cert.Spec.attn (V c main_v64) (V c main_v66) (V c main_v68) (V c main_arg1) (((cfg4.win 4).blk t).view.emb (ix4 a b i d))
  refine (payload_apply _ _ _ _ a b i d).trans ?_
  rw [output_slab_emb t ⟨win4_4.index t (0 : Fin 4), b0⟩ ⟨win4_4.index t (1 : Fin 4), b1⟩ rfl rfl a b i d, spec_attn_ix]
  exact congrArg₂ (fun σ w => headMix (rowShare (softNumer σ)) w i d)
    (slab_scores_eq V c t ⟨win4_4.index t (0 : Fin 4), b0⟩ ⟨win4_4.index t (1 : Fin 4), b1⟩ rfl rfl)
    (funext fun j => funext fun d' => values_slab_apply V c t ⟨win4_4.index t (0 : Fin 4), b0⟩ ⟨win4_4.index t (1 : Fin 4), b1⟩ rfl rfl j d')

/-- An index of the output array is in point `t`'s block iff each coordinate is in the block's range on its axis. -/
private theorem mem_slab (t : Fin cfg4.N) (x : S8x8x1024x64.Idx) :
    x ∈ ((cfg4.win 4).blk t).view.set ↔ ∀ a : Fin 4, win4_4.index t a * S1x1x1024x64.size a ≤ (x a).val
      ∧ (x a).val < win4_4.index t a * S1x1x1024x64.size a + S1x1x1024x64.size a := by
  show x ∈ ((View.whole main_v69).slice (win4_4.rect t)).set ↔ _
  rw [View.set_slice_whole, Rect.mem_set_unit]
  exact Iff.rfl

/-- The 64 slabs tile the output array: index `(n, h, i, d)` is in the block of the point whose pair is `(n, h)`. -/
private theorem slabs_cover (x : S8x8x1024x64.Idx) :
    ∃ t : Fin cfg4.N, (cfg4.win 4).flush t = true ∧ x ∈ ((cfg4.win 4).blk t).view.set := by
  have hx0 : (x 0).val < 8 := (x 0).isLt
  have hx1 : (x 1).val < 8 := (x 1).isLt
  have hx2 : (x 2).val < 1024 := (x 2).isLt
  have hx3 : (x 3).val < 64 := (x 3).isLt
  obtain ⟨t, ht⟩ := index_onto ⟨(x 0).val, hx0⟩ ⟨(x 1).val, hx1⟩
  have p0 : win4_4.index t (0 : Fin 4) = (x 0).val := congrFun ht 0
  have p1 : win4_4.index t (1 : Fin 4) = (x 1).val := congrFun ht 1
  have p2 : win4_4.index t (2 : Fin 4) = 0 := congrFun ht 2
  have p3 : win4_4.index t (3 : Fin 4) = 0 := congrFun ht 3
  refine ⟨t, flush4_4 t, ?_⟩
  rw [mem_slab]
  intro a
  match a with
  | ⟨0, _⟩ => show win4_4.index t (0 : Fin 4) * 1 ≤ (x 0).val ∧ (x 0).val < win4_4.index t (0 : Fin 4) * 1 + 1; omega
  | ⟨1, _⟩ => show win4_4.index t (1 : Fin 4) * 1 ≤ (x 1).val ∧ (x 1).val < win4_4.index t (1 : Fin 4) * 1 + 1; omega
  | ⟨2, _⟩ => show win4_4.index t (2 : Fin 4) * 1024 ≤ (x 2).val ∧ (x 2).val < win4_4.index t (2 : Fin 4) * 1024 + 1024; omega
  | ⟨3, _⟩ => show win4_4.index t (3 : Fin 4) * 64 ≤ (x 3).val ∧ (x 3).val < win4_4.index t (3 : Fin 4) * 64 + 64; omega

/-- THE OUTPUT ARRAY after the region's run is the specification's attention of the region's input arrays. -/
theorem attn4 (c : Dev nD) : (dat4 (F := Ideal) V c).arrAt 4 cfg4.N
    = Cert.Spec.attn (V c main_v64) (V c main_v66) (V c main_v68) (V c main_arg1) :=
  (dat4 (F := Ideal) V c).arrAt_eq_of_cover 4 _ (fun t _ => flushed_eq V c t) slabs_cover

end Cert.KernelIdeal.RegionValueB

end
-- ==== Proof.RegionNormB.lean ====
/-
  The third region of a layer: output projection, residual and normalisation over the channels, one batch
  per grid point.  Point `n` holds batch `n`'s slabs of merged attention outputs and of tokens, the whole
  output weight and the three per-channel rows; it writes the normalised slab.  The eight slabs tile the
  output array.
-/
import proofs.«428822_j16243566313770_3_alg».proof.Proof.Gen.KernelIdeal.Frame
import proofs.«428822_j16243566313770_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValueB

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the buffer contents the region is entered with: every statement below holds for any such contents
variable (V : (c : Dev nD) → (b : Ref sig .tc) → Buf (Elt Ideal) ((c : Thread nD τ).loc b))

/-! ## Layout forms for a per-row scalar kept as a one-wide column -/

/-- A vector `[a]` cast to a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic in layers

  The body forms the residual slab `r = x + (a·woᵀ + bo)`, then per row its mean, its centred values, the mean of
  their squares, and the scaled and shifted result.  Each layer is named here as the body writes it, so that it can be
  read at an index on its own. -/

/-- The residual slab: tokens plus the projected attention outputs plus the bias row. -/
private def resid (a x : FVec Ideal S1x1024x512 .f32) (wo : FVec Ideal S512x512 .bf16) (bo : FVec Ideal S1x512 .f32) :
    FVec Ideal S1024x512 .f32 :=
  addf (shapeCast S1024x512 x shapeCasts_S1x1024x512_S1024x512)
    (addf
      (matmul dot_S1024x512_S512x512_S1024x512_1_0_0_1_n_n none
        (truncf .bf16 (shapeCast S1024x512 a shapeCasts_S1x1024x512_S1024x512) bitsLt_bf16_f32)
        (transpose S512x512 [1, 0] (shapeCast S512x512 wo shapeCasts_S512x512_S512x512) transposes_S512x512_p1_0_S512x512)
        (constant S1024x512 .f32 0x00000000#32))
      (broadcastTo S1024x512 (shapeCast S1x512 bo shapeCasts_S1x512_S1x512) broadcasts_S1x512_S1024x512))

/-- The lane sum of each row divided by the channel count, kept as a column. -/
private def meanCol (v : FVec Ideal S1024x512 .f32) : FVec Ideal S1024x1 .f32 :=
  divf (shapeCast S1024x1 (multiReduction .add [1] S1024 v 0x00000000#32 reduces_S1024x512_S1024 (.inl rfl) rfl) shapeCasts_S1024_S1024x1)
    (broadcast S1024x1 (Scalar.ofBits .f32 0x44000000#32))

/-- Each entry minus its row's mean. -/
private def centred (v : FVec Ideal S1024x512 .f32) : FVec Ideal S1024x512 .f32 :=
  subf v (broadcastTo S1024x512 (meanCol v) broadcasts_S1024x1_S1024x512)

/-- The centred values times the reciprocal root of (their mean square plus the offset). -/
private def unitRow (v : FVec Ideal S1024x512 .f32) : FVec Ideal S1024x512 .f32 :=
  mulf (centred v)
    (broadcastTo S1024x512
      (rsqrt (addf (meanCol (mulf (centred v) (centred v))) (broadcast S1024x1 (Scalar.ofBits .f32 0x3727C5AC#32))))
      broadcasts_S1024x1_S1024x512)

/-- A per-channel row laid over every row of the slab. -/
private def overRows (b : FVec Ideal S1x512 .f32) : FVec Ideal S1024x512 .f32 :=
  broadcastTo S1024x512 (shapeCast S1x512 b shapeCasts_S1x512_S1x512) broadcasts_S1x512_S1024x512

/-- The body's stored value is the normalised residual, scaled and shifted per channel, as a one-batch slab. -/
private theorem pay_layers (x0 x1 : FVec Ideal S1x1024x512 .f32) (x2 : FVec Ideal S512x512 .bf16) (x3 x4 x5 : FVec Ideal S1x512 .f32) :
    k5_pay1 (k5_pay2 x0 x2 x3 x1 x4) (k5_pay3 x5)
      = shapeCast S1x1024x512 (addf (mulf (unitRow (resid x0 x1 x2 x3)) (overRows x4)) (overRows x5)) shapeCasts_S1024x512_S1x1024x512 := rfl

/-! ## The projection's product at an index -/

/-- On the product's row axis the left operand reads the output's row. -/
private theorem lhs_row (j : S1024x512.Idx) (k : dot_S1024x512_S512x512_S1024x512_1_0_0_1_n_n.contr.Idx) :
    (dot_S1024x512_S512x512_S1024x512_1_0_0_1_n_n.lhsIdx j k (0 : Fin 2)).val = (j 0).val := by
  simp [DotDims.lhsIdx, dot_S1024x512_S512x512_S1024x512_1_0_0_1_n_n]; rfl

/-- On its lane axis the left operand reads the contracted coordinate. -/
private theorem lhs_lane (j : S1024x512.Idx) (k : dot_S1024x512_S512x512_S1024x512_1_0_0_1_n_n.contr.Idx) :
    (dot_S1024x512_S512x512_S1024x512_1_0_0_1_n_n.lhsIdx j k (1 : Fin 2)).val = (k ⟨0, by decide⟩).val :=
  DotDims.lhsIdx_val_of_single (d := dot_S1024x512_S512x512_S1024x512_1_0_0_1_n_n) (cl := (1 : Fin 2)) rfl j k

/-- On its row axis the right operand reads the contracted coordinate. -/
private theorem rhs_row (j : S1024x512.Idx) (k : dot_S1024x512_S512x512_S1024x512_1_0_0_1_n_n.contr.Idx) :
    (dot_S1024x512_S512x512_S1024x512_1_0_0_1_n_n.rhsIdx j k (0 : Fin 2)).val = (k ⟨0, by decide⟩).val :=
  DotDims.rhsIdx_val_of_single (d := dot_S1024x512_S512x512_S1024x512_1_0_0_1_n_n) (cr := (0 : Fin 2)) rfl j k

/-- On its lane axis the right operand reads the output's lane. -/
private theorem rhs_lane (j : S1024x512.Idx) (k : dot_S1024x512_S512x512_S1024x512_1_0_0_1_n_n.contr.Idx) :
    (dot_S1024x512_S512x512_S1024x512_1_0_0_1_n_n.rhsIdx j k (1 : Fin 2)).val = (j 1).val := by
  simp [DotDims.rhsIdx, dot_S1024x512_S512x512_S1024x512_1_0_0_1_n_n]; rfl

/-- A rows-by-channels product into the zero slab, at `(s, f)`: the sum over the contracted channel. -/
private theorem product_apply (A : FVec Ideal S1024x512 .bf16) (B : FVec Ideal S512x512 .bf16) (s : Fin 1024) (f : Fin 512) :
    matmul dot_S1024x512_S512x512_S1024x512_1_0_0_1_n_n none A B (constant (F := Ideal) S1024x512 .f32 0x00000000#32) (ix2 s f)
      = ∑ e : Fin 512, A (ix2 s e) * B (ix2 e f) := by
  show FloatOps.matmul dot_S1024x512_S512x512_S1024x512_1_0_0_1_n_n none A B (constant (F := Ideal) S1024x512 .f32 0x00000000#32) (ix2 s f) = _
  rw [Ideal.matmul_constant_zero_apply,
    ← Equiv.sum_comp (contrEquiv1 dot_S1024x512_S512x512_S1024x512_1_0_0_1_n_n 512 rfl rfl).symm]
  refine Finset.sum_congr rfl fun e _ => ?_
  have ce := contrEquiv1_symm_val dot_S1024x512_S512x512_S1024x512_1_0_0_1_n_n 512 rfl rfl e
  have hl : dot_S1024x512_S512x512_S1024x512_1_0_0_1_n_n.lhsIdx (ix2 s f)
      ((contrEquiv1 dot_S1024x512_S512x512_S1024x512_1_0_0_1_n_n 512 rfl rfl).symm e) = ix2 s e := by
    funext ax; apply Fin.ext
    match ax with
    | ⟨0, _⟩ => exact lhs_row _ _
    | ⟨1, _⟩ => exact (lhs_lane _ _).trans ce
  have hr : dot_S1024x512_S512x512_S1024x512_1_0_0_1_n_n.rhsIdx (ix2 s f)
      ((contrEquiv1 dot_S1024x512_S512x512_S1024x512_1_0_0_1_n_n 512 rfl rfl).symm e) = ix2 e f := by
    funext ax; apply Fin.ext
    match ax with
    | ⟨0, _⟩ => exact (rhs_row _ _).trans ce
    | ⟨1, _⟩ => exact rhs_lane _ _
  rw [hl, hr]

/-! ## A row's lane sum at an index -/

private theorem laneSum_apply (v : FVec Ideal S1024x512 .f32) (s : Fin 1024) :
    multiReduction (F := Ideal) .add [1] S1024 v 0x00000000#32 reduces_S1024x512_S1024 (.inl rfl) rfl (ix1 s)
      = ∑ f : Fin 512, v (ix2 s f) := by
  refine (Ideal.multiReduction_add_single v 0x00000000#32 reduces_S1024x512_S1024 (.inl rfl) rfl (ix1 s)).trans ?_
  show ∑ k : Fin 512, v (reduces_S1024x512_S1024.lift (ix1 s) k) = _
  exact Finset.sum_congr rfl fun k _ => congrArg v (funext fun a => Fin.ext (by
    match a with
    | ⟨0, _⟩ => rfl
    | ⟨1, _⟩ => rfl))

/-! ## The layers at an index -/

/-- The residual at `(s, f)`: the token entry plus the projection there plus the bias of channel `f`. -/
private theorem resid_apply (a x : FVec Ideal S1x1024x512 .f32) (wo : FVec Ideal S512x512 .bf16) (bo : FVec Ideal S1x512 .f32)
    (s : Fin 1024) (f : Fin 512) :
    resid a x wo bo (ix2 s f)
      = x (ix3 (0 : Fin 1) s f) + ((∑ e : Fin 512, a (ix3 (0 : Fin 1) s e) * wo (ix2 f e)) + bo (ix2 (0 : Fin 1) f)) := by
  unfold resid
  refine congrArg₂ (· + ·) (shapeCast_1ab_ab_apply x _ s f) (congrArg₂ (· + ·) ?_ ?_)
  · refine (product_apply _ _ s f).trans (Finset.sum_congr rfl fun e _ => congrArg₂ (· * ·) ?_ ?_)
    · exact shapeCast_1ab_ab_apply a _ s e
    · exact (transpose_ix2_apply _ _ e f).trans (congrFun (shapeCast_self wo _) (ix2 f e))
  · exact (broadcastTo_1b_ab_apply _ _ s f).trans (congrFun (shapeCast_self bo _) (ix2 (0 : Fin 1) f))

/-- A row's mean, wherever the column is read. -/
private theorem meanCol_apply (v : FVec Ideal S1024x512 .f32) (s : Fin 1024) (u : Fin 1) :
    meanCol v (ix2 s u) = Ideal.div (∑ f : Fin 512, v (ix2 s f)) Cert.Spec.width := by
  unfold meanCol
  exact congrArg (fun z => Ideal.div z Cert.Spec.width) ((shapeCast_a_a1_apply _ _ s u).trans (laneSum_apply v s))

/-- An entry minus its row's mean. -/
private theorem centred_apply (v : FVec Ideal S1024x512 .f32) (s : Fin 1024) (f : Fin 512) :
    centred v (ix2 s f) = v (ix2 s f) - Ideal.div (∑ f' : Fin 512, v (ix2 s f')) Cert.Spec.width := by
  unfold centred
  exact congrArg (v (ix2 s f) - ·) ((broadcastTo_a1_ab_apply _ _ s f).trans (meanCol_apply v s 0))

/-- The centred entry times the reciprocal root of its row's mean square plus the offset. -/
private theorem unitRow_apply (v : FVec Ideal S1024x512 .f32) (s : Fin 1024) (f : Fin 512) :
    unitRow v (ix2 s f)
      = (v (ix2 s f) - Ideal.div (∑ f' : Fin 512, v (ix2 s f')) Cert.Spec.width)
        * Ideal.rsqrt (Ideal.div (∑ f' : Fin 512,
            (v (ix2 s f') - Ideal.div (∑ f'' : Fin 512, v (ix2 s f'')) Cert.Spec.width)
              * (v (ix2 s f') - Ideal.div (∑ f'' : Fin 512, v (ix2 s f'')) Cert.Spec.width)) Cert.Spec.width
          + Cert.Spec.eps) := by
  unfold unitRow
  refine congrArg₂ (· * ·) (centred_apply v s f) ((broadcastTo_a1_ab_apply _ _ s f).trans ?_)
  refine congrArg (fun z => Ideal.rsqrt (z + Cert.Spec.eps)) ((meanCol_apply _ s 0).trans ?_)
  refine congrArg (fun z => Ideal.div z Cert.Spec.width) (Finset.sum_congr rfl fun f' _ => ?_)
  exact congrArg₂ (· * ·) (centred_apply v s f') (centred_apply v s f')

/-- A per-channel row laid over the slab reads channel `f` on every row. -/
private theorem overRows_apply (b : FVec Ideal S1x512 .f32) (s : Fin 1024) (f : Fin 512) :
    overRows b (ix2 s f) = b (ix2 (0 : Fin 1) f) := by
  unfold overRows
  exact (broadcastTo_1b_ab_apply _ _ s f).trans (congrFun (shapeCast_self b _) (ix2 (0 : Fin 1) f))

/-! ## One row normalised -/

/-- A row `R` of 512 residuals normalised over its channels, scaled by `G` and shifted by `BE`, at channel `f`. -/
private def rowNorm (R G BE : Fin 512 → EReal) (f : Fin 512) : EReal :=
  ((R f - Ideal.div (∑ f' : Fin 512, R f') Cert.Spec.width)
      * Ideal.rsqrt (Ideal.div (∑ f' : Fin 512,
          (R f' - Ideal.div (∑ f'' : Fin 512, R f'') Cert.Spec.width)
            * (R f' - Ideal.div (∑ f'' : Fin 512, R f'') Cert.Spec.width)) Cert.Spec.width
        + Cert.Spec.eps)) * G f + BE f

/-- The body's stored value at `(u, s, f)` is row `s` of the loaded slabs' residual, normalised. -/
private theorem pay_apply (x0 x1 : FVec Ideal S1x1024x512 .f32) (x2 : FVec Ideal S512x512 .bf16) (x3 x4 x5 : FVec Ideal S1x512 .f32)
    (u : Fin 1) (s : Fin 1024) (f : Fin 512) :
    k5_pay1 (F := Ideal) (k5_pay2 x0 x2 x3 x1 x4) (k5_pay3 x5) (ix3 u s f)
      = rowNorm (fun f' => x1 (ix3 (0 : Fin 1) s f') + ((∑ e : Fin 512, x0 (ix3 (0 : Fin 1) s e) * x2 (ix2 f' e)) + x3 (ix2 (0 : Fin 1) f')))
          (fun f' => x4 (ix2 (0 : Fin 1) f')) (fun f' => x5 (ix2 (0 : Fin 1) f')) f := by
  rw [pay_layers]
  refine (shapeCast_ab_1ab_apply _ _ u s f).trans ?_
  show unitRow (resid x0 x1 x2 x3) (ix2 s f) * overRows x4 (ix2 s f) + overRows x5 (ix2 s f) = _
  rw [unitRow_apply, overRows_apply, overRows_apply]
  simp only [resid_apply]
  rfl

/-- The same with every factor named: whatever the six loaded blocks are known to hold. -/
private theorem pay_apply_of_eq (x0 x1 : FVec Ideal S1x1024x512 .f32) (x2 : FVec Ideal S512x512 .bf16) (x3 x4 x5 : FVec Ideal S1x512 .f32)
    (A X : Fin 1024 → Fin 512 → EReal) (W : Fin 512 → Fin 512 → EReal) (B G BE : Fin 512 → EReal)
    (h0 : ∀ s e, x0 (ix3 (0 : Fin 1) s e) = A s e) (h1 : ∀ s f, x1 (ix3 (0 : Fin 1) s f) = X s f)
    (h2 : ∀ f e, x2 (ix2 f e) = W f e) (h3 : ∀ f, x3 (ix2 (0 : Fin 1) f) = B f)
    (h4 : ∀ f, x4 (ix2 (0 : Fin 1) f) = G f) (h5 : ∀ f, x5 (ix2 (0 : Fin 1) f) = BE f)
    (u : Fin 1) (s : Fin 1024) (f : Fin 512) :
    k5_pay1 (F := Ideal) (k5_pay2 x0 x2 x3 x1 x4) (k5_pay3 x5) (ix3 u s f)
      = rowNorm (fun f' => X s f' + ((∑ e : Fin 512, A s e * W f' e) + B f')) G BE f := by
  rw [pay_apply]
  simp only [h0, h1, h2, h3, h4, h5]

/-- The specification with its three rows given as one-row arrays. -/
private theorem norm_rows_apply (a x : Cert.Spec.Tok.Idx → EReal) (wo : Cert.Spec.Mat.Idx → EReal)
    (bo g be : (⟨2, ![1, 512]⟩ : Shape).Idx → EReal) (n : Fin 8) (s : Fin 1024) (f : Fin 512) :
    Cert.Spec.norm a x wo (Cert.Spec.rowOf bo) (Cert.Spec.rowOf g) (Cert.Spec.rowOf be) (ix3 n s f)
      = rowNorm (fun f' => x (ix3 n s f') + ((∑ e : Fin 512, a (ix3 n s e) * wo (ix2 f' e)) + bo (ix2 (0 : Fin 1) f')))
          (fun f' => g (ix2 (0 : Fin 1) f')) (fun f' => be (ix2 (0 : Fin 1) f')) f := rfl

/-! ## From the slabs to the array -/

private theorem zeros3 : (![0, 0, 0] : Fin 3 → Nat) = fun _ => 0 := funext fun a => by fin_cases a <;> rfl

private theorem zeros2 : (![0, 0] : Fin 2 → Nat) = fun _ => 0 := funext fun a => by fin_cases a <;> rfl

/-- The printed index maps, decided over the grid: at point `t` the three slab windows sit at batch `t`, the weight
    and the three rows at their origin. -/
private theorem idx_facts : ∀ t : Fin cfg5.N,
    win5_0.index t (0 : Fin 3) = t.val ∧ win5_0.index t (1 : Fin 3) = 0 ∧ win5_0.index t (2 : Fin 3) = 0
    ∧ win5_1.index t (0 : Fin 3) = t.val ∧ win5_1.index t (1 : Fin 3) = 0 ∧ win5_1.index t (2 : Fin 3) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 3) = t.val ∧ win5_6.index t (1 : Fin 3) = 0 ∧ win5_6.index t (2 : Fin 3) = 0
    ∧ t.val < 8 :=
  (by decide +kernel : ∀ t : Fin grid5.N, _)

/-- Every batch is some point's. -/
private theorem idx_onto : ∀ n : Fin 8, ∃ t : Fin cfg5.N, win5_6.index t = ![n.val, 0, 0] :=
  (by decide +kernel : ∀ n : Fin 8, ∃ t : Fin grid5.N, win5_6.index t = ![n.val, 0, 0])

set_option maxHeartbeats 1600000 in
/-- What point `t` writes back is slab `t` of the specification's array. -/
private theorem slab_flushed (c : Dev nD) (t : Fin cfg5.N) :
    (dat5 (F := Ideal) V c).flushed 6 t = ((cfg5.win 6).blk t).view.read (Elt Ideal)
      (Cert.Spec.norm (V c main_v71) (V c main_v40) (V c main_v52)
        (Cert.Spec.rowOf (V c main_v78)) (Cert.Spec.rowOf (V c main_v79)) (Cert.Spec.rowOf (V c main_v80))) := by
  show (cfg5.win 6).cut (grid5.coords t) ((dat5 (F := Ideal) V c).after 6 t) = _
  rw [after5_6]
  unfold out5_6
  rw [View.canon_unit_zero zeros3]
  simp only [View.ld_unit_zero (S := S1x1024x512) zeros3, View.ld_unit_zero (S := S512x512) zeros2,
    View.ld_unit_zero (S := S1x512) zeros2]
  obtain ⟨a0, a1, a2, b0, b1, b2, w0, w1, p0, p1, g0, g1, q0, q1, o0, o1, o2, ht⟩ := idx_facts t
  funext j
  obtain ⟨u, s, f, rfl⟩ : ∃ (u : Fin 1) (s : Fin 1024) (f : Fin 512), j = ix3 u s f := ⟨j 0, j 1, j 2, eq_ix3 j⟩
  show k5_pay1 (F := Ideal) (k5_pay2 (iblk5 V c 0 t) (iblk5 V c 2 t) (iblk5 V c 3 t) (iblk5 V c 1 t) (iblk5 V c 4 t)) (k5_pay3 (iblk5 V c 5 t)) (ix3 u s f)
    = Cert.Spec.norm (V c main_v71) (V c main_v40) (V c main_v52)
        (Cert.Spec.rowOf (V c main_v78)) (Cert.Spec.rowOf (V c main_v79)) (Cert.Spec.rowOf (V c main_v80))
        (((cfg5.win 6).blk t).view.emb (ix3 u s f))
  have hu : u.val = 0 := by omega
  have hemb : ((cfg5.win 6).blk t).view.emb (ix3 u s f) = ix3 (⟨t.val, ht⟩ : Fin 8) s f := by
    funext a; apply Fin.ext
    match a with
    | ⟨0, _⟩ => show win5_6.index t (0 : Fin 3) * 1 + 1 * u.val = t.val; omega
    | ⟨1, _⟩ => show win5_6.index t (1 : Fin 3) * 1024 + 1 * s.val = s.val; omega
    | ⟨2, _⟩ => show win5_6.index t (2 : Fin 3) * 512 + 1 * f.val = f.val; omega
  have h0 : ∀ (s : Fin 1024) (e : Fin 512), iblk5 V c 0 t (ix3 (0 : Fin 1) s e) = V c main_v71 (ix3 (⟨t.val, ht⟩ : Fin 8) s e) := fun s e => by
    show V c main_v71 (((cfg5.win 0).blk t).view.emb (ix3 (0 : Fin 1) s e)) = V c main_v71 (ix3 (⟨t.val, ht⟩ : Fin 8) s e)
    refine congrArg _ (funext fun a => Fin.ext ?_)
    match a with
    | ⟨0, _⟩ => show win5_0.index t (0 : Fin 3) * 1 + 1 * 0 = t.val; omega
    | ⟨1, _⟩ => show win5_0.index t (1 : Fin 3) * 1024 + 1 * s.val = s.val; omega
    | ⟨2, _⟩ => show win5_0.index t (2 : Fin 3) * 512 + 1 * e.val = e.val; omega
  have h1 : ∀ (s : Fin 1024) (f : Fin 512), iblk5 V c 1 t (ix3 (0 : Fin 1) s f) = V c main_v40 (ix3 (⟨t.val, ht⟩ : Fin 8) s f) := fun s f => by
    show V c main_v40 (((cfg5.win 1).blk t).view.emb (ix3 (0 : Fin 1) s f)) = V c main_v40 (ix3 (⟨t.val, ht⟩ : Fin 8) s f)
    refine congrArg _ (funext fun a => Fin.ext ?_)
    match a with
    | ⟨0, _⟩ => show win5_1.index t (0 : Fin 3) * 1 + 1 * 0 = t.val; omega
    | ⟨1, _⟩ => show win5_1.index t (1 : Fin 3) * 1024 + 1 * s.val = s.val; omega
    | ⟨2, _⟩ => show win5_1.index t (2 : Fin 3) * 512 + 1 * f.val = f.val; omega
  have h2 : ∀ (f e : Fin 512), iblk5 V c 2 t (ix2 f e) = V c main_v52 (ix2 f e) := fun f e => by
    show V c main_v52 (((cfg5.win 2).blk t).view.emb (ix2 f e)) = V c main_v52 (ix2 f e)
    refine congrArg _ (funext fun a => Fin.ext ?_)
    match a with
    | ⟨0, _⟩ => show win5_2.index t (0 : Fin 2) * 512 + 1 * f.val = f.val; omega
    | ⟨1, _⟩ => show win5_2.index t (1 : Fin 2) * 512 + 1 * e.val = e.val; omega
  have h3 : ∀ (f : Fin 512), iblk5 V c 3 t (ix2 (0 : Fin 1) f) = V c main_v78 (ix2 (0 : Fin 1) f) := fun f => by
    show V c main_v78 (((cfg5.win 3).blk t).view.emb (ix2 (0 : Fin 1) f)) = V c main_v78 (ix2 (0 : Fin 1) f)
    refine congrArg _ (funext fun a => Fin.ext ?_)
    match a with
    | ⟨0, _⟩ => show win5_3.index t (0 : Fin 2) * 1 + 1 * 0 = 0; omega
    | ⟨1, _⟩ => show win5_3.index t (1 : Fin 2) * 512 + 1 * f.val = f.val; omega
  have h4 : ∀ (f : Fin 512), iblk5 V c 4 t (ix2 (0 : Fin 1) f) = V c main_v79 (ix2 (0 : Fin 1) f) := fun f => by
    show V c main_v79 (((cfg5.win 4).blk t).view.emb (ix2 (0 : Fin 1) f)) = V c main_v79 (ix2 (0 : Fin 1) f)
    refine congrArg _ (funext fun a => Fin.ext ?_)
    match a with
    | ⟨0, _⟩ => show win5_4.index t (0 : Fin 2) * 1 + 1 * 0 = 0; omega
    | ⟨1, _⟩ => show win5_4.index t (1 : Fin 2) * 512 + 1 * f.val = f.val; omega
  have h5 : ∀ (f : Fin 512), iblk5 V c 5 t (ix2 (0 : Fin 1) f) = V c main_v80 (ix2 (0 : Fin 1) f) := fun f => by
    show V c main_v80 (((cfg5.win 5).blk t).view.emb (ix2 (0 : Fin 1) f)) = V c main_v80 (ix2 (0 : Fin 1) f)
    refine congrArg _ (funext fun a => Fin.ext ?_)
    match a with
    | ⟨0, _⟩ => show win5_5.index t (0 : Fin 2) * 1 + 1 * 0 = 0; omega
    | ⟨1, _⟩ => show win5_5.index t (1 : Fin 2) * 512 + 1 * f.val = f.val; omega
  refine (pay_apply_of_eq (iblk5 V c 0 t) (iblk5 V c 1 t) (iblk5 V c 2 t) (iblk5 V c 3 t) (iblk5 V c 4 t) (iblk5 V c 5 t)
    (fun s e => V c main_v71 (ix3 (⟨t.val, ht⟩ : Fin 8) s e)) (fun s f => V c main_v40 (ix3 (⟨t.val, ht⟩ : Fin 8) s f))
    (fun f e => V c main_v52 (ix2 f e)) (fun f => V c main_v78 (ix2 (0 : Fin 1) f))
    (fun f => V c main_v79 (ix2 (0 : Fin 1) f)) (fun f => V c main_v80 (ix2 (0 : Fin 1) f))
    h0 h1 h2 h3 h4 h5 u s f).trans ?_
  exact ((congrArg (Cert.Spec.norm (V c main_v71) (V c main_v40) (V c main_v52)
      (Cert.Spec.rowOf (V c main_v78)) (Cert.Spec.rowOf (V c main_v79)) (Cert.Spec.rowOf (V c main_v80))) hemb).trans
    (norm_rows_apply _ _ _ _ _ _ (⟨t.val, ht⟩ : Fin 8) s f)).symm

/-- An index of the array is in point `t`'s slab iff each coordinate is in the slab's range on its axis. -/
private theorem mem_slab (t : Fin cfg5.N) (i : S8x1024x512.Idx) :
    i ∈ ((cfg5.win 6).blk t).view.set ↔ ∀ a : Fin 3, win5_6.index t a * S1x1024x512.size a ≤ (i a).val
      ∧ (i a).val < win5_6.index t a * S1x1024x512.size a + S1x1024x512.size a := by
  show i ∈ ((View.whole main_v81).slice (win5_6.rect t)).set ↔ _
  rw [View.set_slice_whole, Rect.mem_set_unit]
  exact Iff.rfl

/-- The eight slabs tile the array: every index is in the slab of its batch. -/
private theorem slab_cover (i : S8x1024x512.Idx) :
    ∃ t : Fin cfg5.N, (cfg5.win 6).flush t = true ∧ i ∈ ((cfg5.win 6).blk t).view.set := by
  have hi0 : (i 0).val < 8 := (i 0).isLt
  have hi1 : (i 1).val < 1024 := (i 1).isLt
  have hi2 : (i 2).val < 512 := (i 2).isLt
  obtain ⟨t, ht⟩ := idx_onto ⟨(i 0).val, hi0⟩
  have q0 : win5_6.index t (0 : Fin 3) = (i 0).val := congrFun ht 0
  have q1 : win5_6.index t (1 : Fin 3) = 0 := congrFun ht 1
  have q2 : win5_6.index t (2 : Fin 3) = 0 := congrFun ht 2
  refine ⟨t, flush5_6 t, ?_⟩
  rw [mem_slab]
  intro a
  match a with
  | ⟨0, _⟩ => show win5_6.index t (0 : Fin 3) * 1 ≤ (i 0).val ∧ (i 0).val < win5_6.index t (0 : Fin 3) * 1 + 1; omega
  | ⟨1, _⟩ => show win5_6.index t (1 : Fin 3) * 1024 ≤ (i 1).val ∧ (i 1).val < win5_6.index t (1 : Fin 3) * 1024 + 1024; omega
  | ⟨2, _⟩ => show win5_6.index t (2 : Fin 3) * 512 ≤ (i 2).val ∧ (i 2).val < win5_6.index t (2 : Fin 3) * 512 + 512; omega

theorem norm5 (c : Dev nD) : (dat5 (F := Ideal) V c).arrAt 6 cfg5.N
    = Cert.Spec.norm (V c main_v71) (V c main_v40) (V c main_v52)
        (Cert.Spec.rowOf (V c main_v78)) (Cert.Spec.rowOf (V c main_v79)) (Cert.Spec.rowOf (V c main_v80)) :=
  (dat5 (F := Ideal) V c).arrAt_eq_of_cover 6 _ (fun t _ => slab_flushed V c t) slab_cover

end Cert.KernelIdeal.RegionValueB

end
-- ==== Proof.lean ====
/-
  Two attention layers: the kernel program against its reference, over the extended reals.

  Each layer projects the tokens three ways, splits the channel axis into heads, attends within each head
  (scores scaled by ⅛ and gated multiplicatively by `adj` BEFORE the softmax, the softmax taken as
  exp (score − row maximum) over its row sum), merges the heads back, projects once more, adds the tokens
  back and normalises each token over its channels.  The kernel program runs each layer as three launched
  kernels (projections per batch, attention per (batch, head), output projection and normalisation per
  batch) among layout operations; the reference runs it as whole-array operations.

  Both are proved equal, stage by stage, to one specification (Spec.lean): on the kernel's side each region's
  output array after its run is the specification's stage of its input arrays (blocks that tile the array,
  each block the stage's restriction), and the stretches between regions only cut, recast and permute; on
  the reference's side each stage is read entry by entry.  No law of arithmetic beyond 0 + x = x and
  max (−∞-word) (a maximum started from that word) = that maximum is used, so nothing depends on the inputs
  being finite: the two programs compute the same sums and folds in the same order, entry by entry.

  The three frames are the generated ones (the reference's is its generated run with the result dropped);
  the idealization rewrote no operation, so `preserves` is trivial.
-/
import proofs.«428822_j16243566313770_3_alg».proof.Defs
import proofs.«428822_j16243566313770_3_alg».proof.Proof.Gen.Kernel
import proofs.«428822_j16243566313770_3_alg».proof.Proof.Gen.Kernel.Skeleton
import proofs.«428822_j16243566313770_3_alg».proof.Proof.Gen.Kernel.Launch
import proofs.«428822_j16243566313770_3_alg».proof.Proof.Gen.Kernel.Points
import proofs.«428822_j16243566313770_3_alg».proof.Proof.Gen.Kernel.Frame
import proofs.«428822_j16243566313770_3_alg».proof.Proof.Gen.KernelIdeal
import proofs.«428822_j16243566313770_3_alg».proof.Proof.Gen.KernelIdeal.Skeleton
import proofs.«428822_j16243566313770_3_alg».proof.Proof.Gen.KernelIdeal.Launch
import proofs.«428822_j16243566313770_3_alg».proof.Proof.Gen.KernelIdeal.Points
import proofs.«428822_j16243566313770_3_alg».proof.Proof.Gen.KernelIdeal.Frame
import proofs.«428822_j16243566313770_3_alg».proof.Proof.Gen.ReferenceIdeal
import proofs.«428822_j16243566313770_3_alg».proof.Proof.Gen.ReferenceIdeal.Run
import proofs.«428822_j16243566313770_3_alg».proof.Proof.Gen.Pre_finite_inputs
import proofs.«428822_j16243566313770_3_alg».proof.Proof.Bridge
import proofs.«428822_j16243566313770_3_alg».proof.Proof.RegionQkv
import proofs.«428822_j16243566313770_3_alg».proof.Proof.RegionAttn
import proofs.«428822_j16243566313770_3_alg».proof.Proof.RegionNorm
import proofs.«428822_j16243566313770_3_alg».proof.Proof.RegionQkvB
import proofs.«428822_j16243566313770_3_alg».proof.Proof.RegionAttnB
import proofs.«428822_j16243566313770_3_alg».proof.Proof.RegionNormB
import Idealize.ShloMosaic.Adequacy
import Idealize.ShloMosaic.Init

noncomputable section

namespace Cert.Proof

open Idealize.ShloMosaic Idealize.SL.Sem Cert.Kernel

/-- What the six regions compute, region by region. -/
theorem regionLaws : Cert.KernelIdeal.Chain.RegionLaws where
  q0 := Cert.KernelIdeal.RegionValue.qkv0_q
  k0 := Cert.KernelIdeal.RegionValue.qkv0_k
  v0 := Cert.KernelIdeal.RegionValue.qkv0_v
  a1 := Cert.KernelIdeal.RegionValue.attn1
  n2 := Cert.KernelIdeal.RegionValue.norm2
  q3 := Cert.KernelIdeal.RegionValueB.qkv3_q
  k3 := Cert.KernelIdeal.RegionValueB.qkv3_k
  v3 := Cert.KernelIdeal.RegionValueB.qkv3_v
  a4 := Cert.KernelIdeal.RegionValueB.attn4
  n5 := Cert.KernelIdeal.RegionValueB.norm5

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.Chain.twoLayers m c,
    Cert.KernelIdeal.Chain.run_value m ρ regionLaws,
    (θ_run Cert.ReferenceIdeal.defs _ _).mono
      (fun _ h c => ⟨(h c).1.trans (Cert.Bridge.meet m m' c (hagree c)), (h c).2⟩)
      (Cert.ReferenceIdeal.Value.run (F := Ideal) m' ρ')⟩⟩

end Cert.Proof

end
